-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v368) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S8x128x128 : Shape := ⟨3, ![8, 128, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1x800000 : Shape := ⟨2, ![1, 800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg2 : IVec S800000 32) (main_v43 : IVec S_ 1) (main_v47 : IVec S800000 1) (main_v51 : IVec S800000 1) : IVec S_ 1 :=
  let main_v52 : IVec S800000 1 := andi main_v47 main_v51
  let main_c_18 : IVec S_ 1 := constantI S_ 1 1#1
  let main_v53 : IVec S_ 1 := (fun x v => Host.reduce IntOp.andi x v reducesTo_S800000_S_d0 h_S_) main_v52 main_c_18
  let main_v54 : IVec S_ 1 := andi main_v43 main_v53
  let main_c_19 : IVec S_ 32 := constantI S_ 32 0#32
  let main_v55 : IVec S800000 32 := broadcastInDim S800000 ![] bcast_S_S800000 main_c_19
  let main_v56 : IVec S800000 1 := cmpi .sge main_arg2 main_v55
  let main_c_20 : IVec S_ 32 := constantI S_ 32 8#32
  let main_v57 : IVec S800000 32 := broadcastInDim S800000 ![] bcast_S_S800000 main_c_20
  let main_v58 : IVec S800000 1 := cmpi .slt main_arg2 main_v57
  let main_v59 : IVec S800000 1 := andi main_v56 main_v58
  let main_c_21 : IVec S_ 1 := constantI S_ 1 1#1
  let main_v60 : IVec S_ 1 := (fun x v => Host.reduce IntOp.andi x v reducesTo_S800000_S_d0 h_S_) main_v59 main_c_21
  let main_v61 : IVec S_ 1 := andi main_v54 main_v60
  main_v61

def fn_part2 {F : FTy → Type} [FloatOps F] (main_arg1 : IVec S2x800000 32) (main_arg2 : IVec S800000 32) (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : IVec S1x800000 32 := (extractStridedSlice S1x800000 ![1, 0] · slices_S2x800000_S1x800000_1_0) main_arg1
  let main_v45 : IVec S800000 32 := shapeCast S800000 main_v44 shapeCasts_S1x800000_S800000
  let main_c_16 : IVec S_ 32 := constantI S_ 32 0#32
  let main_v46 : IVec S800000 32 := broadcastInDim S800000 ![] bcast_S_S800000 main_c_16
  let main_v47 : IVec S800000 1 := cmpi .sge main_v45 main_v46
  let main_v48 : IVec S1x800000 32 := (extractStridedSlice S1x800000 ![1, 0] · slices_S2x800000_S1x800000_1_0) main_arg1
  let main_v49 : IVec S800000 32 := shapeCast S800000 main_v48 shapeCasts_S1x800000_S800000
  let main_c_17 : IVec S_ 32 := constantI S_ 32 50000#32
  let main_v50 : IVec S800000 32 := broadcastInDim S800000 ![] bcast_S_S800000 main_c_17
  let main_v51 : IVec S800000 1 := cmpi .slt main_v49 main_v50
  fn_part3 (F := F) main_arg2 main_v43 main_v47 main_v51

def fn_part1 {F : FTy → Type} [FloatOps F] (main_arg1 : IVec S2x800000 32) (main_arg2 : IVec S800000 32) (main_arg6 : FVec F S8x128x128 .f32) (main_arg7 : FVec F S128x128 .f32) (main_arg8 : FVec F S128 .f32) (main_arg9 : FVec F S128x1 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S8x128x128 .f32 := Host.absf main_arg6
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_arg9 main_arg10 main_v33

def fn {F : FTy → Type} [FloatOps F] (main_arg0 : FVec F S50000x128 .f32) (main_arg1 : IVec S2x800000 32) (main_arg2 : IVec S800000 32) (main_arg3 : FVec F S8x128x128 .f32) (main_arg4 : FVec F S128x128 .f32) (main_arg5 : FVec F S128 .f32) (main_arg6 : FVec F S8x128x128 .f32) (main_arg7 : FVec F S128x128 .f32) (main_arg8 : FVec F S128 .f32) (main_arg9 : FVec F S128x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S8x128x128 .f32 := Host.absf main_arg3
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg2 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S8x128x128 : Shape := ⟨3, ![8, 128, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S_ : Shape := ⟨0, ![]⟩
abbrev S1024x128 : Shape := ⟨2, ![1024, 128]⟩
abbrev S1x128 : Shape := ⟨2, ![1, 128]⟩
abbrev S800000x1 : Shape := ⟨2, ![800000, 1]⟩
abbrev S800000x128 : Shape := ⟨2, ![800000, 128]⟩
abbrev S400000x128 : Shape := ⟨2, ![400000, 128]⟩
abbrev S400000 : Shape := ⟨1, ![400000]⟩
abbrev S400000x1 : Shape := ⟨2, ![400000, 1]⟩
abbrev S50000x1024 : Shape := ⟨2, ![50000, 1024]⟩
abbrev S2000x128 : Shape := ⟨2, ![2000, 128]⟩
abbrev S2000x1024 : Shape := ⟨2, ![2000, 1024]⟩
abbrev S2 : Shape := ⟨1, ![2]⟩
abbrev S50000x1 : Shape := ⟨2, ![50000, 1]⟩
abbrev S50000 : Shape := ⟨1, ![50000]⟩

abbrev nBuf : Space → Nat
  | .hbm => 93
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .i32⟩
  | .hbm, ⟨3, _⟩ => ⟨S8x128x128, .f32⟩
  | .hbm, ⟨4, _⟩ => ⟨S128x128, .f32⟩
  | .hbm, ⟨5, _⟩ => ⟨S128, .f32⟩
  | .hbm, ⟨6, _⟩ => ⟨S8x128x128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S1024x128, .f32⟩
  | .hbm, ⟨20, _⟩ => ⟨S1x128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S400000x128, .f32⟩
  | .hbm, ⟨32, _⟩ => ⟨S800000x1, .i32⟩
  | .hbm, ⟨33, _⟩ => ⟨S400000x128, .f32⟩
  | .hbm, ⟨34, _⟩ => ⟨S_, .f32⟩
  | .hbm, ⟨35, _⟩ => ⟨S800000, .f32⟩
  | .hbm, ⟨36, _⟩ => ⟨S_, .f32⟩
  | .hbm, ⟨37, _⟩ => ⟨S400000, .f32⟩
  | .hbm, ⟨38, _⟩ => ⟨S800000x1, .i32⟩
  | .hbm, ⟨39, _⟩ => ⟨S400000, .f32⟩
  | .hbm, ⟨40, _⟩ => ⟨S_, .f32⟩
  | .hbm, ⟨41, _⟩ => ⟨S400000, .f32⟩
  | .hbm, ⟨42, _⟩ => ⟨S400000, .f32⟩
  | .hbm, ⟨43, _⟩ => ⟨S400000x1, .f32⟩
  | .hbm, ⟨44, _⟩ => ⟨S400000x128, .f32⟩
  | .hbm, ⟨45, _⟩ => ⟨S400000x128, .f32⟩
  | .hbm, ⟨46, _⟩ => ⟨S50000x1024, .f32⟩
  | .hbm, ⟨47, _⟩ => ⟨S50000x128, .f32⟩
  | .hbm, ⟨48, _⟩ => ⟨S1024x128, .f32⟩
  | .hbm, ⟨49, _⟩ => ⟨S1x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S400000x128, .f32⟩
  | .hbm, ⟨61, _⟩ => ⟨S800000x1, .i32⟩
  | .hbm, ⟨62, _⟩ => ⟨S400000x128, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S400000, .f32⟩
  | .hbm, ⟨67, _⟩ => ⟨S800000x1, .i32⟩
  | .hbm, ⟨68, _⟩ => ⟨S400000, .f32⟩
  | .hbm, ⟨69, _⟩ => ⟨S_, .f32⟩
  | .hbm, ⟨70, _⟩ => ⟨S400000, .f32⟩
  | .hbm, ⟨71, _⟩ => ⟨S400000, .f32⟩
  | .hbm, ⟨72, _⟩ => ⟨S400000x1, .f32⟩
  | .hbm, ⟨73, _⟩ => ⟨S400000x128, .f32⟩
  | .hbm, ⟨74, _⟩ => ⟨S400000x128, .f32⟩
  | .hbm, ⟨75, _⟩ => ⟨S50000x1024, .f32⟩
  | .hbm, ⟨76, _⟩ => ⟨S_, .f32⟩
  | .hbm, ⟨77, _⟩ => ⟨S128x128, .f32⟩
  | .hbm, ⟨78, _⟩ => ⟨S_, .i32⟩
  | .hbm, ⟨79, _⟩ => ⟨S1, .i32⟩
  | .hbm, ⟨80, _⟩ => ⟨S128x128, .f32⟩
  | .hbm, ⟨81, _⟩ => ⟨S_, .f32⟩
  | .hbm, ⟨82, _⟩ => ⟨S1x128, .f32⟩
  | .hbm, ⟨83, _⟩ => ⟨S_, .f32⟩
  | .hbm, ⟨84, _⟩ => ⟨S_, .i32⟩
  | .hbm, ⟨85, _⟩ => ⟨S1, .i32⟩
  | .hbm, ⟨86, _⟩ => ⟨S_, .i32⟩
  | .hbm, ⟨87, _⟩ => ⟨S1, .i32⟩
  | .hbm, ⟨88, _⟩ => ⟨S2, .i32⟩
  | .hbm, ⟨89, _⟩ => ⟨S1x128, .f32⟩
  | .hbm, ⟨90, _⟩ => ⟨S50000x128, .f32⟩
  | .hbm, ⟨91, _⟩ => ⟨S50000x1, .f32⟩
  | .hbm, ⟨92, _⟩ => ⟨S50000, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1024, .f32⟩
  | .local _ .vmem, ⟨4, _⟩ => ⟨S2000x1024, .f32⟩
  | .local _ .vmem, ⟨5, _⟩ => ⟨S1024x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S128x128, .f32⟩
  | .local _ .vmem, ⟨12, _⟩ => ⟨S2000x1024, .f32⟩
  | .local _ .vmem, ⟨13, _⟩ => ⟨S2000x1024, .f32⟩
  | .local _ .vmem, ⟨14, _⟩ => ⟨S1024x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_cst_13 : Ref sig .tc := ⟨.hbm, 81, rfl⟩
abbrev main_v55 : Ref sig .tc := ⟨.hbm, 82, rfl⟩
abbrev main_v56 : Ref sig .tc := ⟨.hbm, 83, rfl⟩
abbrev main_c_14 : Ref sig .tc := ⟨.hbm, 84, rfl⟩
abbrev main_v57 : Ref sig .tc := ⟨.hbm, 85, rfl⟩
abbrev main_c_15 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  shapeCasts_S8x128x128_S1024x128 : S8x128x128.ShapeCasts S1024x128
  shapeCasts_S128_S1x128 : S128.ShapeCasts S1x128
  bcast_S800000_S800000x1_0 : S800000.BroadcastsInDim S800000x1 (![0] : Fin 1 → Fin S800000x1.rank)
  bcast_S_S400000x128 : S_.BroadcastsInDim S400000x128 (![] : Fin 0 → Fin S400000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x128_0_1 : S400000x1.BroadcastsInDim S400000x128 (![0, 1] : Fin 2 → Fin S400000x128.rank)
  shapeCasts_S400000x128_S50000x1024 : S400000x128.ShapeCasts S50000x1024
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  shapeCasts_S1_S_ : S1.ShapeCasts S_
  concatenates_S1_S1_S2_d0 : Shape.Concatenates [S1, S1] S2 0
  shapeCasts_S2000x128_S2000x128 : S2000x128.ShapeCasts S2000x128
  shapeCasts_S128x128_S128x128 : S128x128.ShapeCasts S128x128
  slices_S50000x128_S50000x1_0_0 : S50000x128.Slices ![0, 0] S50000x1
  shapeCasts_S50000x1_S50000 : S50000x1.ShapeCasts S50000
  gather_S50000x128_S800000x1_S800000x128_1_0_n_n_0_1_1128_wf : GatherDims.WF S50000x128 S800000x1 S800000x128 [1] [0] [] [0] [] 1 ![1, 128]
  scatter_S400000x128_S800000x1_S800000x128_1_0_0_1_wf : ScatterDims.WF S400000x128 S800000x1 S800000x128 [1] [0] [0] 1
  scatter_S400000_S800000x1_S800000_n_0_0_1_wf : ScatterDims.WF S400000 S800000x1 S800000 [] [0] [0] 1
  dot_S2000x128_S128x128_S2000x128_1_0_0_1_n_n_wf : DotDims.WF S2000x128 S128x128 S2000x128 [1] [0] [0] [1] [] []
  dot_S2000x1024_S1024x128_S2000x128_1_0_0_1_n_n_wf : DotDims.WF S2000x1024 S1024x128 S2000x128 [1] [0] [0] [1] [] []
  scatter_S128x128_S1_S128x1_01_n_1_0_wf : ScatterDims.WF S128x128 S1 S128x1 [0, 1] [] [1] 0
  scatter_S1x128_S2_S__n_01_01_0_wf : ScatterDims.WF S1x128 S2 S_ [] [0, 1] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1024.size a ≤ S50000x1024.size a
  hwx0_2 : ∀ i : grid0.Coords, EltTy.bits .f32 = 32 ∨ (Rect.block (s := S50000x1024) S2000x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1024.size a ≤ S50000x1024.size a
  hwx1_2 : ∀ i : grid1.Coords, EltTy.bits .f32 = 32 ∨ (Rect.block (s := S50000x1024) S2000x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S1024x128.size a
  hwx1_3 : ∀ i : grid1.Coords, EltTy.bits .f32 = 32 ∨ (Rect.block (s := S1024x128) S1024x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S400000x128_S800000x1_S800000x128_1_0_0_1 : ScatterDims S400000x128 S800000x1 S800000x128 where
  updateWindowDims := [1]
  insertedWindowDims := [0]
  scatterDimsToOperandDims := [0]
  indexVectorDim := 1
  wf := scatter_S400000x128_S800000x1_S800000x128_1_0_0_1_wf
def scatter_S400000_S800000x1_S800000_n_0_0_1 : ScatterDims S400000 S800000x1 S800000 where
  updateWindowDims := []
  insertedWindowDims := [0]
  scatterDimsToOperandDims := [0]
  indexVectorDim := 1
  wf := scatter_S400000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf
def scatter_S128x128_S1_S128x1_01_n_1_0 : ScatterDims S128x128 S1 S128x1 where
  updateWindowDims := [0, 1]
  insertedWindowDims := []
  scatterDimsToOperandDims := [1]
  indexVectorDim := 0
  wf := scatter_S128x128_S1_S128x1_01_n_1_0_wf
def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S2000x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1024x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v61) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S8x128x128 : Shape := ⟨3, ![8, 128, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000 : Shape := ⟨1, ![50000]⟩
abbrev S50000x1 : Shape := ⟨2, ![50000, 1]⟩
abbrev S1x128x128 : Shape := ⟨3, ![1, 128, 128]⟩
abbrev S1x1 : Shape := ⟨2, ![1, 1]⟩

abbrev nBuf : Space → Nat
  | .hbm => 452
  | .vmem => 0
  | .smem => 0
  | _ => 0

abbrev hbmTy0_0 (i : Nat) : BufTy := match i % 128 with
  | 0 => ⟨S50000x128, .f32⟩
  | 1 => ⟨S2x800000, .i32⟩
  | 2 => ⟨S800000, .i32⟩
  | 3 => ⟨S8x128x128, .f32⟩
  | 4 => ⟨S128x128, .f32⟩
  | 5 => ⟨S128, .f32⟩
  | 6 => ⟨S8x128x128, .f32⟩
  | 7 => ⟨S128x128, .f32⟩
  | 8 => ⟨S128, .f32⟩
  | 9 => ⟨S128x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S50000x128, .f32⟩
  | 25 => ⟨S1x128, .f32⟩
  | 26 => ⟨S50000x128, .f32⟩
  | 27 => ⟨S50000x128, .f32⟩
  | 28 => ⟨S_, .i32⟩
  | 29 => ⟨S800000, .i32⟩
  | 30 => ⟨S800000, .i1⟩
  | 31 => ⟨S800000, .f32⟩
  | 32 => ⟨S800000x1, .f32⟩
  | 33 => ⟨S800000x128, .f32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S_, .f32⟩
  | 40 => ⟨S50000, .f32⟩
  | 41 => ⟨S800000x1, .i32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x128, .f32⟩
  | 48 => ⟨S50000x128, .f32⟩
  | 49 => ⟨S1x128x128, .f32⟩
  | 50 => ⟨S128x128, .f32⟩
  | 51 => ⟨S50000x128, .f32⟩
  | 52 => ⟨S50000x128, .f32⟩
  | 53 => ⟨S_, .i32⟩
  | 54 => ⟨S800000, .i32⟩
  | 55 => ⟨S800000, .i1⟩
  | 56 => ⟨S800000, .f32⟩
  | 57 => ⟨S800000x1, .f32⟩
  | 58 => ⟨S800000x128, .f32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S_, .f32⟩
  | 65 => ⟨S50000, .f32⟩
  | 66 => ⟨S800000x1, .i32⟩
  | 67 => ⟨S50000, .f32⟩
  | 68 => ⟨S_, .f32⟩
  | 69 => ⟨S50000, .f32⟩
  | 70 => ⟨S50000, .f32⟩
  | 71 => ⟨S50000x1, .f32⟩
  | 72 => ⟨S50000x128, .f32⟩
  | 73 => ⟨S50000x128, .f32⟩
  | 74 => ⟨S1x128x128, .f32⟩
  | 75 => ⟨S128x128, .f32⟩
  | 76 => ⟨S50000x128, .f32⟩
  | 77 => ⟨S50000x128, .f32⟩
  | 78 => ⟨S_, .i32⟩
  | 79 => ⟨S800000, .i32⟩
  | 80 => ⟨S800000, .i1⟩
  | 81 => ⟨S800000, .f32⟩
  | 82 => ⟨S800000x1, .f32⟩
  | 83 => ⟨S800000x128, .f32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S_, .f32⟩
  | 90 => ⟨S50000, .f32⟩
  | 91 => ⟨S800000x1, .i32⟩
  | 92 => ⟨S50000, .f32⟩
  | 93 => ⟨S_, .f32⟩
  | 94 => ⟨S50000, .f32⟩
  | 95 => ⟨S50000, .f32⟩
  | 96 => ⟨S50000x1, .f32⟩
  | 97 => ⟨S50000x128, .f32⟩
  | 98 => ⟨S50000x128, .f32⟩
  | 99 => ⟨S1x128x128, .f32⟩
  | 100 => ⟨S128x128, .f32⟩
  | 101 => ⟨S50000x128, .f32⟩
  | 102 => ⟨S50000x128, .f32⟩
  | 103 => ⟨S_, .i32⟩
  | 104 => ⟨S800000, .i32⟩
  | 105 => ⟨S800000, .i1⟩
  | 106 => ⟨S800000, .f32⟩
  | 107 => ⟨S800000x1, .f32⟩
  | 108 => ⟨S800000x128, .f32⟩
  | 109 => ⟨S800000x128, .f32⟩
  | 110 => ⟨S_, .f32⟩
  | 111 => ⟨S50000x128, .f32⟩
  | 112 => ⟨S800000x1, .i32⟩
  | 113 => ⟨S50000x128, .f32⟩
  | 114 => ⟨S_, .f32⟩
  | 115 => ⟨S50000, .f32⟩
  | 116 => ⟨S800000x1, .i32⟩
  | 117 => ⟨S50000, .f32⟩
  | 118 => ⟨S_, .f32⟩
  | 119 => ⟨S50000, .f32⟩
  | 120 => ⟨S50000, .f32⟩
  | 121 => ⟨S50000x1, .f32⟩
  | 122 => ⟨S50000x128, .f32⟩
  | 123 => ⟨S50000x128, .f32⟩
  | 124 => ⟨S1x128x128, .f32⟩
  | 125 => ⟨S128x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .i32⟩
  | 1 => ⟨S800000, .i32⟩
  | 2 => ⟨S800000, .i1⟩
  | 3 => ⟨S800000, .f32⟩
  | 4 => ⟨S800000x1, .f32⟩
  | 5 => ⟨S800000x128, .f32⟩
  | 6 => ⟨S800000x128, .f32⟩
  | 7 => ⟨S_, .f32⟩
  | 8 => ⟨S50000x128, .f32⟩
  | 9 => ⟨S800000x1, .i32⟩
  | 10 => ⟨S50000x128, .f32⟩
  | 11 => ⟨S_, .f32⟩
  | 12 => ⟨S50000, .f32⟩
  | 13 => ⟨S800000x1, .i32⟩
  | 14 => ⟨S50000, .f32⟩
  | 15 => ⟨S_, .f32⟩
  | 16 => ⟨S50000, .f32⟩
  | 17 => ⟨S50000, .f32⟩
  | 18 => ⟨S50000x1, .f32⟩
  | 19 => ⟨S50000x128, .f32⟩
  | 20 => ⟨S50000x128, .f32⟩
  | 21 => ⟨S1x128x128, .f32⟩
  | 22 => ⟨S128x128, .f32⟩
  | 23 => ⟨S50000x128, .f32⟩
  | 24 => ⟨S50000x128, .f32⟩
  | 25 => ⟨S_, .i32⟩
  | 26 => ⟨S800000, .i32⟩
  | 27 => ⟨S800000, .i1⟩
  | 28 => ⟨S800000, .f32⟩
  | 29 => ⟨S800000x1, .f32⟩
  | 30 => ⟨S800000x128, .f32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S_, .f32⟩
  | 37 => ⟨S50000, .f32⟩
  | 38 => ⟨S800000x1, .i32⟩
  | 39 => ⟨S50000, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S1x128x128, .f32⟩
  | 47 => ⟨S128x128, .f32⟩
  | 48 => ⟨S50000x128, .f32⟩
  | 49 => ⟨S50000x128, .f32⟩
  | 50 => ⟨S_, .i32⟩
  | 51 => ⟨S800000, .i32⟩
  | 52 => ⟨S800000, .i1⟩
  | 53 => ⟨S800000, .f32⟩
  | 54 => ⟨S800000x1, .f32⟩
  | 55 => ⟨S800000x128, .f32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S_, .f32⟩
  | 62 => ⟨S50000, .f32⟩
  | 63 => ⟨S800000x1, .i32⟩
  | 64 => ⟨S50000, .f32⟩
  | 65 => ⟨S_, .f32⟩
  | 66 => ⟨S50000, .f32⟩
  | 67 => ⟨S50000, .f32⟩
  | 68 => ⟨S50000x1, .f32⟩
  | 69 => ⟨S50000x128, .f32⟩
  | 70 => ⟨S50000x128, .f32⟩
  | 71 => ⟨S1x128x128, .f32⟩
  | 72 => ⟨S128x128, .f32⟩
  | 73 => ⟨S50000x128, .f32⟩
  | 74 => ⟨S50000x128, .f32⟩
  | 75 => ⟨S_, .i32⟩
  | 76 => ⟨S800000, .i32⟩
  | 77 => ⟨S800000, .i1⟩
  | 78 => ⟨S800000, .f32⟩
  | 79 => ⟨S800000x1, .f32⟩
  | 80 => ⟨S800000x128, .f32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S_, .f32⟩
  | 87 => ⟨S50000, .f32⟩
  | 88 => ⟨S800000x1, .i32⟩
  | 89 => ⟨S50000, .f32⟩
  | 90 => ⟨S_, .f32⟩
  | 91 => ⟨S50000, .f32⟩
  | 92 => ⟨S50000, .f32⟩
  | 93 => ⟨S50000x1, .f32⟩
  | 94 => ⟨S50000x128, .f32⟩
  | 95 => ⟨S50000x128, .f32⟩
  | 96 => ⟨S1x128x128, .f32⟩
  | 97 => ⟨S128x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S50000x128, .f32⟩
  | 113 => ⟨S1x128, .f32⟩
  | 114 => ⟨S50000x128, .f32⟩
  | 115 => ⟨S50000x128, .f32⟩
  | 116 => ⟨S_, .i32⟩
  | 117 => ⟨S800000, .i32⟩
  | 118 => ⟨S800000, .i1⟩
  | 119 => ⟨S800000, .f32⟩
  | 120 => ⟨S800000x1, .f32⟩
  | 121 => ⟨S800000x128, .f32⟩
  | 122 => ⟨S800000x128, .f32⟩
  | 123 => ⟨S_, .f32⟩
  | 124 => ⟨S50000x128, .f32⟩
  | 125 => ⟨S800000x1, .i32⟩
  | 126 => ⟨S50000x128, .f32⟩
  | 127 => ⟨S_, .f32⟩
  | _ => ⟨S50000x128, .f32⟩

abbrev hbmTy0_2 (i : Nat) : BufTy := match i % 128 with
  | 0 => ⟨S50000, .f32⟩
  | 1 => ⟨S800000x1, .i32⟩
  | 2 => ⟨S50000, .f32⟩
  | 3 => ⟨S_, .f32⟩
  | 4 => ⟨S50000, .f32⟩
  | 5 => ⟨S50000, .f32⟩
  | 6 => ⟨S50000x1, .f32⟩
  | 7 => ⟨S50000x128, .f32⟩
  | 8 => ⟨S50000x128, .f32⟩
  | 9 => ⟨S1x128x128, .f32⟩
  | 10 => ⟨S128x128, .f32⟩
  | 11 => ⟨S50000x128, .f32⟩
  | 12 => ⟨S50000x128, .f32⟩
  | 13 => ⟨S_, .i32⟩
  | 14 => ⟨S800000, .i32⟩
  | 15 => ⟨S800000, .i1⟩
  | 16 => ⟨S800000, .f32⟩
  | 17 => ⟨S800000x1, .f32⟩
  | 18 => ⟨S800000x128, .f32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .f32⟩
  | 31 => ⟨S50000x1, .f32⟩
  | 32 => ⟨S50000x128, .f32⟩
  | 33 => ⟨S50000x128, .f32⟩
  | 34 => ⟨S1x128x128, .f32⟩
  | 35 => ⟨S128x128, .f32⟩
  | 36 => ⟨S50000x128, .f32⟩
  | 37 => ⟨S50000x128, .f32⟩
  | 38 => ⟨S_, .i32⟩
  | 39 => ⟨S800000, .i32⟩
  | 40 => ⟨S800000, .i1⟩
  | 41 => ⟨S800000, .f32⟩
  | 42 => ⟨S800000x1, .f32⟩
  | 43 => ⟨S800000x128, .f32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S_, .f32⟩
  | 50 => ⟨S50000, .f32⟩
  | 51 => ⟨S800000x1, .i32⟩
  | 52 => ⟨S50000, .f32⟩
  | 53 => ⟨S_, .f32⟩
  | 54 => ⟨S50000, .f32⟩
  | 55 => ⟨S50000, .f32⟩
  | 56 => ⟨S50000x1, .f32⟩
  | 57 => ⟨S50000x128, .f32⟩
  | 58 => ⟨S50000x128, .f32⟩
  | 59 => ⟨S1x128x128, .f32⟩
  | 60 => ⟨S128x128, .f32⟩
  | 61 => ⟨S50000x128, .f32⟩
  | 62 => ⟨S50000x128, .f32⟩
  | 63 => ⟨S_, .i32⟩
  | 64 => ⟨S800000, .i32⟩
  | 65 => ⟨S800000, .i1⟩
  | 66 => ⟨S800000, .f32⟩
  | 67 => ⟨S800000x1, .f32⟩
  | 68 => ⟨S800000x128, .f32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S_, .f32⟩
  | 75 => ⟨S50000, .f32⟩
  | 76 => ⟨S800000x1, .i32⟩
  | 77 => ⟨S50000, .f32⟩
  | 78 => ⟨S_, .f32⟩
  | 79 => ⟨S50000, .f32⟩
  | 80 => ⟨S50000, .f32⟩
  | 81 => ⟨S50000x1, .f32⟩
  | 82 => ⟨S50000x128, .f32⟩
  | 83 => ⟨S50000x128, .f32⟩
  | 84 => ⟨S1x128x128, .f32⟩
  | 85 => ⟨S128x128, .f32⟩
  | 86 => ⟨S50000x128, .f32⟩
  | 87 => ⟨S50000x128, .f32⟩
  | 88 => ⟨S_, .i32⟩
  | 89 => ⟨S800000, .i32⟩
  | 90 => ⟨S800000, .i1⟩
  | 91 => ⟨S800000, .f32⟩
  | 92 => ⟨S800000x1, .f32⟩
  | 93 => ⟨S800000x128, .f32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S_, .f32⟩
  | 100 => ⟨S50000, .f32⟩
  | 101 => ⟨S800000x1, .i32⟩
  | 102 => ⟨S50000, .f32⟩
  | 103 => ⟨S_, .f32⟩
  | 104 => ⟨S50000, .f32⟩
  | 105 => ⟨S50000, .f32⟩
  | 106 => ⟨S50000x1, .f32⟩
  | 107 => ⟨S50000x128, .f32⟩
  | 108 => ⟨S50000x128, .f32⟩
  | 109 => ⟨S1x128x128, .f32⟩
  | 110 => ⟨S128x128, .f32⟩
  | 111 => ⟨S50000x128, .f32⟩
  | 112 => ⟨S50000x128, .f32⟩
  | 113 => ⟨S_, .i32⟩
  | 114 => ⟨S800000, .i32⟩
  | 115 => ⟨S800000, .i1⟩
  | 116 => ⟨S800000, .f32⟩
  | 117 => ⟨S800000x1, .f32⟩
  | 118 => ⟨S800000x128, .f32⟩
  | 119 => ⟨S800000x128, .f32⟩
  | 120 => ⟨S_, .f32⟩
  | 121 => ⟨S50000x128, .f32⟩
  | 122 => ⟨S800000x1, .i32⟩
  | 123 => ⟨S50000x128, .f32⟩
  | 124 => ⟨S_, .f32⟩
  | 125 => ⟨S50000, .f32⟩
  | 126 => ⟨S800000x1, .i32⟩
  | 127 => ⟨S50000, .f32⟩
  | _ => ⟨S50000x128, .f32⟩

abbrev hbmTy0_3 (i : Nat) : BufTy := match i % 128 with
  | 0 => ⟨S_, .f32⟩
  | 1 => ⟨S50000, .f32⟩
  | 2 => ⟨S50000, .f32⟩
  | 3 => ⟨S50000x1, .f32⟩
  | 4 => ⟨S50000x128, .f32⟩
  | 5 => ⟨S50000x128, .f32⟩
  | 6 => ⟨S1x128x128, .f32⟩
  | 7 => ⟨S128x128, .f32⟩
  | 8 => ⟨S50000x128, .f32⟩
  | 9 => ⟨S50000x128, .f32⟩
  | 10 => ⟨S_, .i32⟩
  | 11 => ⟨S800000, .i32⟩
  | 12 => ⟨S800000, .i1⟩
  | 13 => ⟨S800000, .f32⟩
  | 14 => ⟨S800000x1, .f32⟩
  | 15 => ⟨S800000x128, .f32⟩
  | 16 => ⟨S800000x128, .f32⟩
  | 17 => ⟨S_, .f32⟩
  | 18 => ⟨S50000x128, .f32⟩
  | 19 => ⟨S800000x1, .i32⟩
  | 20 => ⟨S50000x128, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000x1, .f32⟩
  | 29 => ⟨S50000x128, .f32⟩
  | 30 => ⟨S50000x128, .f32⟩
  | 31 => ⟨S1x128x128, .f32⟩
  | 32 => ⟨S128x128, .f32⟩
  | 33 => ⟨S50000x128, .f32⟩
  | 34 => ⟨S50000x128, .f32⟩
  | 35 => ⟨S_, .i32⟩
  | 36 => ⟨S800000, .i32⟩
  | 37 => ⟨S800000, .i1⟩
  | 38 => ⟨S800000, .f32⟩
  | 39 => ⟨S800000x1, .f32⟩
  | 40 => ⟨S800000x128, .f32⟩
  | 41 => ⟨S800000x128, .f32⟩
  | 42 => ⟨S_, .f32⟩
  | 43 => ⟨S50000x128, .f32⟩
  | 44 => ⟨S800000x1, .i32⟩
  | 45 => ⟨S50000x128, .f32⟩
  | 46 => ⟨S_, .f32⟩
  | 47 => ⟨S50000, .f32⟩
  | 48 => ⟨S800000x1, .i32⟩
  | 49 => ⟨S50000, .f32⟩
  | 50 => ⟨S_, .f32⟩
  | 51 => ⟨S50000, .f32⟩
  | 52 => ⟨S50000, .f32⟩
  | 53 => ⟨S50000x1, .f32⟩
  | 54 => ⟨S50000x128, .f32⟩
  | 55 => ⟨S50000x128, .f32⟩
  | 56 => ⟨S1x128x128, .f32⟩
  | 57 => ⟨S128x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S50000x1, .f32⟩
  | 64 => ⟨S1x1, .f32⟩
  | 65 => ⟨S50000x1, .f32⟩
  | 66 => ⟨S50000x1, .f32⟩
  | 67 => ⟨S50000, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_8 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_9 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_12 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_13 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_14 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_15 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_c_16 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_17 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_18 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_19 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_c_20 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_cst_21 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_22 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_23 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_c_24 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_cst_25 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_cst_26 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_cst_27 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_c_28 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_cst_29 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_cst_30 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_cst_31 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_call0_cst : Ref sig .tc := ⟨.hbm, 228, rfl⟩
abbrev main_call0_v0 : Ref sig .tc := ⟨.hbm, 229, rfl⟩
abbrev main_v183 : Ref sig .tc := ⟨.hbm, 230, rfl⟩
abbrev main_c_32 : Ref sig .tc := ⟨.hbm, 231, rfl⟩
abbrev main_v184 : Ref sig .tc := ⟨.hbm, 232, rfl⟩
abbrev main_v185 : Ref sig .tc := ⟨.hbm, 233, rfl⟩
abbrev main_c_33 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_c_34 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_cst_35 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_cst_36 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_cst_37 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_c_38 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_cst_39 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_cst_40 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_cst_41 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_c_42 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_cst_43 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_cst_44 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_cst_45 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_c_46 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_cst_47 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_cst_48 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_cst_49 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_v277 : Ref sig .tc := ⟨.hbm, 342, rfl⟩
abbrev main_v278 : Ref sig .tc := ⟨.hbm, 343, rfl⟩
abbrev main_c_50 : Ref sig .tc := ⟨.hbm, 344, rfl⟩
abbrev main_v279 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_v283 : Ref sig .tc := ⟨.hbm, 349, rfl⟩
abbrev main_v284 : Ref sig .tc := ⟨.hbm, 350, rfl⟩
abbrev main_cst_51 : Ref sig .tc := ⟨.hbm, 351, rfl⟩
abbrev main_v285 : Ref sig .tc := ⟨.hbm, 352, rfl⟩
abbrev main_v286 : Ref sig .tc := ⟨.hbm, 353, rfl⟩
abbrev main_v287 : Ref sig .tc := ⟨.hbm, 354, rfl⟩
abbrev main_cst_52 : Ref sig .tc := ⟨.hbm, 355, rfl⟩
abbrev main_v288 : Ref sig .tc := ⟨.hbm, 356, rfl⟩
abbrev main_v289 : Ref sig .tc := ⟨.hbm, 357, rfl⟩
abbrev main_v290 : Ref sig .tc := ⟨.hbm, 358, rfl⟩
abbrev main_cst_53 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩
abbrev main_v294 : Ref sig .tc := ⟨.hbm, 363, rfl⟩
abbrev main_v295 : Ref sig .tc := ⟨.hbm, 364, rfl⟩
abbrev main_v296 : Ref sig .tc := ⟨.hbm, 365, rfl⟩
abbrev main_v297 : Ref sig .tc := ⟨.hbm, 366, rfl⟩
abbrev main_v298 : Ref sig .tc := ⟨.hbm, 367, rfl⟩
abbrev main_v299 : Ref sig .tc := ⟨.hbm, 368, rfl⟩
abbrev main_c_54 : Ref sig .tc := ⟨.hbm, 369, rfl⟩
abbrev main_v300 : Ref sig .tc := ⟨.hbm, 370, rfl⟩
abbrev main_v301 : Ref sig .tc := ⟨.hbm, 371, rfl⟩
abbrev main_v302 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_cst_55 : Ref sig .tc := ⟨.hbm, 376, rfl⟩
abbrev main_v306 : Ref sig .tc := ⟨.hbm, 377, rfl⟩
abbrev main_v307 : Ref sig .tc := ⟨.hbm, 378, rfl⟩
abbrev main_v308 : Ref sig .tc := ⟨.hbm, 379, rfl⟩
abbrev main_cst_56 : Ref sig .tc := ⟨.hbm, 380, rfl⟩
abbrev main_v309 : Ref sig .tc := ⟨.hbm, 381, rfl⟩
abbrev main_v310 : Ref sig .tc := ⟨.hbm, 382, rfl⟩
abbrev main_v311 : Ref sig .tc := ⟨.hbm, 383, rfl⟩
abbrev main_cst_57 : Ref sig .tc := ⟨.hbm, 384, rfl⟩
abbrev main_v312 : Ref sig .tc := ⟨.hbm, 385, rfl⟩
abbrev main_v313 : Ref sig .tc := ⟨.hbm, 386, rfl⟩
abbrev main_v314 : Ref sig .tc := ⟨.hbm, 387, rfl⟩
abbrev main_v315 : Ref sig .tc := ⟨.hbm, 388, rfl⟩
abbrev main_v316 : Ref sig .tc := ⟨.hbm, 389, rfl⟩
abbrev main_v317 : Ref sig .tc := ⟨.hbm, 390, rfl⟩
abbrev main_v318 : Ref sig .tc := ⟨.hbm, 391, rfl⟩
abbrev main_v319 : Ref sig .tc := ⟨.hbm, 392, rfl⟩
abbrev main_v320 : Ref sig .tc := ⟨.hbm, 393, rfl⟩
abbrev main_c_58 : Ref sig .tc := ⟨.hbm, 394, rfl⟩
abbrev main_v321 : Ref sig .tc := ⟨.hbm, 395, rfl⟩
abbrev main_v322 : Ref sig .tc := ⟨.hbm, 396, rfl⟩
abbrev main_v323 : Ref sig .tc := ⟨.hbm, 397, rfl⟩
abbrev main_v324 : Ref sig .tc := ⟨.hbm, 398, rfl⟩
abbrev main_v325 : Ref sig .tc := ⟨.hbm, 399, rfl⟩
abbrev main_v326 : Ref sig .tc := ⟨.hbm, 400, rfl⟩
abbrev main_cst_59 : Ref sig .tc := ⟨.hbm, 401, rfl⟩
abbrev main_v327 : Ref sig .tc := ⟨.hbm, 402, rfl⟩
abbrev main_v328 : Ref sig .tc := ⟨.hbm, 403, rfl⟩
abbrev main_v329 : Ref sig .tc := ⟨.hbm, 404, rfl⟩
abbrev main_cst_60 : Ref sig .tc := ⟨.hbm, 405, rfl⟩
abbrev main_v330 : Ref sig .tc := ⟨.hbm, 406, rfl⟩
abbrev main_v331 : Ref sig .tc := ⟨.hbm, 407, rfl⟩
abbrev main_v332 : Ref sig .tc := ⟨.hbm, 408, rfl⟩
abbrev main_cst_61 : Ref sig .tc := ⟨.hbm, 409, rfl⟩
abbrev main_v333 : Ref sig .tc := ⟨.hbm, 410, rfl⟩
abbrev main_v334 : Ref sig .tc := ⟨.hbm, 411, rfl⟩
abbrev main_v335 : Ref sig .tc := ⟨.hbm, 412, rfl⟩
abbrev main_v336 : Ref sig .tc := ⟨.hbm, 413, rfl⟩
abbrev main_v337 : Ref sig .tc := ⟨.hbm, 414, rfl⟩
abbrev main_v338 : Ref sig .tc := ⟨.hbm, 415, rfl⟩
abbrev main_v339 : Ref sig .tc := ⟨.hbm, 416, rfl⟩
abbrev main_v340 : Ref sig .tc := ⟨.hbm, 417, rfl⟩
abbrev main_v341 : Ref sig .tc := ⟨.hbm, 418, rfl⟩
abbrev main_c_62 : Ref sig .tc := ⟨.hbm, 419, rfl⟩
abbrev main_v342 : Ref sig .tc := ⟨.hbm, 420, rfl⟩
abbrev main_v343 : Ref sig .tc := ⟨.hbm, 421, rfl⟩
abbrev main_v344 : Ref sig .tc := ⟨.hbm, 422, rfl⟩
abbrev main_v345 : Ref sig .tc := ⟨.hbm, 423, rfl⟩
abbrev main_v346 : Ref sig .tc := ⟨.hbm, 424, rfl⟩
abbrev main_v347 : Ref sig .tc := ⟨.hbm, 425, rfl⟩
abbrev main_cst_63 : Ref sig .tc := ⟨.hbm, 426, rfl⟩
abbrev main_v348 : Ref sig .tc := ⟨.hbm, 427, rfl⟩
abbrev main_v349 : Ref sig .tc := ⟨.hbm, 428, rfl⟩
abbrev main_v350 : Ref sig .tc := ⟨.hbm, 429, rfl⟩
abbrev main_cst_64 : Ref sig .tc := ⟨.hbm, 430, rfl⟩
abbrev main_v351 : Ref sig .tc := ⟨.hbm, 431, rfl⟩
abbrev main_v352 : Ref sig .tc := ⟨.hbm, 432, rfl⟩
abbrev main_v353 : Ref sig .tc := ⟨.hbm, 433, rfl⟩
abbrev main_cst_65 : Ref sig .tc := ⟨.hbm, 434, rfl⟩
abbrev main_v354 : Ref sig .tc := ⟨.hbm, 435, rfl⟩
abbrev main_v355 : Ref sig .tc := ⟨.hbm, 436, rfl⟩
abbrev main_v356 : Ref sig .tc := ⟨.hbm, 437, rfl⟩
abbrev main_v357 : Ref sig .tc := ⟨.hbm, 438, rfl⟩
abbrev main_v358 : Ref sig .tc := ⟨.hbm, 439, rfl⟩
abbrev main_v359 : Ref sig .tc := ⟨.hbm, 440, rfl⟩
abbrev main_v360 : Ref sig .tc := ⟨.hbm, 441, rfl⟩
abbrev main_v361 : Ref sig .tc := ⟨.hbm, 442, rfl⟩
abbrev main_v362 : Ref sig .tc := ⟨.hbm, 443, rfl⟩
abbrev main_call1_cst : Ref sig .tc := ⟨.hbm, 444, rfl⟩
abbrev main_call1_v0 : Ref sig .tc := ⟨.hbm, 445, rfl⟩
abbrev main_v363 : Ref sig .tc := ⟨.hbm, 446, rfl⟩
abbrev main_v364 : Ref sig .tc := ⟨.hbm, 447, rfl⟩
abbrev main_v365 : Ref sig .tc := ⟨.hbm, 448, rfl⟩
abbrev main_v366 : Ref sig .tc := ⟨.hbm, 449, rfl⟩
abbrev main_v367 : Ref sig .tc := ⟨.hbm, 450, rfl⟩
abbrev main_v368 : Ref sig .tc := ⟨.hbm, 451, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S8x128x128_S1x128x128_0_0_0 : S8x128x128.Slices ![0, 0, 0] S1x128x128
  shapeCasts_S1x128x128_S128x128 : S1x128x128.ShapeCasts S128x128
  slices_S8x128x128_S1x128x128_1_0_0 : S8x128x128.Slices ![1, 0, 0] S1x128x128
  slices_S8x128x128_S1x128x128_2_0_0 : S8x128x128.Slices ![2, 0, 0] S1x128x128
  slices_S8x128x128_S1x128x128_3_0_0 : S8x128x128.Slices ![3, 0, 0] S1x128x128
  slices_S8x128x128_S1x128x128_4_0_0 : S8x128x128.Slices ![4, 0, 0] S1x128x128
  slices_S8x128x128_S1x128x128_5_0_0 : S8x128x128.Slices ![5, 0, 0] S1x128x128
  slices_S8x128x128_S1x128x128_6_0_0 : S8x128x128.Slices ![6, 0, 0] S1x128x128
  slices_S8x128x128_S1x128x128_7_0_0 : S8x128x128.Slices ![7, 0, 0] S1x128x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x128_S800000x1_S800000x128_1_0_n_n_0_1_1128_wf : GatherDims.WF S50000x128 S800000x1 S800000x128 [1] [0] [] [0] [] 1 ![1, 128]
  dot_S50000x128_S128x128_S50000x128_1_0_0_1_n_n_wf : DotDims.WF S50000x128 S128x128 S50000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Spec.lean ====
/-
  The mathematics both programs compute, over the extended reals, at one index.

  Nodes `n < 50000`, edges `e < 800000`, relations `r < 8`, features `c, h < 128`. For a node `n` and a relation `r`
  the edges of relation `r` into `n`; the mean over them of the gathered source rows (their sum over the larger of
  their number and one); one relational layer at `(n, h)`: the root product plus the bias plus, over the relations,
  the mean's product with the relation's weights, all capped below by zero; the same value in the fused form that
  contracts one row of `8 * 128` means against the weights laid out as one `1024 × 128` matrix; and the regression
  head at a node.
-/
import Idealize.ShloMosaic.PureOps.Ideal
import Idealize.ShloMosaic.Lib.ValueIdx

noncomputable section

namespace Cert.Spec

open Idealize.ShloMosaic Idealize.ShloMosaic.ValueIdx
open scoped BigOperators

abbrev SNode : Shape := ⟨2, ![50000, 128]⟩
abbrev SEdgeRows : Shape := ⟨2, ![800000, 128]⟩
abbrev SEdge : Shape := ⟨1, ![800000]⟩
abbrev SRelW : Shape := ⟨3, ![8, 128, 128]⟩
abbrev SSq : Shape := ⟨2, ![128, 128]⟩
abbrev SVec : Shape := ⟨1, ![128]⟩
abbrev SAgg : Shape := ⟨2, ![50000, 1024]⟩
abbrev SWFlat : Shape := ⟨2, ![1024, 128]⟩
abbrev SRow : Shape := ⟨2, ![1, 128]⟩
abbrev SCol : Shape := ⟨2, ![128, 1]⟩
abbrev SOne : Shape := ⟨1, ![1]⟩

/-- The position of feature `c` of relation `r` in a node's flat row of `8 * 128` means. -/
def flatPos (r : Fin 8) (c : Fin 128) : Fin 1024 := ⟨r.val * 128 + c.val, by have := r.isLt; have := c.isLt; omega⟩

/-- The edges of relation `r` whose target is node `n` (target words read as signed integers). -/
def edgesOf (dst et : IVec SEdge 32) (n : Fin 50000) (r : Fin 8) : Finset (Fin 800000) :=
  Finset.univ.filter fun e => (dst (ix1 e)).toInt = (n.val : Int) ∧ et (ix1 e) = BitVec.ofNat 32 r.val

/-- The mean of the gathered rows over `edgesOf n r`, at feature `c`: their sum over the larger of their number and one. -/
def meanAgg (xs : SEdgeRows.Idx → EReal) (dst et : IVec SEdge 32) (n : Fin 50000) (r : Fin 8) (c : Fin 128) : EReal :=
  Ideal.div (∑ e ∈ edgesOf dst et n r, xs (ix2 e c)) (max (∑ _e ∈ edgesOf dst et n r, (1 : EReal)) 1)

/-- One relational layer at `(n, h)`, grouped as the reference adds it. -/
def layerAt (x : SNode.Idx → EReal) (xs : SEdgeRows.Idx → EReal) (dst et : IVec SEdge 32) (w : SRelW.Idx → EReal)
    (root : SSq.Idx → EReal) (b : SVec.Idx → EReal) (n : Fin 50000) (h : Fin 128) : EReal :=
  max (((∑ c : Fin 128, x (ix2 n c) * root (ix2 c h)) + b (ix1 h))
        + ∑ r : Fin 8, ∑ c : Fin 128, meanAgg xs dst et n r c * w (ix3 r c h)) 0

/-- The fused layer at `(n, h)`: the root product, plus one contraction of the node's row of `1024` means with the
    flat weights, plus the bias row, capped below by zero. -/
def convReluAt (feat : SNode.Idx → EReal) (root : SSq.Idx → EReal) (agg : SAgg.Idx → EReal) (wflat : SWFlat.Idx → EReal)
    (bias : SRow.Idx → EReal) (n : Fin 50000) (h : Fin 128) : EReal :=
  max (((∑ c : Fin 128, feat (ix2 n c) * root (ix2 c h)) + ∑ j : Fin 1024, agg (ix2 n j) * wflat (ix2 j h))
        + bias (ix2 (0 : Fin 1) h)) 0

/-- The fused second layer with the head: the capped layer's row times a `128 × 128` head matrix, plus a head row. -/
def convReluHeadAt (feat : SNode.Idx → EReal) (root : SSq.Idx → EReal) (agg : SAgg.Idx → EReal) (wflat : SWFlat.Idx → EReal)
    (bias : SRow.Idx → EReal) (wout : SSq.Idx → EReal) (bout : SRow.Idx → EReal) (n : Fin 50000) (col : Fin 128) : EReal :=
  (∑ h : Fin 128, convReluAt feat root agg wflat bias n h * wout (ix2 h col)) + bout (ix2 (0 : Fin 1) col)

/-- The regression head at node `n`. -/
def headAt (hid : SNode.Idx → EReal) (wout : SCol.Idx → EReal) (bout : SOne.Idx → EReal) (n : Fin 50000) : EReal :=
  (∑ h : Fin 128, hid (ix2 n h) * wout (ix2 h (0 : Fin 1))) + bout (ix1 (0 : Fin 1))

end Cert.Spec

end
-- ==== Proof.KernelTerms.lean ====
/-
  The host computations of the kernel's program around its two fused layers, as named functions of arrays:
  the source and target node of each edge, the (target, relation) segment key `target * 8 + relation`, the
  gathered source features, the mean of the gathered features over each (target, relation) segment laid out
  as one row of `8 * 128` entries per node, the regression head's weight column and bias padded to `128` lanes,
  and the first column of the padded result.
-/
import proofs.«409557_j13597866459798_1_alg».proof.KernelIdeal

noncomputable section

namespace Cert.KernelIdeal.Terms

open Idealize.ShloMosaic Cert.KernelIdeal

variable {F : FTy → Type} [FloatOps F] [Facts]
open Facts₀

/-- Row `0` of the edge list: each edge's source node. -/
def srcOf (ei : (⟨S2x800000, .i32⟩ : BufTy).Contents (Elt F)) : (⟨S800000, .i32⟩ : BufTy).Contents (Elt F) :=
  shapeCast S800000 ((extractStridedSlice S1x800000 ![0, 0] · slices_S2x800000_S1x800000_0_0) ei) shapeCasts_S1x800000_S800000

/-- Row `1` of the edge list: each edge's target node. -/
def dstOf (ei : (⟨S2x800000, .i32⟩ : BufTy).Contents (Elt F)) : (⟨S800000, .i32⟩ : BufTy).Contents (Elt F) :=
  shapeCast S800000 ((extractStridedSlice S1x800000 ![1, 0] · slices_S2x800000_S1x800000_1_0) ei) shapeCasts_S1x800000_S800000

/-- The segment key of each edge: `target * 8 + relation`, in 32-bit arithmetic. -/
def keyOf (ei : (⟨S2x800000, .i32⟩ : BufTy).Contents (Elt F)) (et : (⟨S800000, .i32⟩ : BufTy).Contents (Elt F)) :
    (⟨S800000, .i32⟩ : BufTy).Contents (Elt F) :=
  addi (muli (dstOf (F := F) ei) (broadcastInDim S800000 ![] bcast_S_S800000 (constantI S_ 32 8#32))) et

/-- The gather's index column: a negative source index is taken from the end of the node axis. -/
def srcCol (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The source node's feature row of every edge. -/
def gathered (feat : (⟨S50000x128, .f32⟩ : BufTy).Contents (Elt F)) (src : (⟨S800000, .i32⟩ : BufTy).Contents (Elt F)) :
    (⟨S800000x128, .f32⟩ : BufTy).Contents (Elt F) :=
  Host.gather gather_S50000x128_S800000x1_S800000x128_1_0_n_n_0_1_1128 feat (srcCol (F := F) src)

/-- Per (node, relation) segment: the sum of the gathered rows of the segment's edges. -/
def segSum (feat : (⟨S50000x128, .f32⟩ : BufTy).Contents (Elt F)) (src key : (⟨S800000, .i32⟩ : BufTy).Contents (Elt F)) :
    (⟨S400000x128, .f32⟩ : BufTy).Contents (Elt F) :=
  Host.scatterAdd scatter_S400000x128_S800000x1_S800000x128_1_0_0_1
    (broadcastInDim S400000x128 ![] bcast_S_S400000x128 (constant S_ .f32 0x00000000#32))
    (broadcastInDim S800000x1 ![0] bcast_S800000_S800000x1_0 key)
    (gathered feat src)

/-- Per (node, relation) segment: the number of its edges. -/
def segCount (key : (⟨S800000, .i32⟩ : BufTy).Contents (Elt F)) : (⟨S400000, .f32⟩ : BufTy).Contents (Elt F) :=
  Host.scatterAdd scatter_S400000_S800000x1_S800000_n_0_0_1
    (broadcastInDim S400000 ![] bcast_S_S400000 (constant S_ .f32 0x00000000#32))
    (broadcastInDim S800000x1 ![0] bcast_S800000_S800000x1_0 key)
    (broadcastInDim S800000 ![] bcast_S_S800000 (constant S_ .f32 0x3F800000#32))

/-- The segment means, one row of `8 * 128` entries per node: each segment's sum over the larger of its count and one. -/
def aggFlat (feat : (⟨S50000x128, .f32⟩ : BufTy).Contents (Elt F)) (src key : (⟨S800000, .i32⟩ : BufTy).Contents (Elt F)) :
    (⟨S50000x1024, .f32⟩ : BufTy).Contents (Elt F) :=
  shapeCast S50000x1024
    (Host.divf (segSum feat src key)
      (broadcastInDim S400000x128 ![0, 1] bcast_S400000x1_S400000x128_0_1
        (broadcastInDim S400000x1 ![0] bcast_S400000_S400000x1_0
          (maximumf (segCount (F := F) key)
            (broadcastInDim S400000 ![] bcast_S_S400000 (constant S_ .f32 0x3F800000#32))))))
    shapeCasts_S400000x128_S50000x1024

/-- The relation weights as one `(8 * 128) × 128` matrix. -/
def wFlat (w : (⟨S8x128x128, .f32⟩ : BufTy).Contents (Elt F)) : (⟨S1024x128, .f32⟩ : BufTy).Contents (Elt F) :=
  shapeCast S1024x128 w shapeCasts_S8x128x128_S1024x128

/-- The bias as a row. -/
def biasRow (b : (⟨S128, .f32⟩ : BufTy).Contents (Elt F)) : (⟨S1x128, .f32⟩ : BufTy).Contents (Elt F) :=
  shapeCast S1x128 b shapeCasts_S128_S1x128

/-- The head's weight column written into column `0` of a zero `128 × 128` matrix. -/
def woutPad (wout : (⟨S128x1, .f32⟩ : BufTy).Contents (Elt F)) : (⟨S128x128, .f32⟩ : BufTy).Contents (Elt F) :=
  Host.scatter scatter_S128x128_S1_S128x1_01_n_1_0 (fun _ b => b)
    (broadcastInDim S128x128 ![] bcast_S_S128x128 (constant S_ .f32 0x00000000#32))
    (broadcastInDim S1 ![] bcast_S_S1 (constantI S_ 32 0#32)) wout

/-- The head's bias written at `(0, 0)` of a zero row. -/
def boutPad (bout : (⟨S1, .f32⟩ : BufTy).Contents (Elt F)) : (⟨S1x128, .f32⟩ : BufTy).Contents (Elt F) :=
  Host.scatter scatter_S1x128_S2_S__n_01_01_0 (fun _ b => b)
    (broadcastInDim S1x128 ![] bcast_S_S1x128 (constant S_ .f32 0x00000000#32))
    ((fun a b => concatenate S2 0 [⟨S1, a⟩, ⟨S1, b⟩] concatenates_S1_S1_S2_d0)
      (broadcastInDim S1 ![] bcast_S_S1 (constantI S_ 32 0#32)) (broadcastInDim S1 ![] bcast_S_S1 (constantI S_ 32 0#32)))
    (shapeCast S_ bout shapeCasts_S1_S_)

/-- Column `0` of the padded result, as a vector over the nodes. -/
def col0 (o : (⟨S50000x128, .f32⟩ : BufTy).Contents (Elt F)) : (⟨S50000, .f32⟩ : BufTy).Contents (Elt F) :=
  shapeCast S50000 ((extractStridedSlice S50000x1 ![0, 0] · slices_S50000x128_S50000x1_0_0) o) shapeCasts_S50000x1_S50000

end Cert.KernelIdeal.Terms

end
-- ==== Proof.LayerAlgebra.lean ====
/-
  The fused layer is the relational layer.

  If the node's row of `1024` means holds, at position `r * 128 + c`, the mean of the gathered rows over the edges
  whose segment key is `n * 8 + r`; the flat weights hold `w r c h` at row `r * 128 + c`; the bias row holds the
  bias; the key of an edge is `target * 8 + relation` in 32-bit arithmetic; every target is in `[0, 50000)` and
  every relation in `[0, 8)`: then the key of an edge is `n * 8 + r` exactly when its target is `n` and its
  relation `r` (no wrap-around: `50000 * 8 + 8 < 2 ^ 31`), the contraction over `1024` splits into the eight
  relations' contractions over `128`, and the two groupings of the three summands agree because addition of
  extended reals is commutative and associative.
-/
import proofs.«409557_j13597866459798_1_alg».proof.Proof.Spec

noncomputable section

namespace Cert.LayerAlgebra

open Idealize.ShloMosaic Idealize.ShloMosaic.ValueIdx Cert.Spec
open scoped BigOperators

/-- A 32-bit word whose signed value is in `[0, m)` with `m ≤ 2 ^ 31` has that value as its unsigned value. -/
private theorem toNat_of_toInt_bounds (v : BitVec 32) (m : Nat) (hm : m ≤ 2147483648) (h0 : 0 ≤ v.toInt)
    (h1 : v.toInt < (m : Int)) : v.toInt = (v.toNat : Int) ∧ v.toNat < m := by
  have hv := v.isLt
  rw [BitVec.toInt_eq_toNat_cond] at h0 h1 ⊢
  split_ifs at h0 h1 ⊢ <;> omega

/-- With targets in `[0, 50000)` and relations in `[0, 8)`, an edge's key `target * 8 + relation` is `n * 8 + r`
    exactly when its target is `n` and its relation is `r`. -/
theorem key_eq_iff (d t : BitVec 32) (hd0 : 0 ≤ d.toInt) (hd1 : d.toInt < 50000) (ht0 : 0 ≤ t.toInt) (ht1 : t.toInt < 8)
    (n : Fin 50000) (r : Fin 8) :
    (d * 8#32 + t).toInt = (n.val : Int) * 8 + (r.val : Int) ↔ d.toInt = (n.val : Int) ∧ t = BitVec.ofNat 32 r.val := by
  obtain ⟨hdi, hdn⟩ := toNat_of_toInt_bounds d 50000 (by omega) hd0 (by exact_mod_cast hd1)
  obtain ⟨hti, htn⟩ := toNat_of_toInt_bounds t 8 (by omega) ht0 (by exact_mod_cast ht1)
  have hn := n.isLt
  have hr := r.isLt
  have hkn : (d * 8#32 + t).toNat = d.toNat * 8 + t.toNat := by
    simp only [BitVec.toNat_add, BitVec.toNat_mul, BitVec.toNat_ofNat]
    omega
  have hki : (d * 8#32 + t).toInt = ((d.toNat * 8 + t.toNat : Nat) : Int) := by
    rw [BitVec.toInt_eq_toNat_cond, hkn]
    split_ifs <;> omega
  have ht_iff : t = BitVec.ofNat 32 r.val ↔ t.toNat = r.val := by
    rw [← BitVec.toNat_inj, BitVec.toNat_ofNat, Nat.mod_eq_of_lt (by omega)]
  rw [hki, hdi, ht_iff]
  omega

/-- The flat positions are the pairs (relation, feature): `j ↦ (j / 128, j % 128)` inverts `flatPos`. -/
private def flatEquiv : Fin 8 × Fin 128 ≃ Fin 1024 where
  toFun p := flatPos p.1 p.2
  invFun j := (⟨j.val / 128, by have := j.isLt; omega⟩, ⟨j.val % 128, Nat.mod_lt _ (by omega)⟩)
  left_inv p := by
    obtain ⟨r, c⟩ := p
    have hr := r.isLt
    have hc := c.isLt
    refine Prod.ext (Fin.ext ?_) (Fin.ext ?_)
    · show (r.val * 128 + c.val) / 128 = r.val
      omega
    · show (r.val * 128 + c.val) % 128 = c.val
      omega
  right_inv j := by
    apply Fin.ext
    show j.val / 128 * 128 + j.val % 128 = j.val
    omega

/-- A sum over the `1024` flat positions is the double sum over relations and features. -/
private theorem sum_flat {M : Type*} [AddCommMonoid M] (F : Fin 1024 → M) :
    ∑ j : Fin 1024, F j = ∑ r : Fin 8, ∑ c : Fin 128, F (flatPos r c) := by
  rw [← Equiv.sum_comp flatEquiv F, Fintype.sum_prod_type]
  rfl

/-- The fused form equals the relational layer at `(n, h)`. -/
theorem convReluAt_eq_layerAt
    (x : SNode.Idx → EReal) (xs : SEdgeRows.Idx → EReal) (dst et key : IVec SEdge 32)
    (w : SRelW.Idx → EReal) (root : SSq.Idx → EReal) (b : SVec.Idx → EReal)
    (agg : SAgg.Idx → EReal) (wflat : SWFlat.Idx → EReal) (bias : SRow.Idx → EReal)
    (hagg : ∀ (n : Fin 50000) (r : Fin 8) (c : Fin 128), agg (ix2 n (flatPos r c))
      = Ideal.div (∑ e ∈ Finset.univ.filter (fun e : Fin 800000 => (key (ix1 e)).toInt = (n.val : Int) * 8 + (r.val : Int)), xs (ix2 e c))
          (max (∑ _e ∈ Finset.univ.filter (fun e : Fin 800000 => (key (ix1 e)).toInt = (n.val : Int) * 8 + (r.val : Int)), (1 : EReal)) 1))
    (hw : ∀ (r : Fin 8) (c h : Fin 128), wflat (ix2 (flatPos r c) h) = w (ix3 r c h))
    (hb : ∀ h : Fin 128, bias (ix2 (0 : Fin 1) h) = b (ix1 h))
    (hkey : ∀ e : Fin 800000, key (ix1 e) = dst (ix1 e) * 8#32 + et (ix1 e))
    (hdst : ∀ e : Fin 800000, 0 ≤ (dst (ix1 e)).toInt ∧ (dst (ix1 e)).toInt < 50000)
    (het : ∀ e : Fin 800000, 0 ≤ (et (ix1 e)).toInt ∧ (et (ix1 e)).toInt < 8)
    (n : Fin 50000) (h : Fin 128) :
    convReluAt x root agg wflat bias n h = layerAt x xs dst et w root b n h := by
  -- the edges with key `n * 8 + r` are the edges of relation `r` into `n`
  have hset : ∀ r : Fin 8,
      Finset.univ.filter (fun e : Fin 800000 => (key (ix1 e)).toInt = (n.val : Int) * 8 + (r.val : Int))
        = edgesOf dst et n r := by
    intro r
    unfold edgesOf
    apply Finset.filter_congr
    intro e _
    rw [hkey e]
    exact key_eq_iff _ _ (hdst e).1 (hdst e).2 (het e).1 (het e).2 n r
  -- so the flat row holds the means
  have hmean : ∀ (r : Fin 8) (c : Fin 128), agg (ix2 n (flatPos r c)) = meanAgg xs dst et n r c := by
    intro r c
    rw [hagg n r c, hset r]
    rfl
  -- the contraction over `1024` is the eight relations' contractions over `128`
  have hsplit : ∑ j : Fin 1024, agg (ix2 n j) * wflat (ix2 j h)
      = ∑ r : Fin 8, ∑ c : Fin 128, meanAgg xs dst et n r c * w (ix3 r c h) := by
    rw [sum_flat]
    refine Finset.sum_congr rfl fun r _ => Finset.sum_congr rfl fun c _ => ?_
    rw [hmean, hw]
  unfold convReluAt layerAt
  rw [hsplit, hb]
  exact congrArg (fun v : EReal => max v 0) (add_right_comm _ _ _)

end Cert.LayerAlgebra

end
-- ==== Proof.KernelHost.lean ====
/-
  What the two fused layers' windows hold when each region is entered, and what the result buffer holds at the end,
  as the program's host computations applied to the launch contents.

  At the first region's entry the node features and the root weights are the arguments as launched, and the row of
  `8 * 128` segment means, the flat relation weights and the bias row are the host terms of the launched arguments.
  At the second region's entry the features are the first region's output array as its write-backs leave it; the
  means are taken over that array with the same edge sources and segment keys (computed before the first region,
  which does not write them); the second layer's flat weights and bias row, and the head's padded weight matrix and
  bias row, are the host terms of the launched arguments. The result is column `0` of the second region's output
  array as its write-backs leave it.
-/
import proofs.«409557_j13597866459798_1_alg».proof.Proof.Gen.KernelIdeal.Frame
import proofs.«409557_j13597866459798_1_alg».proof.Proof.KernelTerms
import proofs.«409557_j13597866459798_1_alg».proof.Proof.Gen.KernelIdeal.Launch
import proofs.«409557_j13597866459798_1_alg».proof.Proof.Gen.KernelIdeal.Skeleton
import proofs.«409557_j13597866459798_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.HostVals

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## At region 0's entry -/

/-- First region, window 0: the node features as launched. -/
theorem V1_w0 (c : Dev nD) : Gen.V1 m ρ c (Pipeline.arrRef spec0 0) = m ((c : Thread nD τ).loc main_arg0) := by
  show StableHlo.after hostOps0 (W0 m ρ c) (Proc.devRef .tc main_arg0) = _
  after_results

/-- First region, window 1: the root weights as launched. -/
theorem V1_w1 (c : Dev nD) : Gen.V1 m ρ c (Pipeline.arrRef spec0 1) = m ((c : Thread nD τ).loc main_arg4) := by
  show StableHlo.after hostOps0 (W0 m ρ c) (Proc.devRef .tc main_arg4) = _
  after_results

set_option maxHeartbeats 1000000 in
/-- First region, window 2: the segment means of the launched features, one row of `8 * 128` per node. -/
theorem V1_w2 (c : Dev nD) : Gen.V1 m ρ c (Pipeline.arrRef spec0 2)
    = Terms.aggFlat (m ((c : Thread nD τ).loc main_arg0)) (Terms.srcOf (m ((c : Thread nD τ).loc main_arg1)))
        (Terms.keyOf (m ((c : Thread nD τ).loc main_arg1)) (m ((c : Thread nD τ).loc main_arg2))) := by
  show StableHlo.after hostOps0 (W0 m ρ c) (Proc.devRef .tc main_v28) = _
  after_results_simp
  rfl

/-- First region, window 3: the relation weights as one `1024 × 128` matrix. -/
theorem V1_w3 (c : Dev nD) : Gen.V1 m ρ c (Pipeline.arrRef spec0 3) = Terms.wFlat (m ((c : Thread nD τ).loc main_arg3)) := by
  show StableHlo.after hostOps0 (W0 m ρ c) (Proc.devRef .tc main_v7) = _
  after_results
  rfl

/-- First region, window 4: the bias as a row. -/
theorem V1_w4 (c : Dev nD) : Gen.V1 m ρ c (Pipeline.arrRef spec0 4) = Terms.biasRow (m ((c : Thread nD τ).loc main_arg5)) := by
  show StableHlo.after hostOps0 (W0 m ρ c) (Proc.devRef .tc main_v8) = _
  after_results
  rfl

/-! ## At region 1's entry -/

/-- Region 0 does not write argument 6, nor do the operations before it. -/
private theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results

/-- Region 0 does not write argument 7, nor do the operations before it. -/
private theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results

/-- Region 0 does not write argument 8, nor do the operations before it. -/
private theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results

/-- Region 0 does not write argument 9, nor do the operations before it. -/
private theorem W2_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results

/-- Region 0 does not write argument 10, nor do the operations before it. -/
private theorem W2_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results

/-- The edges' sources, computed before region 0, are untouched by it. -/
private theorem W2_v1 (c : Dev nD) : W2 m ρ c (Proc.devRef .tc main_v1) = Terms.srcOf (m ((c : Thread nD τ).loc main_arg1)) := by
  rw [W2_of_ne m ρ c main_v1 (by decide)]
  show StableHlo.after hostOps0 (W0 m ρ c) (Proc.devRef .tc main_v1) = _
  after_results
  rfl

/-- The edges' segment keys, computed before region 0, are untouched by it. -/
private theorem W2_v6 (c : Dev nD) : W2 m ρ c (Proc.devRef .tc main_v6)
    = Terms.keyOf (m ((c : Thread nD τ).loc main_arg1)) (m ((c : Thread nD τ).loc main_arg2)) := by
  rw [W2_of_ne m ρ c main_v6 (by decide)]
  show StableHlo.after hostOps0 (W0 m ρ c) (Proc.devRef .tc main_v6) = _
  after_results
  rfl

/-- Region 0's output array at its exit is what its write-backs leave. -/
private theorem W2_v29 (c : Dev nD) : W2 m ρ c (Proc.devRef .tc main_v29) = (Gen.dat0 (Gen.V1 m ρ) c).arrAt 5 cfg0.N :=
  W2_arr m ρ c 5

/-- Second region, window 0: the first region's output array. -/
theorem V3_w0 (c : Dev nD) : Gen.V3 m ρ c (Pipeline.arrRef spec1 0) = (Gen.dat0 (Gen.V1 m ρ) c).arrAt 5 cfg0.N := by
  show StableHlo.after hostOps1 (W2 m ρ c) (Proc.devRef .tc main_v29) = _
  after_results
  exact W2_v29 m ρ c

/-- Second region, window 1: the second layer's root weights as launched. -/
theorem V3_w1 (c : Dev nD) : Gen.V3 m ρ c (Pipeline.arrRef spec1 1) = m ((c : Thread nD τ).loc main_arg7) := by
  show StableHlo.after hostOps1 (W2 m ρ c) (Proc.devRef .tc main_arg7) = _
  after_results
  exact W2_arg7 m ρ c

set_option maxHeartbeats 1000000 in
/-- Second region, window 2: the segment means of the first region's output, with the same sources and keys. -/
theorem V3_w2 (c : Dev nD) : Gen.V3 m ρ c (Pipeline.arrRef spec1 2)
    = Terms.aggFlat ((Gen.dat0 (Gen.V1 m ρ) c).arrAt 5 cfg0.N) (Terms.srcOf (m ((c : Thread nD τ).loc main_arg1)))
        (Terms.keyOf (m ((c : Thread nD τ).loc main_arg1)) (m ((c : Thread nD τ).loc main_arg2))) := by
  show StableHlo.after hostOps1 (W2 m ρ c) (Proc.devRef .tc main_v51) = _
  after_results_simp
  rw [W2_v29 m ρ c, W2_v1 m ρ c, W2_v6 m ρ c]
  rfl

/-- Second region, window 3: the second layer's relation weights as one `1024 × 128` matrix. -/
theorem V3_w3 (c : Dev nD) : Gen.V3 m ρ c (Pipeline.arrRef spec1 3) = Terms.wFlat (m ((c : Thread nD τ).loc main_arg6)) := by
  show StableHlo.after hostOps1 (W2 m ρ c) (Proc.devRef .tc main_v30) = _
  after_results
  rw [W2_arg6 m ρ c]
  rfl

/-- Second region, window 4: the second layer's bias as a row. -/
theorem V3_w4 (c : Dev nD) : Gen.V3 m ρ c (Pipeline.arrRef spec1 4) = Terms.biasRow (m ((c : Thread nD τ).loc main_arg8)) := by
  show StableHlo.after hostOps1 (W2 m ρ c) (Proc.devRef .tc main_v31) = _
  after_results
  rw [W2_arg8 m ρ c]
  rfl

set_option maxHeartbeats 1000000 in
/-- Second region, window 5: the head's weight column in column `0` of a zero `128 × 128` matrix. -/
theorem V3_w5 (c : Dev nD) : Gen.V3 m ρ c (Pipeline.arrRef spec1 5) = Terms.woutPad (m ((c : Thread nD τ).loc main_arg9)) := by
  show StableHlo.after hostOps1 (W2 m ρ c) (Proc.devRef .tc main_v54) = _
  after_results_simp
  rw [W2_arg9 m ρ c]
  rfl

set_option maxHeartbeats 1000000 in
/-- Second region, window 6: the head's bias at `(0, 0)` of a zero row. -/
theorem V3_w6 (c : Dev nD) : Gen.V3 m ρ c (Pipeline.arrRef spec1 6) = Terms.boutPad (m ((c : Thread nD τ).loc main_arg10)) := by
  show StableHlo.after hostOps1 (W2 m ρ c) (Proc.devRef .tc main_v60) = _
  after_results_simp
  rw [W2_arg10 m ρ c]
  rfl

/-! ## The result -/

/-- The result buffer: column `0` of the second region's output array, as a vector over the nodes. -/
theorem W5_result (c : Dev nD) : Gen.W5 m ρ c (Proc.devRef .tc main_v63)
    = Terms.col0 ((Gen.dat1 (Gen.V3 m ρ) c).arrAt 7 cfg1.N) := by
  show StableHlo.after hostOps2 (W4 m ρ c) (Proc.devRef .tc main_v63) = _
  after_results
  rw [show W4 m ρ c (Proc.devRef .tc main_v61) = (Gen.dat1 (Gen.V3 m ρ) c).arrAt 7 cfg1.N from W4_arr m ρ c 7]
  rfl

end Cert.KernelIdeal.HostVals

end
-- ==== Proof.LibScatterAdd.lean ====
/-
  Reading the host's accumulating float scatter at one index, over the extended reals.

  A scatter of rows: update row `e` (a row of `C` entries) is added into operand row `idx e`, the start index read
  as a signed integer and not clamped; a row whose index is outside `[0, K)` is dropped. So the entry `(k, c)`
  of the result is the operand's entry plus the sum, over the update rows `e` whose index is `k`, of the
  update's entry `(e, c)`. The scatter of a vector of scalars is the same with no column.
-/
import Idealize.ShloMosaic.PureOps.Ideal
import Idealize.ShloMosaic.Lib.ValueIdx

open Idealize.ShloMosaic Idealize.ShloMosaic.ValueIdx
open scoped BigOperators

namespace Cert.LibScatterAdd

/-! ## Rows: start and window coordinates for the dimension numbers of a row scatter -/

/-- On the row axis the start is the signed index read at `(e, 0)`. -/
private theorem start0 {K E C : Nat}
    (d : ScatterDims (⟨2, ![K, C]⟩ : Shape) (⟨2, ![E, 1]⟩ : Shape) (⟨2, ![E, C]⟩ : Shape))
    (h1 : d.updateWindowDims = [1]) (h2 : d.insertedWindowDims = [0])
    (h3 : d.scatterDimsToOperandDims = [0]) (h4 : d.indexVectorDim = 1)
    (idx : IVec (⟨2, ![E, 1]⟩ : Shape) 32) (e : Fin E) (c' : Fin C) :
    d.start (ix2 e c') idx 0 = (idx (ix2 e (0 : Fin 1))).toInt := by
  obtain ⟨uw, iw, sd, iv, wf⟩ := d
  simp only at h1 h2 h3 h4
  subst h1 h2 h3 h4
  unfold ScatterDims.start
  simp
  congr 1
  congr 1
  funext b
  match b with
  | ⟨0, _⟩ => rfl
  | ⟨1, _⟩ => rfl

/-- The column axis is not named by the index map: its start is `0`. -/
private theorem start1 {K E C : Nat}
    (d : ScatterDims (⟨2, ![K, C]⟩ : Shape) (⟨2, ![E, 1]⟩ : Shape) (⟨2, ![E, C]⟩ : Shape))
    (h1 : d.updateWindowDims = [1]) (h2 : d.insertedWindowDims = [0])
    (h3 : d.scatterDimsToOperandDims = [0]) (h4 : d.indexVectorDim = 1)
    (idx : IVec (⟨2, ![E, 1]⟩ : Shape) 32) (j : (⟨2, ![E, C]⟩ : Shape).Idx) :
    d.start j idx 1 = 0 := by
  obtain ⟨uw, iw, sd, iv, wf⟩ := d
  simp only at h1 h2 h3 h4
  subst h1 h2 h3 h4
  unfold ScatterDims.start
  simp

/-- The row axis is an inserted axis: its window coordinate is `0`. -/
private theorem window0 {K E C : Nat}
    (d : ScatterDims (⟨2, ![K, C]⟩ : Shape) (⟨2, ![E, 1]⟩ : Shape) (⟨2, ![E, C]⟩ : Shape))
    (h1 : d.updateWindowDims = [1]) (h2 : d.insertedWindowDims = [0])
    (h3 : d.scatterDimsToOperandDims = [0]) (h4 : d.indexVectorDim = 1)
    (j : (⟨2, ![E, C]⟩ : Shape).Idx) :
    d.window j 0 = 0 := by
  obtain ⟨uw, iw, sd, iv, wf⟩ := d
  simp only at h1 h2 h3 h4
  subst h1 h2 h3 h4
  rfl

/-- The column axis carries the update's column coordinate. -/
private theorem window1 {K E C : Nat}
    (d : ScatterDims (⟨2, ![K, C]⟩ : Shape) (⟨2, ![E, 1]⟩ : Shape) (⟨2, ![E, C]⟩ : Shape))
    (h1 : d.updateWindowDims = [1]) (h2 : d.insertedWindowDims = [0])
    (h3 : d.scatterDimsToOperandDims = [0]) (h4 : d.indexVectorDim = 1)
    (e : Fin E) (c' : Fin C) :
    d.window (ix2 e c') 1 = c'.val := by
  obtain ⟨uw, iw, sd, iv, wf⟩ := d
  simp only at h1 h2 h3 h4
  subst h1 h2 h3 h4
  rfl

/-- Update entry `(e, c')` lands at `(k, c)` exactly when its signed index is `k` and `c' = c`
    (an index outside `[0, K)` lands nowhere). -/
private theorem resultIdx_iff {K E C : Nat}
    (d : ScatterDims (⟨2, ![K, C]⟩ : Shape) (⟨2, ![E, 1]⟩ : Shape) (⟨2, ![E, C]⟩ : Shape))
    (h1 : d.updateWindowDims = [1]) (h2 : d.insertedWindowDims = [0])
    (h3 : d.scatterDimsToOperandDims = [0]) (h4 : d.indexVectorDim = 1)
    (idx : IVec (⟨2, ![E, 1]⟩ : Shape) 32) (e : Fin E) (c' : Fin C) (k : Fin K) (c : Fin C) :
    d.resultIdx? (ix2 e c') idx = some (ix2 k c)
      ↔ (idx (ix2 e (0 : Fin 1))).toInt = (k.val : Int) ∧ c' = c := by
  have s0 := start0 d h1 h2 h3 h4 idx e c'
  have s1 := start1 d h1 h2 h3 h4 idx (ix2 e c')
  have w0 := window0 d h1 h2 h3 h4 (ix2 e c')
  have w1 := window1 d h1 h2 h3 h4 e c'
  have hk := k.isLt
  have hc := c.isLt
  have hc' := c'.isLt
  unfold ScatterDims.resultIdx?
  split
  · rename_i h
    rw [Option.some.injEq]
    constructor
    · intro hf
      have g0 : (d.start (ix2 e c') idx 0 + d.window (ix2 e c') 0).toNat = k.val :=
        congrArg Fin.val (congrFun hf 0)
      have g1 : (d.start (ix2 e c') idx 1 + d.window (ix2 e c') 1).toNat = c.val :=
        congrArg Fin.val (congrFun hf 1)
      have h0 := (h 0).1
      rw [s0, w0] at g0 h0
      rw [s1, w1] at g1
      exact ⟨by omega, Fin.ext (by omega)⟩
    · rintro ⟨ht, rfl⟩
      funext a
      match a with
      | ⟨0, _⟩ =>
        apply Fin.ext
        show (d.start (ix2 e c') idx 0 + d.window (ix2 e c') 0).toNat = k.val
        rw [s0, w0]; omega
      | ⟨1, _⟩ =>
        apply Fin.ext
        show (d.start (ix2 e c') idx 1 + d.window (ix2 e c') 1).toNat = c'.val
        rw [s1, w1]; omega
  · rename_i h
    constructor
    · intro hf; cases hf
    · rintro ⟨ht, rfl⟩
      exfalso; apply h
      intro a
      match a with
      | ⟨0, _⟩ =>
        show 0 ≤ d.start (ix2 e c') idx 0 + d.window (ix2 e c') 0
          ∧ d.start (ix2 e c') idx 0 + d.window (ix2 e c') 0 < ((K : Nat) : Int)
        rw [s0, w0]; omega
      | ⟨1, _⟩ =>
        show 0 ≤ d.start (ix2 e c') idx 1 + d.window (ix2 e c') 1
          ∧ d.start (ix2 e c') idx 1 + d.window (ix2 e c') 1 < ((C : Nat) : Int)
        rw [s1, w1]; omega

/-- Rows scattered by one index column: entry `(k, c)` of the result is the operand's entry plus the sum of the
    entries `(e, c)` of the update rows `e` whose signed index is `k`. -/
theorem hostScatterAdd_rows_apply {K E C : Nat}
    (d : ScatterDims (⟨2, ![K, C]⟩ : Shape) (⟨2, ![E, 1]⟩ : Shape) (⟨2, ![E, C]⟩ : Shape))
    (h1 : d.updateWindowDims = [1]) (h2 : d.insertedWindowDims = [0])
    (h3 : d.scatterDimsToOperandDims = [0]) (h4 : d.indexVectorDim = 1)
    (x : (⟨2, ![K, C]⟩ : Shape).Idx → EReal) (idx : IVec (⟨2, ![E, 1]⟩ : Shape) 32)
    (upd : (⟨2, ![E, C]⟩ : Shape).Idx → EReal) (k : Fin K) (c : Fin C) :
    Ideal.hostScatterAdd d x idx upd (ix2 k c)
      = x (ix2 k c) + ∑ e ∈ Finset.univ.filter (fun e : Fin E => (idx (ix2 e (0 : Fin 1))).toInt = (k.val : Int)),
          upd (ix2 e c) := by
  unfold Ideal.hostScatterAdd
  congr 1
  symm
  -- the update entries landing at `(k, c)` are the `(e, c)` with index `k`: reindex by `e ↦ (e, c)`
  apply Finset.sum_bij (fun e _ => ix2 e c)
  · intro e he
    simp only [Finset.mem_filter, Finset.mem_univ, true_and] at he ⊢
    exact (resultIdx_iff d h1 h2 h3 h4 idx e c k c).2 ⟨he, rfl⟩
  · intro a _ b _ hab
    exact congrFun hab 0
  · intro j hj
    obtain ⟨e, c', rfl⟩ : ∃ e c', j = ix2 e c' := ⟨j 0, j 1, eq_ix2 j⟩
    simp only [Finset.mem_filter, Finset.mem_univ, true_and] at hj
    obtain ⟨ht, rfl⟩ := (resultIdx_iff d h1 h2 h3 h4 idx e c' k c).1 hj
    exact ⟨e, by simp only [Finset.mem_filter, Finset.mem_univ, true_and]; exact ht, rfl⟩
  · intro e _
    rfl

/-! ## Scalars: the same with no column -/

/-- On the one operand axis the start is the signed index read at `(e, 0)`. -/
private theorem vstart0 {K E : Nat}
    (d : ScatterDims (⟨1, ![K]⟩ : Shape) (⟨2, ![E, 1]⟩ : Shape) (⟨1, ![E]⟩ : Shape))
    (h1 : d.updateWindowDims = []) (h2 : d.insertedWindowDims = [0])
    (h3 : d.scatterDimsToOperandDims = [0]) (h4 : d.indexVectorDim = 1)
    (idx : IVec (⟨2, ![E, 1]⟩ : Shape) 32) (e : Fin E) :
    d.start (ix1 e) idx 0 = (idx (ix2 e (0 : Fin 1))).toInt := by
  obtain ⟨uw, iw, sd, iv, wf⟩ := d
  simp only at h1 h2 h3 h4
  subst h1 h2 h3 h4
  unfold ScatterDims.start
  simp
  congr 1
  congr 1
  funext b
  match b with
  | ⟨0, _⟩ => rfl
  | ⟨1, _⟩ => rfl

/-- The one operand axis is inserted: its window coordinate is `0`. -/
private theorem vwindow0 {K E : Nat}
    (d : ScatterDims (⟨1, ![K]⟩ : Shape) (⟨2, ![E, 1]⟩ : Shape) (⟨1, ![E]⟩ : Shape))
    (h1 : d.updateWindowDims = []) (h2 : d.insertedWindowDims = [0])
    (h3 : d.scatterDimsToOperandDims = [0]) (h4 : d.indexVectorDim = 1)
    (j : (⟨1, ![E]⟩ : Shape).Idx) :
    d.window j 0 = 0 := by
  obtain ⟨uw, iw, sd, iv, wf⟩ := d
  simp only at h1 h2 h3 h4
  subst h1 h2 h3 h4
  rfl

/-- Update `e` lands at `k` exactly when its signed index is `k`. -/
private theorem vresultIdx_iff {K E : Nat}
    (d : ScatterDims (⟨1, ![K]⟩ : Shape) (⟨2, ![E, 1]⟩ : Shape) (⟨1, ![E]⟩ : Shape))
    (h1 : d.updateWindowDims = []) (h2 : d.insertedWindowDims = [0])
    (h3 : d.scatterDimsToOperandDims = [0]) (h4 : d.indexVectorDim = 1)
    (idx : IVec (⟨2, ![E, 1]⟩ : Shape) 32) (e : Fin E) (k : Fin K) :
    d.resultIdx? (ix1 e) idx = some (ix1 k)
      ↔ (idx (ix2 e (0 : Fin 1))).toInt = (k.val : Int) := by
  have s0 := vstart0 d h1 h2 h3 h4 idx e
  have w0 := vwindow0 d h1 h2 h3 h4 (ix1 e)
  have hk := k.isLt
  unfold ScatterDims.resultIdx?
  split
  · rename_i h
    rw [Option.some.injEq]
    constructor
    · intro hf
      have g0 : (d.start (ix1 e) idx 0 + d.window (ix1 e) 0).toNat = k.val :=
        congrArg Fin.val (congrFun hf 0)
      have h0 := (h 0).1
      rw [s0, w0] at g0 h0
      omega
    · intro ht
      funext a
      match a with
      | ⟨0, _⟩ =>
        apply Fin.ext
        show (d.start (ix1 e) idx 0 + d.window (ix1 e) 0).toNat = k.val
        rw [s0, w0]; omega
  · rename_i h
    constructor
    · intro hf; cases hf
    · intro ht
      exfalso; apply h
      intro a
      match a with
      | ⟨0, _⟩ =>
        show 0 ≤ d.start (ix1 e) idx 0 + d.window (ix1 e) 0
          ∧ d.start (ix1 e) idx 0 + d.window (ix1 e) 0 < ((K : Nat) : Int)
        rw [s0, w0]; omega

/-- Scalars scattered by one index column: entry `k` of the result is the operand's entry plus the sum of the
    updates `e` whose signed index is `k`. -/
theorem hostScatterAdd_vec_apply {K E : Nat}
    (d : ScatterDims (⟨1, ![K]⟩ : Shape) (⟨2, ![E, 1]⟩ : Shape) (⟨1, ![E]⟩ : Shape))
    (h1 : d.updateWindowDims = []) (h2 : d.insertedWindowDims = [0])
    (h3 : d.scatterDimsToOperandDims = [0]) (h4 : d.indexVectorDim = 1)
    (x : (⟨1, ![K]⟩ : Shape).Idx → EReal) (idx : IVec (⟨2, ![E, 1]⟩ : Shape) 32)
    (upd : (⟨1, ![E]⟩ : Shape).Idx → EReal) (k : Fin K) :
    Ideal.hostScatterAdd d x idx upd (ix1 k)
      = x (ix1 k) + ∑ e ∈ Finset.univ.filter (fun e : Fin E => (idx (ix2 e (0 : Fin 1))).toInt = (k.val : Int)),
          upd (ix1 e) := by
  unfold Ideal.hostScatterAdd
  congr 1
  symm
  -- the updates landing at `k` are the `e` with index `k`: reindex by `e ↦ (e)`
  apply Finset.sum_bij (fun e _ => ix1 e)
  · intro e he
    simp only [Finset.mem_filter, Finset.mem_univ, true_and] at he ⊢
    exact (vresultIdx_iff d h1 h2 h3 h4 idx e k).2 he
  · intro a _ b _ hab
    exact congrFun hab 0
  · intro j hj
    obtain ⟨e, rfl⟩ : ∃ e, j = ix1 e := ⟨j 0, eq_ix1 j⟩
    simp only [Finset.mem_filter, Finset.mem_univ, true_and] at hj
    have ht := (vresultIdx_iff d h1 h2 h3 h4 idx e k).1 hj
    exact ⟨e, by simp only [Finset.mem_filter, Finset.mem_univ, true_and]; exact ht, rfl⟩
  · intro e _
    rfl

end Cert.LibScatterAdd
-- ==== Proof.LibScatterSet.lean ====
/-
  Reading the host's replacing scatter (an `.at[…].set`) at an index its one window covers.

  The scatter walks the update's indices in row-major order and, for each that lands inside the operand, replaces
  the operand's element there by the update's element. When exactly one update index lands on a given element,
  that element of the result is that update's element. Two instances: a column of height `H` written into column
  `0` of an `H × C` array by a window whose start index is `0`; and one scalar written at `(0, 0)` of a `1 × C` array.
-/
import Idealize.ShloMosaic.PureOps.ShapeOps
import Idealize.ShloMosaic.Lib.ValueIdx

open Idealize.ShloMosaic Idealize.ShloMosaic.ValueIdx

namespace Cert.LibScatterSet

/-- A left fold of steps that each change an array, read at one index `i₀`: if exactly one step `n₀` writes `v₀` there
    and every other step leaves that element alone, the result there is `v₀` once `n₀` has been met. -/
private theorem fold_at {ι α : Type} {N : Nat} (step : (ι → α) → Fin N → ι → α) (i₀ : ι) (n₀ : Fin N) (v₀ : α)
    (hit : ∀ r, step r n₀ i₀ = v₀) (miss : ∀ r n, n ≠ n₀ → step r n i₀ = r i₀)
    (l : List (Fin N)) (r₀ : ι → α) :
    (l.foldl step r₀) i₀ = if n₀ ∈ l then v₀ else r₀ i₀ := by
  induction l generalizing r₀ with
  | nil => simp
  | cons a l ih =>
    rw [List.foldl_cons, ih]
    by_cases ha : a = n₀
    · subst ha; rw [hit]; simp
    · rw [miss _ _ ha]
      have hmem : (n₀ ∈ a :: l) ↔ n₀ ∈ l := by
        simp [List.mem_cons, Ne.symm ha]
      simp only [hmem]

/-- The replacing scatter at an operand index `i₀` that exactly one update index `j₀` lands on: the result there is
    the update's element at `j₀`. -/
private theorem scatter_set_at {α : Type} {s si u : Shape} {w : Nat} (d : ScatterDims s si u) (x : s.Idx → α)
    (idx : IVec si w) (upd : u.Idx → α) (i₀ : s.Idx) (j₀ : u.Idx)
    (hj₀ : d.resultIdx? j₀ idx = some i₀) (huniq : ∀ j, d.resultIdx? j idx = some i₀ → j = j₀) :
    Host.scatter d (fun _ b => b) x idx upd i₀ = upd j₀ := by
  unfold Host.scatter
  refine (fold_at _ i₀ (u.rowMajor j₀) (upd j₀) ?_ ?_ _ _).trans ?_
  · intro r
    simp only [Equiv.symm_apply_apply, hj₀, if_true]
  · intro r n hn
    have hne : d.resultIdx? (u.rowMajor.symm n) idx ≠ some i₀ := by
      intro h
      apply hn
      rw [← Equiv.apply_symm_apply u.rowMajor n, huniq _ h]
    rcases hres : d.resultIdx? (u.rowMajor.symm n) idx with _ | i
    · rfl
    · have : i₀ ≠ i := fun h => hne (by rw [hres, h])
      show (if i₀ = i then _ else r i₀) = r i₀
      rw [if_neg this]
  · rw [if_pos (List.mem_finRange _)]

/-- With window axes `[0, 1]` and nothing inserted, the window coordinate on operand axis `0` is the update's row. -/
private theorem col0_window0 {H C : Nat} (d : ScatterDims (⟨2, ![H, C]⟩ : Shape) (⟨1, ![1]⟩ : Shape) (⟨2, ![H, 1]⟩ : Shape))
    (h1 : d.updateWindowDims = [0, 1]) (h2 : d.insertedWindowDims = [])
    (h3 : d.scatterDimsToOperandDims = [1]) (h4 : d.indexVectorDim = 0) (h' : Fin H) (z : Fin 1) :
    d.window (ix2 h' z) 0 = h'.val := by
  obtain ⟨uw, iw, sd, iv, wf⟩ := d
  dsimp only at h1 h2 h3 h4
  subst h1 h2 h3 h4
  obtain rfl : z = 0 := Subsingleton.elim _ _
  rfl

/-- … and on operand axis `1` it is the update's column, which is `0`. -/
private theorem col0_window1 {H C : Nat} (d : ScatterDims (⟨2, ![H, C]⟩ : Shape) (⟨1, ![1]⟩ : Shape) (⟨2, ![H, 1]⟩ : Shape))
    (h1 : d.updateWindowDims = [0, 1]) (h2 : d.insertedWindowDims = [])
    (h3 : d.scatterDimsToOperandDims = [1]) (h4 : d.indexVectorDim = 0) (h' : Fin H) (z : Fin 1) :
    d.window (ix2 h' z) 1 = 0 := by
  obtain ⟨uw, iw, sd, iv, wf⟩ := d
  dsimp only at h1 h2 h3 h4
  subst h1 h2 h3 h4
  obtain rfl : z = 0 := Subsingleton.elim _ _
  rfl

/-- The window's start is `0` on both axes: axis `0` is not scattered, and axis `1` reads the one start index, `0`. -/
private theorem col0_start {H C : Nat} (d : ScatterDims (⟨2, ![H, C]⟩ : Shape) (⟨1, ![1]⟩ : Shape) (⟨2, ![H, 1]⟩ : Shape))
    (h1 : d.updateWindowDims = [0, 1]) (h2 : d.insertedWindowDims = [])
    (h3 : d.scatterDimsToOperandDims = [1]) (h4 : d.indexVectorDim = 0)
    (idx : IVec (⟨1, ![1]⟩ : Shape) 32) (hidx : idx (ix1 (0 : Fin 1)) = 0#32) (h' : Fin H) (z : Fin 1) (a : Fin 2) :
    d.start (ix2 h' z) idx a = 0 := by
  obtain ⟨uw, iw, sd, iv, wf⟩ := d
  dsimp only at h1 h2 h3 h4
  subst h1 h2 h3 h4
  obtain rfl : z = 0 := Subsingleton.elim _ _
  unfold ScatterDims.start
  split
  · have hsi : ∀ c, ScatterDims.siIdx (⟨[0, 1], [], [1], 0, wf⟩ :
        ScatterDims (⟨2, ![H, C]⟩ : Shape) (⟨1, ![1]⟩ : Shape) (⟨2, ![H, 1]⟩ : Shape)) (ix2 h' (0 : Fin 1)) c
        = ix1 (0 : Fin 1) := by
      intro c
      funext b
      match b with
      | ⟨0, _⟩ => exact (Subsingleton.elim (α := Fin 1) _ _)
    rw [hsi, hidx]; rfl
  · rfl

/-- So update index `(h', z)` lands at `(h', 0)`, always inside the operand. -/
private theorem col0_res {H C : Nat} (hC : 0 < C) (d : ScatterDims (⟨2, ![H, C]⟩ : Shape) (⟨1, ![1]⟩ : Shape) (⟨2, ![H, 1]⟩ : Shape))
    (h1 : d.updateWindowDims = [0, 1]) (h2 : d.insertedWindowDims = [])
    (h3 : d.scatterDimsToOperandDims = [1]) (h4 : d.indexVectorDim = 0)
    (idx : IVec (⟨1, ![1]⟩ : Shape) 32) (hidx : idx (ix1 (0 : Fin 1)) = 0#32) (h' : Fin H) (z : Fin 1) :
    d.resultIdx? (ix2 h' z) idx = some (ix2 h' (⟨0, hC⟩ : Fin C)) := by
  have hs := col0_start d h1 h2 h3 h4 idx hidx h' z
  have hw0 := col0_window0 d h1 h2 h3 h4 h' z
  have hw1 := col0_window1 d h1 h2 h3 h4 h' z
  have hlt := h'.isLt
  unfold ScatterDims.resultIdx?
  have hcond : ∀ a : Fin 2, 0 ≤ d.start (ix2 h' z) idx a + d.window (ix2 h' z) a ∧
      d.start (ix2 h' z) idx a + d.window (ix2 h' z) a < (⟨2, ![H, C]⟩ : Shape).size a := by
    rw [Fin.forall_fin_two]
    refine ⟨?_, ?_⟩
    · rw [hs, hw0]
      refine ⟨by omega, ?_⟩
      show (0 : Int) + (h'.val : Int) < (H : Int)
      omega
    · rw [hs, hw1]
      refine ⟨by omega, ?_⟩
      show (0 : Int) + ((0 : Nat) : Int) < (C : Int)
      omega
  rw [dif_pos hcond]
  congr 1
  funext a
  match a with
  | ⟨0, _⟩ =>
    apply Fin.ext
    show (d.start (ix2 h' z) idx (0 : Fin 2) + (d.window (ix2 h' z) (0 : Fin 2) : Nat)).toNat = h'.val
    rw [hs, hw0]; simp
  | ⟨1, _⟩ =>
    apply Fin.ext
    show (d.start (ix2 h' z) idx (1 : Fin 2) + (d.window (ix2 h' z) (1 : Fin 2) : Nat)).toNat = 0
    rw [hs, hw1]; simp

/-- With both operand axes inserted there is no window: the window coordinate is `0` on each axis. -/
private theorem scalar_window {C : Nat} (d : ScatterDims (⟨2, ![1, C]⟩ : Shape) (⟨1, ![2]⟩ : Shape) (⟨0, ![]⟩ : Shape))
    (h1 : d.updateWindowDims = []) (h2 : d.insertedWindowDims = [0, 1])
    (h3 : d.scatterDimsToOperandDims = [0, 1]) (h4 : d.indexVectorDim = 0) (j : (⟨0, ![]⟩ : Shape).Idx) (a : Fin 2) :
    d.window j a = 0 := by
  obtain ⟨uw, iw, sd, iv, wf⟩ := d
  dsimp only at h1 h2 h3 h4
  subst h1 h2 h3 h4
  rfl

/-- The start on each axis is a component of the index vector, which is `0`. -/
private theorem scalar_start {C : Nat} (d : ScatterDims (⟨2, ![1, C]⟩ : Shape) (⟨1, ![2]⟩ : Shape) (⟨0, ![]⟩ : Shape))
    (h1 : d.updateWindowDims = []) (h2 : d.insertedWindowDims = [0, 1])
    (h3 : d.scatterDimsToOperandDims = [0, 1]) (h4 : d.indexVectorDim = 0)
    (idx : IVec (⟨1, ![2]⟩ : Shape) 32) (hidx : ∀ a : Fin 2, idx (ix1 a) = 0#32) (j : (⟨0, ![]⟩ : Shape).Idx) (a : Fin 2) :
    d.start j idx a = 0 := by
  obtain ⟨uw, iw, sd, iv, wf⟩ := d
  dsimp only at h1 h2 h3 h4
  subst h1 h2 h3 h4
  unfold ScatterDims.start
  split
  · have hsi : ∀ c, ∃ b : Fin 2, ScatterDims.siIdx (⟨[], [0, 1], [0, 1], 0, wf⟩ :
        ScatterDims (⟨2, ![1, C]⟩ : Shape) (⟨1, ![2]⟩ : Shape) (⟨0, ![]⟩ : Shape)) j c = ix1 b := by
      intro c
      refine ⟨⟨c.val, c.isLt⟩, ?_⟩
      funext b
      match b with
      | ⟨0, _⟩ => rfl
    obtain ⟨b, hb⟩ := hsi ⟨_, List.idxOf_lt_length_iff.2 ‹_›⟩
    rw [hb, hidx]; rfl
  · rfl

/-- So the one update index lands at `(0, 0)`, inside the operand. -/
private theorem scalar_res {C : Nat} (hC : 0 < C) (d : ScatterDims (⟨2, ![1, C]⟩ : Shape) (⟨1, ![2]⟩ : Shape) (⟨0, ![]⟩ : Shape))
    (h1 : d.updateWindowDims = []) (h2 : d.insertedWindowDims = [0, 1])
    (h3 : d.scatterDimsToOperandDims = [0, 1]) (h4 : d.indexVectorDim = 0)
    (idx : IVec (⟨1, ![2]⟩ : Shape) 32) (hidx : ∀ a : Fin 2, idx (ix1 a) = 0#32) (j : (⟨0, ![]⟩ : Shape).Idx) :
    d.resultIdx? j idx = some (ix2 (0 : Fin 1) (⟨0, hC⟩ : Fin C)) := by
  have hs := scalar_start d h1 h2 h3 h4 idx hidx j
  have hw := scalar_window d h1 h2 h3 h4 j
  unfold ScatterDims.resultIdx?
  have hcond : ∀ a : Fin 2, 0 ≤ d.start j idx a + d.window j a ∧
      d.start j idx a + d.window j a < (⟨2, ![1, C]⟩ : Shape).size a := by
    rw [Fin.forall_fin_two]
    refine ⟨?_, ?_⟩
    · rw [hs, hw]
      refine ⟨by omega, ?_⟩
      show (0 : Int) + ((0 : Nat) : Int) < ((1 : Nat) : Int)
      omega
    · rw [hs, hw]
      refine ⟨by omega, ?_⟩
      show (0 : Int) + ((0 : Nat) : Int) < (C : Int)
      omega
  rw [dif_pos hcond]
  congr 1
  funext a
  match a with
  | ⟨0, _⟩ =>
    apply Fin.ext
    show (d.start j idx (0 : Fin 2) + (d.window j (0 : Fin 2) : Nat)).toNat = 0
    rw [hs, hw]; simp
  | ⟨1, _⟩ =>
    apply Fin.ext
    show (d.start j idx (1 : Fin 2) + (d.window j (1 : Fin 2) : Nat)).toNat = 0
    rw [hs, hw]; simp

/-- An `H × 1` update written by one window at start column `0` into an `H × C` operand: entry `(h, 0)` of the result
    is entry `(h, 0)` of the update. -/
theorem scatter_set_col0 {α : Type} {H C : Nat} (hC : 0 < C)
    (d : ScatterDims (⟨2, ![H, C]⟩ : Shape) (⟨1, ![1]⟩ : Shape) (⟨2, ![H, 1]⟩ : Shape))
    (h1 : d.updateWindowDims = [0, 1]) (h2 : d.insertedWindowDims = [])
    (h3 : d.scatterDimsToOperandDims = [1]) (h4 : d.indexVectorDim = 0)
    (x : (⟨2, ![H, C]⟩ : Shape).Idx → α) (idx : IVec (⟨1, ![1]⟩ : Shape) 32)
    (hidx : idx (ix1 (0 : Fin 1)) = 0#32)
    (upd : (⟨2, ![H, 1]⟩ : Shape).Idx → α) (h : Fin H) :
    Host.scatter d (fun _ b => b) x idx upd (ix2 h (⟨0, hC⟩ : Fin C)) = upd (ix2 h (0 : Fin 1)) := by
  refine scatter_set_at d x idx upd _ (ix2 h (0 : Fin 1)) (col0_res hC d h1 h2 h3 h4 idx hidx h 0) ?_
  intro j hj
  obtain ⟨h', z, rfl⟩ : ∃ (h' : Fin H) (z : Fin 1), j = ix2 h' z := ⟨j 0, j 1, eq_ix2 j⟩
  rw [col0_res hC d h1 h2 h3 h4 idx hidx h' z] at hj
  have hh : h' = h := congrFun (Option.some.inj hj) (0 : Fin 2)
  obtain rfl : z = 0 := Subsingleton.elim _ _
  rw [hh]

/-- One scalar written at the index vector `(0, 0)` into a `1 × C` operand: entry `(0, 0)` of the result is the
    scalar. -/
theorem scatter_set_scalar {α : Type} {C : Nat} (hC : 0 < C)
    (d : ScatterDims (⟨2, ![1, C]⟩ : Shape) (⟨1, ![2]⟩ : Shape) (⟨0, ![]⟩ : Shape))
    (h1 : d.updateWindowDims = []) (h2 : d.insertedWindowDims = [0, 1])
    (h3 : d.scatterDimsToOperandDims = [0, 1]) (h4 : d.indexVectorDim = 0)
    (x : (⟨2, ![1, C]⟩ : Shape).Idx → α) (idx : IVec (⟨1, ![2]⟩ : Shape) 32)
    (hidx : ∀ a : Fin 2, idx (ix1 a) = 0#32)
    (upd : (⟨0, ![]⟩ : Shape).Idx → α) :
    Host.scatter d (fun _ b => b) x idx upd (ix2 (0 : Fin 1) (⟨0, hC⟩ : Fin C)) = upd ix0 := by
  refine scatter_set_at d x idx upd _ ix0 (scalar_res hC d h1 h2 h3 h4 idx hidx ix0) ?_
  intro j _
  exact eq_ix0 j

end Cert.LibScatterSet
-- ==== Proof.KernelRead.lean ====
/-
  The kernel program's host terms read at one index: the segment key of an edge; the node's flat row of means
  at position `r * 128 + c` as the mean of the gathered rows over the edges whose key is `n * 8 + r`; the flat
  weights, the bias row, the padded head weights and bias, and the first column of the result.
-/
import proofs.«409557_j13597866459798_1_alg».proof.Proof.KernelTerms
import proofs.«409557_j13597866459798_1_alg».proof.Proof.Spec
import proofs.«409557_j13597866459798_1_alg».proof.Proof.LibScatterAdd
import proofs.«409557_j13597866459798_1_alg».proof.Proof.LibScatterSet
import Idealize.ShloMosaic.PureOps.Ideal.Laws
import Idealize.ShloMosaic.Lib.ValueIdx
import Idealize.ShloMosaic.Lib.Pipeline.Value
import Idealize.ShloMosaic.Lib.IdealHost

noncomputable section

namespace Cert.KernelRead

open Idealize.ShloMosaic Idealize.ShloMosaic.ValueIdx Cert.KernelIdeal Cert.Spec
open scoped BigOperators

variable [Cert.KernelIdeal.Facts]

/-- An edge's key is its target word times eight plus its relation word. -/
theorem keyOf_apply (ei : (⟨S2x800000, .i32⟩ : BufTy).Contents (Elt Ideal)) (et : (⟨S800000, .i32⟩ : BufTy).Contents (Elt Ideal)) (e : Fin 800000) :
    Terms.keyOf (F := Ideal) ei et (ix1 e) = Terms.dstOf (F := Ideal) ei (ix1 e) * 8#32 + et (ix1 e) := by
  rfl

/-- At the exact instance the host scatter-add is the exact scatter-add, entry by entry. -/
theorem scatterAdd_ideal {s si su : Shape} (d : ScatterDims s si su) {w : Nat} (v : FVec Ideal s .f32) (idx : IVec si w)
    (upd : FVec Ideal su .f32) (i : s.Idx) :
    Host.scatterAdd (F := Ideal) d v idx upd i = Ideal.hostScatterAdd d v idx upd i := rfl

/-- At the exact instance the host division is the exact division, entry by entry. -/
theorem hostDivf_apply {s : Shape} (a b : FVec Ideal s .f32) (i : s.Idx) :
    Host.divf (F := Ideal) a b i = Ideal.div (a i) (b i) := rfl

/-- A zero array reads zero everywhere. -/
theorem zeros_apply {s : Shape} (h : S_.BroadcastsInDim s (![] : Fin 0 → Fin s.rank)) (j : s.Idx) :
    broadcastInDim s ![] h (constant (F := Ideal) S_ .f32 0x00000000#32) j = (0 : EReal) := by
  unfold broadcastInDim
  exact (constant_apply _ _).trans Ideal.ofBits_zero_f32

/-- An array of ones reads one everywhere. -/
theorem ones_apply {s : Shape} (h : S_.BroadcastsInDim s (![] : Fin 0 → Fin s.rank)) (j : s.Idx) :
    broadcastInDim s ![] h (constant (F := Ideal) S_ .f32 0x3F800000#32) j = (1 : EReal) := by
  unfold broadcastInDim
  exact (constant_apply _ _).trans Ideal.ofBits_one_f32

/-- The index column read at an edge is the edge's key. -/
theorem keyCol_apply (key : (⟨S800000, .i32⟩ : BufTy).Contents (Elt Ideal)) (e : Fin 800000) :
    broadcastInDim S800000x1 ![0] Facts₀.bcast_S800000_S800000x1_0 key (ix2 e (0 : Fin 1)) = key (ix1 e) := by
  refine broadcastInDim_apply _ _ key _ (ix1 e) ?_
  intro a
  match a with
  | ⟨0, _⟩ =>
    show e.val = if (800000 : Nat) = 1 then 0 else e.val
    rw [if_neg (by omega)]

/-- The segment sum at `(k, c)`: the gathered entries `(e, c)` summed over the edges whose key is `k`. -/
theorem segSum_apply (feat : (⟨S50000x128, .f32⟩ : BufTy).Contents (Elt Ideal)) (src key : (⟨S800000, .i32⟩ : BufTy).Contents (Elt Ideal))
    (k : Fin 400000) (c : Fin 128) (z : Int) (hz : (k.val : Int) = z) :
    Terms.segSum (F := Ideal) feat src key (ix2 k c)
      = ∑ e ∈ Finset.univ.filter (fun e : Fin 800000 => (key (ix1 e)).toInt = z),
          Terms.gathered (F := Ideal) feat src (ix2 e c) := by
  subst hz
  unfold Terms.segSum
  refine (scatterAdd_ideal _ _ _ _ _).trans ?_
  refine (Cert.LibScatterAdd.hostScatterAdd_rows_apply scatter_S400000x128_S800000x1_S800000x128_1_0_0_1 rfl rfl rfl rfl _ _ _ k c).trans ?_
  rw [zeros_apply, zero_add]
  refine Finset.sum_congr (Finset.filter_congr fun e _ => ?_) fun _ _ => rfl
  rw [keyCol_apply]

/-- The segment count at `k`: one for every edge whose key is `k`. -/
theorem segCount_apply (key : (⟨S800000, .i32⟩ : BufTy).Contents (Elt Ideal)) (k : Fin 400000) (z : Int) (hz : (k.val : Int) = z) :
    Terms.segCount (F := Ideal) key (ix1 k)
      = ∑ _e ∈ Finset.univ.filter (fun e : Fin 800000 => (key (ix1 e)).toInt = z), (1 : EReal) := by
  subst hz
  unfold Terms.segCount
  refine (scatterAdd_ideal _ _ _ _ _).trans ?_
  refine (Cert.LibScatterAdd.hostScatterAdd_vec_apply scatter_S400000_S800000x1_S800000_n_0_0_1 rfl rfl rfl rfl _ _ _ k).trans ?_
  rw [zeros_apply, zero_add]
  refine Finset.sum_congr (Finset.filter_congr fun e _ => ?_) fun e _ => ones_apply _ _
  rw [keyCol_apply]

/-- The flat row of means at `r * 128 + c`: the mean of the gathered rows over the edges whose key is `n * 8 + r`. -/
theorem aggFlat_apply (feat : (⟨S50000x128, .f32⟩ : BufTy).Contents (Elt Ideal)) (src key : (⟨S800000, .i32⟩ : BufTy).Contents (Elt Ideal)) (n : Fin 50000) (r : Fin 8) (c : Fin 128) :
    Terms.aggFlat (F := Ideal) feat src key (ix2 n (flatPos r c))
      = Ideal.div (∑ e ∈ Finset.univ.filter (fun e : Fin 800000 => (key (ix1 e)).toInt = (n.val : Int) * 8 + (r.val : Int)),
            Terms.gathered (F := Ideal) feat src (ix2 e c))
          (max (∑ _e ∈ Finset.univ.filter (fun e : Fin 800000 => (key (ix1 e)).toInt = (n.val : Int) * 8 + (r.val : Int)), (1 : EReal)) 1) := by
  have hn := n.isLt
  have hr := r.isLt
  have hk : n.val * 8 + r.val < 400000 := by omega
  have hz : (((⟨n.val * 8 + r.val, hk⟩ : Fin 400000).val : Nat) : Int) = (n.val : Int) * 8 + (r.val : Int) := by
    show ((n.val * 8 + r.val : Nat) : Int) = _
    push_cast
    rfl
  unfold Terms.aggFlat
  -- position `(n, r * 128 + c)` of the flat rows is position `(n * 8 + r, c)` of the segment rows
  refine (shapeCast_apply _ _ (ix2 n (flatPos r c)) (ix2 (⟨n.val * 8 + r.val, hk⟩ : Fin 400000) c) ?_).trans ?_
  · rw [Shape.rowMajor_val_two, Shape.rowMajor_val_two]
    show (n.val * 8 + r.val) * 128 + c.val = n.val * 1024 + (r.val * 128 + c.val)
    omega
  · refine (hostDivf_apply _ _ _).trans ?_
    refine congrArg₂ Ideal.div (segSum_apply feat src key _ c _ hz) ?_
    -- the count is copied along the row
    refine (broadcastInDim_apply _ _ _ _ (ix2 (⟨n.val * 8 + r.val, hk⟩ : Fin 400000) (0 : Fin 1)) ?_).trans ?_
    · intro a
      match a with
      | ⟨0, _⟩ =>
        show n.val * 8 + r.val = if (400000 : Nat) = 1 then 0 else n.val * 8 + r.val
        rw [if_neg (by omega)]
      | ⟨1, _⟩ =>
        show (0 : Nat) = if (1 : Nat) = 1 then 0 else c.val
        rw [if_pos rfl]
    · refine (broadcastInDim_apply _ _ _ _ (ix1 (⟨n.val * 8 + r.val, hk⟩ : Fin 400000)) ?_).trans ?_
      · intro a
        match a with
        | ⟨0, _⟩ =>
          show n.val * 8 + r.val = if (400000 : Nat) = 1 then 0 else n.val * 8 + r.val
          rw [if_neg (by omega)]
      · refine (maximumf_apply _ _ _).trans ?_
        exact congrArg₂ max (segCount_apply key _ _ hz) (ones_apply _ _)

theorem wFlat_apply (w : (⟨S8x128x128, .f32⟩ : BufTy).Contents (Elt Ideal)) (r : Fin 8) (c h : Fin 128) :
    Terms.wFlat (F := Ideal) w (ix2 (flatPos r c) h) = w (ix3 r c h) := by
  unfold Terms.wFlat
  refine shapeCast_apply w _ _ _ ?_
  rw [Shape.rowMajor_val_three, Shape.rowMajor_val_two]
  show (r.val * 128 + c.val) * 128 + h.val = (flatPos r c).val * 128 + h.val
  rfl

theorem biasRow_apply (b : (⟨S128, .f32⟩ : BufTy).Contents (Elt Ideal)) (h : Fin 128) :
    Terms.biasRow (F := Ideal) b (ix2 (0 : Fin 1) h) = b (ix1 h) := by
  unfold Terms.biasRow
  refine shapeCast_apply b _ _ _ ?_
  rw [Shape.rowMajor_val_two, Shape.rowMajor_val_one]
  show h.val = 0 * 128 + h.val
  rw [Nat.zero_mul, Nat.zero_add]

theorem woutPad_apply (wout : (⟨S128x1, .f32⟩ : BufTy).Contents (Elt Ideal)) (h : Fin 128) :
    Terms.woutPad (F := Ideal) wout (ix2 h (0 : Fin 128)) = wout (ix2 h (0 : Fin 1)) := by
  unfold Terms.woutPad
  exact Cert.LibScatterSet.scatter_set_col0 (by decide : 0 < 128) scatter_S128x128_S1_S128x1_01_n_1_0 rfl rfl rfl rfl _ _ rfl wout h

theorem boutPad_apply (bout : (⟨S1, .f32⟩ : BufTy).Contents (Elt Ideal)) :
    Terms.boutPad (F := Ideal) bout (ix2 (0 : Fin 1) (0 : Fin 128)) = bout (ix1 (0 : Fin 1)) := by
  unfold Terms.boutPad
  refine (Cert.LibScatterSet.scatter_set_scalar (by decide : 0 < 128) scatter_S1x128_S2_S__n_01_01_0 rfl rfl rfl rfl _ _ ?_ _).trans ?_
  · -- both halves of the index vector are the zero word
    intro a
    refine (concatenate_replicate_apply (t := S2) (s₁ := S1) (0 : Fin 1) 2 _ _ rfl (ix1 a) (ix1 (0 : Fin 1)) ?_ ?_).trans ?_
    · show (0 : Nat) = a.val % 1
      omega
    · intro b hb
      exact absurd (Subsingleton.elim _ _) hb
    · rfl
  · refine shapeCast_apply bout _ _ (ix1 (0 : Fin 1)) ?_
    rw [Shape.rowMajor_val_one]
    exact (Shape.rowMajorPi_zero _ _).symm

theorem col0_apply (o : (⟨S50000x128, .f32⟩ : BufTy).Contents (Elt Ideal)) (n : Fin 50000) :
    Terms.col0 (F := Ideal) o (ix1 n) = o (ix2 n (0 : Fin 128)) := by
  unfold Terms.col0
  refine (shapeCast_apply _ _ (ix1 n) (ix2 n (0 : Fin 1)) ?_).trans ?_
  · rw [Shape.rowMajor_val_two, Shape.rowMajor_val_one]
    show n.val * 1 + 0 = n.val
    omega
  · refine extractStridedSlice_apply _ o _ _ _ ?_
    intro a
    match a with
    | ⟨0, _⟩ => show n.val = 0 + n.val; omega
    | ⟨1, _⟩ => show (0 : Nat) = 0 + 0; rfl

end Cert.KernelRead

end
-- ==== Proof.Region0.lean ====
/-
  The value of the first fused layer as one whole-array function, at the ideal instance: after the region the output
  array (50000 x 128) holds at (n, h) the root product of row n of the features, plus the contraction of row n of the
  1024 means with the flat weights, plus the bias row, capped below by zero. First the body's result at one index of a
  2000-row block; then what a grid point writes back, as the block's read of the whole-array function; then the cover of
  the rows by the 25 blocks of 2000 rows.
-/
import proofs.«409557_j13597866459798_1_alg».proof.Proof.Gen.KernelIdeal.Frame
import proofs.«409557_j13597866459798_1_alg».proof.Proof.Spec
import proofs.«409557_j13597866459798_1_alg».proof.Proof.KernelTerms
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The two contractions at an index -/

theorem lhsA_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsA_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsA_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsA_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem lhsB_0 (i : S2000x128.Idx) (q : dot_S2000x1024_S1024x128_S2000x128_1_0_0_1_n_n.contr.Idx) :
    (dot_S2000x1024_S1024x128_S2000x128_1_0_0_1_n_n.lhsIdx i q 0).val = (i 0).val := by
  unfold DotDims.lhsIdx
  rw [dif_neg (show ¬(0 : Fin S2000x1024.rank) ∈ dot_S2000x1024_S1024x128_S2000x128_1_0_0_1_n_n.lhsBatch by decide), dif_pos (show (0 : Fin S2000x1024.rank) ∈ dot_S2000x1024_S1024x128_S2000x128_1_0_0_1_n_n.lhsNonContracting by decide)]
  rfl
theorem lhsB_1 (i : S2000x128.Idx) (q : dot_S2000x1024_S1024x128_S2000x128_1_0_0_1_n_n.contr.Idx) :
    (dot_S2000x1024_S1024x128_S2000x128_1_0_0_1_n_n.lhsIdx i q 1).val = (q ⟨0, by decide⟩).val :=
  dot_S2000x1024_S1024x128_S2000x128_1_0_0_1_n_n.lhsIdx_val_of_single rfl i q
theorem rhsB_0 (i : S2000x128.Idx) (q : dot_S2000x1024_S1024x128_S2000x128_1_0_0_1_n_n.contr.Idx) :
    (dot_S2000x1024_S1024x128_S2000x128_1_0_0_1_n_n.rhsIdx i q 0).val = (q ⟨0, by decide⟩).val :=
  dot_S2000x1024_S1024x128_S2000x128_1_0_0_1_n_n.rhsIdx_val_of_single rfl i q
theorem rhsB_1 (i : S2000x128.Idx) (q : dot_S2000x1024_S1024x128_S2000x128_1_0_0_1_n_n.contr.Idx) :
    (dot_S2000x1024_S1024x128_S2000x128_1_0_0_1_n_n.rhsIdx i q 1).val = (i 1).val := by
  unfold DotDims.rhsIdx
  rw [dif_neg (show ¬(1 : Fin S1024x128.rank) ∈ dot_S2000x1024_S1024x128_S2000x128_1_0_0_1_n_n.rhsBatch by decide), dif_pos (show (1 : Fin S1024x128.rank) ∈ dot_S2000x1024_S1024x128_S2000x128_1_0_0_1_n_n.rhsNonContracting by decide)]
  rfl

/-- The root product into a zero accumulator, at (p, q): the sum over the 128 features. -/
theorem matmulA_apply (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-- The product of the means with the flat weights into a zero accumulator, at (p, q): the sum over the 1024 positions. -/
theorem matmulB_apply (a : FVec Ideal S2000x1024 .bf16) (b : FVec Ideal S1024x128 .bf16) (p : Fin 2000) (q : Fin 128) :
    matmul dot_S2000x1024_S1024x128_S2000x128_1_0_0_1_n_n none a b (constant (F := Ideal) S2000x128 .f32 0x00000000#32) (ix2 p q)
      = ∑ k : Fin 1024, a (ix2 p k) * b (ix2 k q) := by
  simp only [matmul]
  rw [Ideal.matmul_constant_zero_apply, ← Equiv.sum_comp (contrEquiv1 dot_S2000x1024_S1024x128_S2000x128_1_0_0_1_n_n 1024 rfl rfl).symm]
  refine Finset.sum_congr rfl fun k _ => ?_
  have hk := contrEquiv1_symm_val dot_S2000x1024_S1024x128_S2000x128_1_0_0_1_n_n 1024 rfl rfl k
  have el : dot_S2000x1024_S1024x128_S2000x128_1_0_0_1_n_n.lhsIdx (ix2 p q) ((contrEquiv1 dot_S2000x1024_S1024x128_S2000x128_1_0_0_1_n_n 1024 rfl rfl).symm k) = ix2 p k := funext fun a => Fin.ext (by
    match a with
    | ⟨0, _⟩ => exact lhsB_0 _ _
    | ⟨1, _⟩ => exact (lhsB_1 _ _).trans hk)
  have er : dot_S2000x1024_S1024x128_S2000x128_1_0_0_1_n_n.rhsIdx (ix2 p q) ((contrEquiv1 dot_S2000x1024_S1024x128_S2000x128_1_0_0_1_n_n 1024 rfl rfl).symm k) = ix2 k q := funext fun a => Fin.ext (by
    match a with
    | ⟨0, _⟩ => exact (rhsB_0 _ _).trans hk
    | ⟨1, _⟩ => exact rhsB_1 _ _)
  rw [el, er]

/-! ## The body's result at an index -/

/-- The bias row broadcast down the 2000 rows reads the row at the column. -/
theorem biasRow_apply (x : FVec Ideal S1x128 .f32) (p : Fin 2000) (q : Fin 128) :
    broadcastTo S2000x128 x broadcasts_S1x128_S2000x128 (ix2 p q) = x (ix2 (0 : Fin 1) q) :=
  broadcastTo_apply x broadcasts_S1x128_S2000x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The body's result at (p, q) of a block: the two contractions' sum plus the bias row, capped below by zero. -/
theorem pay_apply (x0 : Vec Ideal S2000x128 .f32) (x1 : Vec Ideal S128x128 .f32) (x2 : Vec Ideal S2000x1024 .f32)
    (x3 : Vec Ideal S1024x128 .f32) (x4 : Vec Ideal S1x128 .f32) (p : Fin 2000) (q : Fin 128) :
    k0_pay1 (F := Ideal) x0 x1 x2 x3 x4 (ix2 p q)
      = max (((∑ c : Fin 128, x0 (ix2 p c) * x1 (ix2 c q)) + ∑ j : Fin 1024, x2 (ix2 p j) * x3 (ix2 j q))
          + x4 (ix2 (0 : Fin 1) q)) 0 := by
  unfold k0_pay1
  simp only [maximumf_apply, addf_apply, broadcast_apply, matmulA_apply, matmulB_apply, truncf_apply, shapeCast_self, biasRow_apply]
  exact congrArg (max _) Ideal.ofBits_zero_f32

/-! ## What a grid point writes back -/

theorem hz : (![0, 0] : Fin 2 → Nat) = fun _ => 0 := funext fun a => by fin_cases a <;> rfl

/-- The printed index maps, decided over the 25 points: the features', the means' and the output's block index is
    (t, 0); the root's, the flat weights' and the bias row's is (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks
variable (V : (c : Dev nD) → (b : Ref sig .tc) → Buf (Elt Ideal) ((c : Thread nD τ).loc b))

/-- The whole-array function: the fused layer of the five arrays as the region finds them. -/
abbrev G (c : Dev nD) : S50000x128.Idx → EReal := fun i =>
  Cert.Spec.convReluAt (V c (Pipeline.arrRef spec0 0)) (V c (Pipeline.arrRef spec0 1)) (V c (Pipeline.arrRef spec0 2))
    (V c (Pipeline.arrRef spec0 3)) (V c (Pipeline.arrRef spec0 4)) (i 0) (i 1)

/-- Input block 0 at a point: row p of block t is row 2000 t + p of the array. -/
theorem blk0_apply (c : Dev nD) (t : Fin cfg0.N) (p : Fin 2000) (n : Fin 50000) (hn : n.val = t.val * 2000 + p.val) (k : Fin 128) :
    iblk0 V c 0 t (ix2 p k) = V c (Pipeline.arrRef spec0 0) (ix2 n k) := by
  obtain ⟨e00, e01, e10, e11, e20, e21, e30, e31, e40, e41, e50, e51⟩ := idx_facts t
  show V c (Pipeline.arrRef spec0 0) (((cfg0.win 0).blk t).view.emb (ix2 p k)) = _
  refine congrArg _ (funext fun a => Fin.ext ?_)
  match a with
  | ⟨0, _⟩ => show win0_0.index t (0 : Fin 2) * 2000 + 1 * p.val = n.val; omega
  | ⟨1, _⟩ => show win0_0.index t (1 : Fin 2) * 128 + 1 * k.val = k.val; omega

/-- Input block 1 at a point is the whole array. -/
theorem blk1_apply (c : Dev nD) (t : Fin cfg0.N) (p : Fin 128) (k : Fin 128) :
    iblk0 V c 1 t (ix2 p k) = V c (Pipeline.arrRef spec0 1) (ix2 p k) := by
  obtain ⟨e00, e01, e10, e11, e20, e21, e30, e31, e40, e41, e50, e51⟩ := idx_facts t
  show V c (Pipeline.arrRef spec0 1) (((cfg0.win 1).blk t).view.emb (ix2 p k)) = _
  refine congrArg _ (funext fun a => Fin.ext ?_)
  match a with
  | ⟨0, _⟩ => show win0_1.index t (0 : Fin 2) * 128 + 1 * p.val = p.val; omega
  | ⟨1, _⟩ => show win0_1.index t (1 : Fin 2) * 128 + 1 * k.val = k.val; omega

/-- Input block 2 at a point: row p of block t is row 2000 t + p of the array. -/
theorem blk2_apply (c : Dev nD) (t : Fin cfg0.N) (p : Fin 2000) (n : Fin 50000) (hn : n.val = t.val * 2000 + p.val) (k : Fin 1024) :
    iblk0 V c 2 t (ix2 p k) = V c (Pipeline.arrRef spec0 2) (ix2 n k) := by
  obtain ⟨e00, e01, e10, e11, e20, e21, e30, e31, e40, e41, e50, e51⟩ := idx_facts t
  show V c (Pipeline.arrRef spec0 2) (((cfg0.win 2).blk t).view.emb (ix2 p k)) = _
  refine congrArg _ (funext fun a => Fin.ext ?_)
  match a with
  | ⟨0, _⟩ => show win0_2.index t (0 : Fin 2) * 2000 + 1 * p.val = n.val; omega
  | ⟨1, _⟩ => show win0_2.index t (1 : Fin 2) * 1024 + 1 * k.val = k.val; omega

/-- Input block 3 at a point is the whole array. -/
theorem blk3_apply (c : Dev nD) (t : Fin cfg0.N) (p : Fin 1024) (k : Fin 128) :
    iblk0 V c 3 t (ix2 p k) = V c (Pipeline.arrRef spec0 3) (ix2 p k) := by
  obtain ⟨e00, e01, e10, e11, e20, e21, e30, e31, e40, e41, e50, e51⟩ := idx_facts t
  show V c (Pipeline.arrRef spec0 3) (((cfg0.win 3).blk t).view.emb (ix2 p k)) = _
  refine congrArg _ (funext fun a => Fin.ext ?_)
  match a with
  | ⟨0, _⟩ => show win0_3.index t (0 : Fin 2) * 1024 + 1 * p.val = p.val; omega
  | ⟨1, _⟩ => show win0_3.index t (1 : Fin 2) * 128 + 1 * k.val = k.val; omega

/-- Input block 4 at a point is the whole array. -/
theorem blk4_apply (c : Dev nD) (t : Fin cfg0.N) (p : Fin 1) (k : Fin 128) :
    iblk0 V c 4 t (ix2 p k) = V c (Pipeline.arrRef spec0 4) (ix2 p k) := by
  obtain ⟨e00, e01, e10, e11, e20, e21, e30, e31, e40, e41, e50, e51⟩ := idx_facts t
  show V c (Pipeline.arrRef spec0 4) (((cfg0.win 4).blk t).view.emb (ix2 p k)) = _
  refine congrArg _ (funext fun a => Fin.ext ?_)
  match a with
  | ⟨0, _⟩ => show win0_4.index t (0 : Fin 2) * 1 + 1 * p.val = p.val; omega
  | ⟨1, _⟩ => show win0_4.index t (1 : Fin 2) * 128 + 1 * k.val = k.val; omega

/-- The body's result on the blocks of point t, at (p, q), is the fused layer at row 2000 t + p and column q. -/
theorem block_value (c : Dev nD) (t : Fin cfg0.N) (p : Fin 2000) (q : Fin 128) (n : Fin 50000) (hn : n.val = t.val * 2000 + p.val) :
    k0_pay1 (F := Ideal) (iblk0 V c 0 t) (iblk0 V c 1 t) (iblk0 V c 2 t) (iblk0 V c 3 t) (iblk0 V c 4 t) (ix2 p q)
      = Cert.Spec.convReluAt (V c (Pipeline.arrRef spec0 0)) (V c (Pipeline.arrRef spec0 1)) (V c (Pipeline.arrRef spec0 2))
          (V c (Pipeline.arrRef spec0 3)) (V c (Pipeline.arrRef spec0 4)) n q := by
  rw [pay_apply]
  unfold Cert.Spec.convReluAt
  simp only [blk0_apply V c t p n hn, blk1_apply V c t, blk2_apply V c t p n hn, blk3_apply V c t, blk4_apply V c t]

/-- An index of the output's block, by its coordinates. -/
theorem xinj5 (t : Fin cfg0.N) (j : ((cfg0.win 5).xblock (cfg0.grid.coords t)).Idx) (hj0 : (j 0).val < 2000) (hj1 : (j 1).val < 128) :
    (cfg0.win 5).xinj (grid0.coords t) j = ix2 (⟨(j 0).val, hj0⟩ : Fin 2000) (⟨(j 1).val, hj1⟩ : Fin 128) := by
  funext a; match a with | ⟨0, _⟩ => rfl | ⟨1, _⟩ => rfl

/-- Where the output's block of point t sits in the array: row p of the block is row 2000 t + p. -/
theorem emb5 (t : Fin cfg0.N) (j : ((cfg0.win 5).xblock (cfg0.grid.coords t)).Idx) (n : Fin 50000) (hn : n.val = t.val * 2000 + (j 0).val)
    (q : Fin 128) (hq : q.val = (j 1).val) :
    ((cfg0.win 5).blk t).view.emb j = ix2 n q := by
  obtain ⟨e00, e01, e10, e11, e20, e21, e30, e31, e40, e41, e50, e51⟩ := idx_facts t
  funext a; apply Fin.ext
  match a with
  | ⟨0, _⟩ => show win0_5.index t (0 : Fin 2) * 2000 + 1 * (j 0).val = n.val; omega
  | ⟨1, _⟩ => show win0_5.index t (1 : Fin 2) * 128 + 1 * (j 1).val = q.val; omega

/-- What point t writes back is block t of the whole-array function. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S2000x1024) hz,
    View.ld_unit_zero (S := S1024x128) hz, View.ld_unit_zero (S := S1x128) hz]
  funext j
  have hj0 : (j 0).val < 2000 := (j 0).isLt
  have hj1 : (j 1).val < 128 := (j 1).isLt
  have ht : t.val < 25 := t.isLt
  rw [View.read_apply, emb5 t j ⟨t.val * 2000 + (j 0).val, by omega⟩ rfl ⟨(j 1).val, hj1⟩ rfl]
  show k0_pay1 (F := Ideal) (iblk0 V c 0 t) (iblk0 V c 1 t) (iblk0 V c 2 t) (iblk0 V c 3 t) (iblk0 V c 4 t) ((cfg0.win 5).xinj (grid0.coords t) j) = _
  rw [xinj5 t j hj0 hj1]
  exact block_value V c t _ _ _ rfl

/-! ## The cover -/

/-- An index of the array is in point t's block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v29).slice (win0_5.rect t)).set ↔ _
  rw [View.set_slice_whole, Rect.mem_set_unit]
  exact Iff.rfl

/-- Row r is in the block of point r / 2000, which writes back. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 2000 < cfg0.N := by show _ < 25; omega
  obtain ⟨e00, e01, e10, e11, e20, e21, e30, e31, e40, e41, e50, e51⟩ := idx_facts ⟨(i 0).val / 2000, hN⟩
  refine ⟨⟨(i 0).val / 2000, hN⟩, flush0_5 _, ?_⟩
  rw [mem_blk]
  intro a
  have e50' : win0_5.index ⟨(i 0).val / 2000, hN⟩ (0 : Fin 2) = (i 0).val / 2000 := e50
  match a with
  | ⟨0, _⟩ => show win0_5.index ⟨(i 0).val / 2000, hN⟩ (0 : Fin 2) * 2000 ≤ (i 0).val ∧ (i 0).val < win0_5.index ⟨(i 0).val / 2000, hN⟩ (0 : Fin 2) * 2000 + 2000; omega
  | ⟨1, _⟩ => show win0_5.index ⟨(i 0).val / 2000, hN⟩ (1 : Fin 2) * 128 ≤ (i 1).val ∧ (i 1).val < win0_5.index ⟨(i 0).val / 2000, hN⟩ (1 : Fin 2) * 128 + 128; omega

end Blocks

/-! ## The array after the region -/

/-- After the region the output array is the fused layer of the five arrays the region found, index by index. -/
theorem arrAt_out (V : (c : Dev nD) → (b : Ref sig .tc) → Buf (Elt Ideal) ((c : Thread nD τ).loc b)) (c : Dev nD) :
    (Gen.dat0 (F := Ideal) V c).arrAt 5 cfg0.N
      = fun i => Cert.Spec.convReluAt (V c (Pipeline.arrRef spec0 0)) (V c (Pipeline.arrRef spec0 1)) (V c (Pipeline.arrRef spec0 2)) (V c (Pipeline.arrRef spec0 3)) (V c (Pipeline.arrRef spec0 4)) (i 0) (i 1) :=
  (dat0 V c).arrAt_eq_of_cover 5 (G V c) (fun t _ => flushed_eq V c t) cover

end Cert.KernelIdeal.Region0

end
-- ==== Proof.Region1.lean ====
import proofs.«409557_j13597866459798_1_alg».proof.Proof.Gen.KernelIdeal.Frame
import proofs.«409557_j13597866459798_1_alg».proof.Proof.Spec
import proofs.«409557_j13597866459798_1_alg».proof.Proof.KernelTerms
import Idealize.ShloMosaic.Lib.Pipeline.Value
import Idealize.ShloMosaic.Lib.ValueIdx
import Idealize.ShloMosaic.PureOps.Ideal.Laws

set_option maxRecDepth 16384

noncomputable section

namespace Cert.KernelIdeal.Region1

open Idealize.ShloMosaic Idealize.ShloMosaic.TcCoe Idealize.ShloMosaic.Tactic
open Idealize.SL Idealize.SL.Sem
open Idealize.ShloMosaic.Pipeline (Dat Cfg Window BodyObligation cellOf)
open Idealize.ShloMosaic.ValueIdx
open Cert.KernelIdeal Cert.KernelIdeal.Gen
open scoped BigOperators

/-! ## The two contractions at an index -/

/-- The `2000 × 128` by `128 × 128` contraction: the left operand's row is the output's row … -/
theorem lhs_sq_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … its column the contraction position … -/
theorem lhs_sq_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- … the right operand's row the contraction position … -/
theorem rhs_sq_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and its column the output's column. -/
theorem rhs_sq_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a `2000 × 128` block with a `128 × 128` matrix into a zero accumulator, at `(p, q)`: the sum over
    `k` of the entries `(p, k)` times `(k, q)`. -/
theorem matmul_sq_apply {φ₁ φ₂ : FTy} (a : FVec Ideal S2000x128 φ₁) (b : FVec Ideal S128x128 φ₂) (p : Fin 2000) (q : Fin 128) :
    matmul dot_S2000x128_S128x128_S2000x128_1_0_0_1_n_n none a b (constant S2000x128 .f32 0x00000000#32) (ix2 p q)
      = ∑ k : Fin 128, a (ix2 p k) * b (ix2 k q) := by
  show FloatOps.matmul dot_S2000x128_S128x128_S2000x128_1_0_0_1_n_n none a b (constant S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun x => Fin.ext (by
    match x with
    | ⟨0, _⟩ => exact lhs_sq_0 _ _
    | ⟨1, _⟩ => exact (lhs_sq_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun x => Fin.ext (by
    match x with
    | ⟨0, _⟩ => exact (rhs_sq_0 _ _).trans hk
    | ⟨1, _⟩ => exact rhs_sq_1 _ _)
  rw [el, er]

/-- The `2000 × 1024` by `1024 × 128` contraction: the left operand's row is the output's row … -/
theorem lhs_flat_0 (i : S2000x128.Idx) (q : dot_S2000x1024_S1024x128_S2000x128_1_0_0_1_n_n.contr.Idx) :
    (dot_S2000x1024_S1024x128_S2000x128_1_0_0_1_n_n.lhsIdx i q 0).val = (i 0).val := by
  unfold DotDims.lhsIdx
  rw [dif_neg (show ¬(0 : Fin S2000x1024.rank) ∈ dot_S2000x1024_S1024x128_S2000x128_1_0_0_1_n_n.lhsBatch by decide), dif_pos (show (0 : Fin S2000x1024.rank) ∈ dot_S2000x1024_S1024x128_S2000x128_1_0_0_1_n_n.lhsNonContracting by decide)]
  rfl
/-- … its column the contraction position … -/
theorem lhs_flat_1 (i : S2000x128.Idx) (q : dot_S2000x1024_S1024x128_S2000x128_1_0_0_1_n_n.contr.Idx) :
    (dot_S2000x1024_S1024x128_S2000x128_1_0_0_1_n_n.lhsIdx i q 1).val = (q ⟨0, by decide⟩).val :=
  dot_S2000x1024_S1024x128_S2000x128_1_0_0_1_n_n.lhsIdx_val_of_single rfl i q
/-- … the right operand's row the contraction position … -/
theorem rhs_flat_0 (i : S2000x128.Idx) (q : dot_S2000x1024_S1024x128_S2000x128_1_0_0_1_n_n.contr.Idx) :
    (dot_S2000x1024_S1024x128_S2000x128_1_0_0_1_n_n.rhsIdx i q 0).val = (q ⟨0, by decide⟩).val :=
  dot_S2000x1024_S1024x128_S2000x128_1_0_0_1_n_n.rhsIdx_val_of_single rfl i q
/-- … and its column the output's column. -/
theorem rhs_flat_1 (i : S2000x128.Idx) (q : dot_S2000x1024_S1024x128_S2000x128_1_0_0_1_n_n.contr.Idx) :
    (dot_S2000x1024_S1024x128_S2000x128_1_0_0_1_n_n.rhsIdx i q 1).val = (i 1).val := by
  unfold DotDims.rhsIdx
  rw [dif_neg (show ¬(1 : Fin S1024x128.rank) ∈ dot_S2000x1024_S1024x128_S2000x128_1_0_0_1_n_n.rhsBatch by decide), dif_pos (show (1 : Fin S1024x128.rank) ∈ dot_S2000x1024_S1024x128_S2000x128_1_0_0_1_n_n.rhsNonContracting by decide)]
  rfl

/-- The product of a `2000 × 1024` block with a `1024 × 128` matrix into a zero accumulator, at `(p, q)`: the sum
    over `k` of the entries `(p, k)` times `(k, q)`. -/
theorem matmul_flat_apply {φ₁ φ₂ : FTy} (a : FVec Ideal S2000x1024 φ₁) (b : FVec Ideal S1024x128 φ₂) (p : Fin 2000) (q : Fin 128) :
    matmul dot_S2000x1024_S1024x128_S2000x128_1_0_0_1_n_n none a b (constant S2000x128 .f32 0x00000000#32) (ix2 p q)
      = ∑ k : Fin 1024, a (ix2 p k) * b (ix2 k q) := by
  show FloatOps.matmul dot_S2000x1024_S1024x128_S2000x128_1_0_0_1_n_n none a b (constant S2000x128 .f32 0x00000000#32) (ix2 p q) = _
  rw [Ideal.matmul_constant_zero_apply, ← Equiv.sum_comp (contrEquiv1 dot_S2000x1024_S1024x128_S2000x128_1_0_0_1_n_n 1024 rfl rfl).symm]
  refine Finset.sum_congr rfl fun k _ => ?_
  have hk := contrEquiv1_symm_val dot_S2000x1024_S1024x128_S2000x128_1_0_0_1_n_n 1024 rfl rfl k
  have el : dot_S2000x1024_S1024x128_S2000x128_1_0_0_1_n_n.lhsIdx (ix2 p q) ((contrEquiv1 dot_S2000x1024_S1024x128_S2000x128_1_0_0_1_n_n 1024 rfl rfl).symm k) = ix2 p k := funext fun x => Fin.ext (by
    match x with
    | ⟨0, _⟩ => exact lhs_flat_0 _ _
    | ⟨1, _⟩ => exact (lhs_flat_1 _ _).trans hk)
  have er : dot_S2000x1024_S1024x128_S2000x128_1_0_0_1_n_n.rhsIdx (ix2 p q) ((contrEquiv1 dot_S2000x1024_S1024x128_S2000x128_1_0_0_1_n_n 1024 rfl rfl).symm k) = ix2 k q := funext fun x => Fin.ext (by
    match x with
    | ⟨0, _⟩ => exact (rhs_flat_0 _ _).trans hk
    | ⟨1, _⟩ => exact rhs_flat_1 _ _)
  rw [el, er]

/-! ## The body's value at an index of its block -/

/-- A `1 × 128` row broadcast over `2000` rows reads the row's entry of the column. -/
theorem bcast_row_apply {α : Type} (x : S1x128.Idx → α) (p : Fin 2000) (q : Fin 128) :
    broadcastTo S2000x128 x broadcasts_S1x128_S2000x128 (ix2 p q) = x (ix2 (0 : Fin 1) q) :=
  broadcastTo_apply x broadcasts_S1x128_S2000x128 (ix2 p q) (ix2 (0 : Fin 1) q) (fun a => match a with
    | ⟨0, _⟩ => rfl
    | ⟨1, _⟩ => rfl)

/-- The zero word is the extended real zero. -/
theorem zero_word : (FloatOps.ofBits (F := Ideal) .f32 0x00000000#32 : Ideal .f32) = 0 := Ideal.ofBits_zero_f32

/-- What the body stores at `(p, q)` of its `2000 × 128` block, from the seven blocks it loads: the capped layer's row
    `p` (the root product plus the flat contraction plus the bias row, capped below by zero) times the head matrix's
    column `q`, plus the head row's entry `q`. -/
theorem pay_apply (x0 : Vec Ideal S2000x128 .f32) (x1 : Vec Ideal S128x128 .f32) (x2 : Vec Ideal S2000x1024 .f32)
    (x3 : Vec Ideal S1024x128 .f32) (x4 : Vec Ideal S1x128 .f32) (x5 : Vec Ideal S128x128 .f32) (x6 : Vec Ideal S1x128 .f32)
    (p : Fin 2000) (q : Fin 128) :
    k1_pay1 (F := Ideal) x0 x1 x2 x3 x4 x5 x6 (ix2 p q)
      = (∑ h : Fin 128, max (((∑ c : Fin 128, x0 (ix2 p c) * x1 (ix2 c h)) + ∑ j : Fin 1024, x2 (ix2 p j) * x3 (ix2 j h))
            + x4 (ix2 (0 : Fin 1) h)) 0 * x5 (ix2 h q)) + x6 (ix2 (0 : Fin 1) q) := by
  unfold k1_pay1
  simp only [shapeCast_self, addf_apply, maximumf_apply, truncf_apply, matmul_sq_apply, matmul_flat_apply, bcast_row_apply,
    broadcast_apply, zero_word]

/-! ## From the blocks to the array -/

theorem zero_off : (![0, 0] : Fin 2 → Nat) = fun _ => 0 := funext fun a => by fin_cases a <;> rfl

/-- The index maps over the grid: the node-row windows (features, means, output) sit at block row `t`, every other
    window at its one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of grid point `t`'s block of `2000` node rows, as a node. -/
def rowOf (t : Fin cfg1.N) (p : Fin 2000) : Fin 50000 :=
  ⟨2000 * t.val + p.val, by have h := t.isLt; have hN : cfg1.N = 25 := N_1; have := p.isLt; omega⟩

section Blocks
variable (V : (c : Dev nD) → (b : Ref sig .tc) → Buf (Elt Ideal) ((c : Thread nD τ).loc b)) (c : Dev nD) (t : Fin cfg1.N)

/-- The feature block at point `t` is rows `2000 t …` of the feature array. -/
theorem blk0_apply (p : Fin 2000) (k : Fin 128) :
    (iblk1 V c 0 t : Vec Ideal S2000x128 .f32) (ix2 p k) = (V c (Pipeline.arrRef spec1 0) : S50000x128.Idx → EReal) (ix2 (rowOf t p) k) := by
  obtain ⟨e0, e1, -⟩ := idx_facts t
  show (V c (Pipeline.arrRef spec1 0) : S50000x128.Idx → EReal) (((cfg1.win 0).blk t).view.emb (ix2 p k)) = _
  refine congrArg (V c (Pipeline.arrRef spec1 0) : S50000x128.Idx → EReal) (funext fun a => Fin.ext ?_)
  match a with
  | ⟨0, _⟩ => show win1_0.index t (0 : Fin 2) * 2000 + 1 * p.val = 2000 * t.val + p.val; rw [e0]; omega
  | ⟨1, _⟩ => show win1_0.index t (1 : Fin 2) * 128 + 1 * k.val = k.val; rw [e1]; omega

/-- The root-weight block is the whole array at every point. -/
theorem blk1_apply (a b : Fin 128) :
    (iblk1 V c 1 t : Vec Ideal S128x128 .f32) (ix2 a b) = (V c (Pipeline.arrRef spec1 1) : S128x128.Idx → EReal) (ix2 a b) := by
  obtain ⟨-, -, e0, e1, -⟩ := idx_facts t
  show (V c (Pipeline.arrRef spec1 1) : S128x128.Idx → EReal) (((cfg1.win 1).blk t).view.emb (ix2 a b)) = _
  refine congrArg (V c (Pipeline.arrRef spec1 1) : S128x128.Idx → EReal) (funext fun x => Fin.ext ?_)
  match x with
  | ⟨0, _⟩ => show win1_1.index t (0 : Fin 2) * 128 + 1 * a.val = a.val; rw [e0]; omega
  | ⟨1, _⟩ => show win1_1.index t (1 : Fin 2) * 128 + 1 * b.val = b.val; rw [e1]; omega

/-- The block of flat means at point `t` is rows `2000 t …` of their array. -/
theorem blk2_apply (p : Fin 2000) (j : Fin 1024) :
    (iblk1 V c 2 t : Vec Ideal S2000x1024 .f32) (ix2 p j) = (V c (Pipeline.arrRef spec1 2) : S50000x1024.Idx → EReal) (ix2 (rowOf t p) j) := by
  obtain ⟨-, -, -, -, e0, e1, -⟩ := idx_facts t
  show (V c (Pipeline.arrRef spec1 2) : S50000x1024.Idx → EReal) (((cfg1.win 2).blk t).view.emb (ix2 p j)) = _
  refine congrArg (V c (Pipeline.arrRef spec1 2) : S50000x1024.Idx → EReal) (funext fun x => Fin.ext ?_)
  match x with
  | ⟨0, _⟩ => show win1_2.index t (0 : Fin 2) * 2000 + 1 * p.val = 2000 * t.val + p.val; rw [e0]; omega
  | ⟨1, _⟩ => show win1_2.index t (1 : Fin 2) * 1024 + 1 * j.val = j.val; rw [e1]; omega

/-- The flat-weight block is the whole array at every point. -/
theorem blk3_apply (j : Fin 1024) (h : Fin 128) :
    (iblk1 V c 3 t : Vec Ideal S1024x128 .f32) (ix2 j h) = (V c (Pipeline.arrRef spec1 3) : S1024x128.Idx → EReal) (ix2 j h) := by
  obtain ⟨-, -, -, -, -, -, e0, e1, -⟩ := idx_facts t
  show (V c (Pipeline.arrRef spec1 3) : S1024x128.Idx → EReal) (((cfg1.win 3).blk t).view.emb (ix2 j h)) = _
  refine congrArg (V c (Pipeline.arrRef spec1 3) : S1024x128.Idx → EReal) (funext fun x => Fin.ext ?_)
  match x with
  | ⟨0, _⟩ => show win1_3.index t (0 : Fin 2) * 1024 + 1 * j.val = j.val; rw [e0]; omega
  | ⟨1, _⟩ => show win1_3.index t (1 : Fin 2) * 128 + 1 * h.val = h.val; rw [e1]; omega

/-- The bias-row block is the whole row at every point. -/
theorem blk4_apply (z : Fin 1) (h : Fin 128) :
    (iblk1 V c 4 t : Vec Ideal S1x128 .f32) (ix2 z h) = (V c (Pipeline.arrRef spec1 4) : S1x128.Idx → EReal) (ix2 z h) := by
  obtain ⟨-, -, -, -, -, -, -, -, e0, e1, -⟩ := idx_facts t
  show (V c (Pipeline.arrRef spec1 4) : S1x128.Idx → EReal) (((cfg1.win 4).blk t).view.emb (ix2 z h)) = _
  refine congrArg (V c (Pipeline.arrRef spec1 4) : S1x128.Idx → EReal) (funext fun x => Fin.ext ?_)
  match x with
  | ⟨0, _⟩ => show win1_4.index t (0 : Fin 2) * 1 + 1 * z.val = z.val; rw [e0]; omega
  | ⟨1, _⟩ => show win1_4.index t (1 : Fin 2) * 128 + 1 * h.val = h.val; rw [e1]; omega

/-- The head-matrix block is the whole array at every point. -/
theorem blk5_apply (a b : Fin 128) :
    (iblk1 V c 5 t : Vec Ideal S128x128 .f32) (ix2 a b) = (V c (Pipeline.arrRef spec1 5) : S128x128.Idx → EReal) (ix2 a b) := by
  obtain ⟨-, -, -, -, -, -, -, -, -, -, e0, e1, -⟩ := idx_facts t
  show (V c (Pipeline.arrRef spec1 5) : S128x128.Idx → EReal) (((cfg1.win 5).blk t).view.emb (ix2 a b)) = _
  refine congrArg (V c (Pipeline.arrRef spec1 5) : S128x128.Idx → EReal) (funext fun x => Fin.ext ?_)
  match x with
  | ⟨0, _⟩ => show win1_5.index t (0 : Fin 2) * 128 + 1 * a.val = a.val; rw [e0]; omega
  | ⟨1, _⟩ => show win1_5.index t (1 : Fin 2) * 128 + 1 * b.val = b.val; rw [e1]; omega

/-- The head-row block is the whole row at every point. -/
theorem blk6_apply (z : Fin 1) (h : Fin 128) :
    (iblk1 V c 6 t : Vec Ideal S1x128 .f32) (ix2 z h) = (V c (Pipeline.arrRef spec1 6) : S1x128.Idx → EReal) (ix2 z h) := by
  obtain ⟨-, -, -, -, -, -, -, -, -, -, -, -, e0, e1, -⟩ := idx_facts t
  show (V c (Pipeline.arrRef spec1 6) : S1x128.Idx → EReal) (((cfg1.win 6).blk t).view.emb (ix2 z h)) = _
  refine congrArg (V c (Pipeline.arrRef spec1 6) : S1x128.Idx → EReal) (funext fun x => Fin.ext ?_)
  match x with
  | ⟨0, _⟩ => show win1_6.index t (0 : Fin 2) * 1 + 1 * z.val = z.val; rw [e0]; omega
  | ⟨1, _⟩ => show win1_6.index t (1 : Fin 2) * 128 + 1 * h.val = h.val; rw [e1]; omega

/-- The output block at point `t` sits at rows `2000 t …` of the output array. -/
theorem blk7_emb (p : Fin 2000) (q : Fin 128) :
    (((cfg1.win 7).blk t).view.emb (ix2 p q) : S50000x128.Idx) = ix2 (rowOf t p) q := by
  obtain ⟨-, -, -, -, -, -, -, -, -, -, -, -, -, -, e0, e1⟩ := idx_facts t
  refine funext fun x => Fin.ext ?_
  match x with
  | ⟨0, _⟩ => show win1_7.index t (0 : Fin 2) * 2000 + 1 * p.val = 2000 * t.val + p.val; rw [e0]; omega
  | ⟨1, _⟩ => show win1_7.index t (1 : Fin 2) * 128 + 1 * q.val = q.val; rw [e1]; omega

end Blocks

section Final
variable (V : (c : Dev nD) → (b : Ref sig .tc) → Buf (Elt Ideal) ((c : Thread nD τ).loc b)) (c : Dev nD)

/-- What the output array ends holding, as one function of the seven input arrays at the region's entry: at node `n`
    and column `col` the capped layer's row `n` times the head matrix's column, plus the head row's entry. -/
abbrev outFn : S50000x128.Idx → EReal := fun i =>
  Cert.Spec.convReluHeadAt (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5)) (V c (Pipeline.arrRef spec1 6)) (i 0) (i 1)

theorem outFn_ix2 (n : Fin 50000) (q : Fin 128) :
    outFn V c (ix2 n q) = Cert.Spec.convReluHeadAt (V c (Pipeline.arrRef spec1 0)) (V c (Pipeline.arrRef spec1 1)) (V c (Pipeline.arrRef spec1 2))
      (V c (Pipeline.arrRef spec1 3)) (V c (Pipeline.arrRef spec1 4)) (V c (Pipeline.arrRef spec1 5)) (V c (Pipeline.arrRef spec1 6)) n q := rfl

/-- What grid point `t` writes back is block `t` of that function. -/
theorem flushed_eq (t : Fin cfg1.N) :
    (dat1 (F := Ideal) V c).flushed 7 t = ((cfg1.win 7).blk t).view.read (Elt Ideal) (outFn V c) := by
  show (cfg1.win 7).cut (grid1.coords t) ((dat1 (F := Ideal) V c).after 7 t) = _
  rw [after1_7]
  unfold out1_7
  rw [View.canon_unit_zero zero_off]
  simp only [View.ld_unit_zero (S := S2000x128) zero_off, View.ld_unit_zero (S := S128x128) zero_off,
    View.ld_unit_zero (S := S2000x1024) zero_off, View.ld_unit_zero (S := S1024x128) zero_off, View.ld_unit_zero (S := S1x128) zero_off]
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (iblk1 V c 6 t) (ix2 p q)
      = outFn V c (((cfg1.win 7).blk t).view.emb (ix2 p q))
  rw [pay_apply, blk7_emb, outFn_ix2]
  unfold Cert.Spec.convReluHeadAt Cert.Spec.convReluAt
  simp only [blk0_apply, blk1_apply, blk2_apply, blk3_apply, blk4_apply, blk5_apply, blk6_apply]

/-- An index of the output array is in point `t`'s block iff each coordinate is in the block's range on its axis. -/
theorem mem_blk (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v61).slice (win1_7.rect t)).set ↔ _
  rw [View.set_slice_whole, Rect.mem_set_unit]
  exact Iff.rfl

/-- Every index of the output array is in the block of the point its row falls in: row `r` in point `r / 2000`. -/
theorem cover (i : S50000x128.Idx) : ∃ t : Fin cfg1.N, (cfg1.win 7).flush t = true ∧ i ∈ ((cfg1.win 7).blk t).view.set := by
  have h0 : (i 0).val < 50000 := (i 0).isLt
  have h1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, -, -, -, -, -, e0, e1⟩ := idx_facts t
  refine ⟨t, flush1_7 t, ?_⟩
  rw [mem_blk]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

end Final

/-- THE OUTPUT ARRAY after the region: at `(n, col)` the capped fused layer's row `n` times the head matrix's column
    `col`, plus the head row's entry `col`, of the seven input arrays as the region finds them. -/
theorem arrAt_out (V : (c : Dev nD) → (b : Ref sig .tc) → Buf (Elt Ideal) ((c : Thread nD τ).loc b)) (c : Dev nD) :
    (Gen.dat1 (F := Ideal) V c).arrAt 7 cfg1.N
      = fun i => Cert.Spec.convReluHeadAt (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (i 0) (i 1) :=
  (dat1 (F := Ideal) V c).arrAt_eq_of_cover 7 (outFn V c) (fun t _ => flushed_eq V c t) cover

end Cert.KernelIdeal.Region1

end
-- ==== Proof.KernelValue.lean ====
/-
  The kernel program's result at a node, over the extended reals.

  The result vector is column `0` of the second region's output array. That array is, entry by entry, the capped
  fused layer's row times the padded head matrix plus the padded head row, of the arrays the region finds: the first
  region's output, the second layer's root weights, the row of `8 * 128` segment means of the first region's output,
  the flat relation weights, the bias row, the head's weight column in column `0` of a zero matrix and the head's
  bias at `(0, 0)` of a zero row. Column `0` of the padded head is the head itself. The fused layer over these host
  terms is the relational layer, because the flat row holds the means over the segments keyed
  `target * 8 + relation`, and with targets in `[0, 50000)` and relations in `[0, 8)` a segment is the set of edges
  of one relation into one node. The first region's output array is in the same way the first relational layer of
  the launched arguments. So the result at node `n` is the regression head of the second layer of the first layer.
-/
import proofs.«409557_j13597866459798_1_alg».proof.Proof.Gen.KernelIdeal.Frame
import proofs.«409557_j13597866459798_1_alg».proof.Proof.Spec
import proofs.«409557_j13597866459798_1_alg».proof.Proof.KernelTerms
import proofs.«409557_j13597866459798_1_alg».proof.Proof.LayerAlgebra
import proofs.«409557_j13597866459798_1_alg».proof.Proof.KernelHost
import proofs.«409557_j13597866459798_1_alg».proof.Proof.KernelRead
import proofs.«409557_j13597866459798_1_alg».proof.Proof.Region0
import proofs.«409557_j13597866459798_1_alg».proof.Proof.Region1
import Idealize.ShloMosaic.Lib.ValueIdx

set_option maxRecDepth 16384

noncomputable section

namespace Cert.KernelIdeal.ValueP

open Idealize.ShloMosaic Idealize.ShloMosaic.TcCoe
open Idealize.ShloMosaic.Pipeline (Dat Cfg Window BodyObligation cellOf)
open Idealize.ShloMosaic.ValueIdx
open Cert.KernelIdeal Cert.KernelIdeal.Gen
open scoped BigOperators

/-- One layer's array over the kernel's host terms. -/
def hid (X : Cert.Spec.SNode.Idx → EReal) (ei : (⟨S2x800000, .i32⟩ : BufTy).Contents (Elt Ideal)) (et : (⟨S800000, .i32⟩ : BufTy).Contents (Elt Ideal))
    (w : (⟨S8x128x128, .f32⟩ : BufTy).Contents (Elt Ideal)) (root : (⟨S128x128, .f32⟩ : BufTy).Contents (Elt Ideal)) (b : (⟨S128, .f32⟩ : BufTy).Contents (Elt Ideal)) :
    Cert.Spec.SNode.Idx → EReal :=
  fun i => Cert.Spec.layerAt X (Terms.gathered (F := Ideal) X (Terms.srcOf (F := Ideal) ei)) (Terms.dstOf (F := Ideal) ei) et w root b (i 0) (i 1)

/-- The fused layer over the host terms (the flat row of segment means, the flat weights, the bias row) is the
    relational layer: the flat row holds the means over the segments keyed `target * 8 + relation`, and with targets
    in `[0, 50000)` and relations in `[0, 8)` a segment is the set of edges of one relation into one node. -/
theorem fused_eq (X : Cert.Spec.SNode.Idx → EReal) (ei : (⟨S2x800000, .i32⟩ : BufTy).Contents (Elt Ideal)) (et : (⟨S800000, .i32⟩ : BufTy).Contents (Elt Ideal))
    (w : (⟨S8x128x128, .f32⟩ : BufTy).Contents (Elt Ideal)) (root : (⟨S128x128, .f32⟩ : BufTy).Contents (Elt Ideal)) (b : (⟨S128, .f32⟩ : BufTy).Contents (Elt Ideal))
    (hdst : ∀ e : Fin 800000, 0 ≤ (Terms.dstOf (F := Ideal) ei (ix1 e)).toInt ∧ (Terms.dstOf (F := Ideal) ei (ix1 e)).toInt < 50000)
    (het : ∀ e : Fin 800000, 0 ≤ (et (ix1 e)).toInt ∧ (et (ix1 e)).toInt < 8) (n : Fin 50000) (h : Fin 128) :
    Cert.Spec.convReluAt X root (Terms.aggFlat (F := Ideal) X (Terms.srcOf (F := Ideal) ei) (Terms.keyOf (F := Ideal) ei et))
        (Terms.wFlat (F := Ideal) w) (Terms.biasRow (F := Ideal) b) n h
      = Cert.Spec.layerAt X (Terms.gathered (F := Ideal) X (Terms.srcOf (F := Ideal) ei)) (Terms.dstOf (F := Ideal) ei) et w root b n h :=
  Cert.LayerAlgebra.convReluAt_eq_layerAt X (Terms.gathered (F := Ideal) X (Terms.srcOf (F := Ideal) ei)) (Terms.dstOf (F := Ideal) ei) et
    (Terms.keyOf (F := Ideal) ei et) w root b
    (Terms.aggFlat (F := Ideal) X (Terms.srcOf (F := Ideal) ei) (Terms.keyOf (F := Ideal) ei et)) (Terms.wFlat (F := Ideal) w) (Terms.biasRow (F := Ideal) b)
    (fun n r c => Cert.KernelRead.aggFlat_apply X (Terms.srcOf (F := Ideal) ei) (Terms.keyOf (F := Ideal) ei et) n r c)
    (fun r c h => Cert.KernelRead.wFlat_apply w r c h)
    (fun h => Cert.KernelRead.biasRow_apply b h)
    (fun e => Cert.KernelRead.keyOf_apply ei et e)
    hdst het n h

variable (m : (ℓ : Loc nD τ sig) → Buf (Elt Ideal) ℓ) (ρ : Dev nD → PrngReg)

/-- The first region's output array is the first layer of the launched arguments. -/
theorem first_layer (c : Dev nD)
    (hdst : ∀ e : Fin 800000, 0 ≤ (Terms.dstOf (F := Ideal) (m ((c.tc : Thread nD τ).loc main_arg1)) (ix1 e)).toInt
      ∧ (Terms.dstOf (F := Ideal) (m ((c.tc : Thread nD τ).loc main_arg1)) (ix1 e)).toInt < 50000)
    (het : ∀ e : Fin 800000, 0 ≤ ((m ((c.tc : Thread nD τ).loc main_arg2)) (ix1 e)).toInt ∧ ((m ((c.tc : Thread nD τ).loc main_arg2)) (ix1 e)).toInt < 8) :
    (Gen.dat0 (F := Ideal) (Gen.V1 m ρ) c).arrAt 5 cfg0.N
      = hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [Region0.arrAt_out (Gen.V1 m ρ) c, HostVals.V1_w0 m ρ c, HostVals.V1_w1 m ρ c, HostVals.V1_w2 m ρ c,
    HostVals.V1_w3 m ρ c, HostVals.V1_w4 m ρ c]
  funext i
  exact fused_eq _ _ _ _ _ _ hdst het (i 0) (i 1)

set_option maxHeartbeats 2000000 in
/-- THE RESULT at node `n`: the regression head of the second layer of the first layer of the launched arguments. -/
theorem result_apply (c : Dev nD)
    (hdst : ∀ e : Fin 800000, 0 ≤ (Terms.dstOf (F := Ideal) (m ((c.tc : Thread nD τ).loc main_arg1)) (ix1 e)).toInt
      ∧ (Terms.dstOf (F := Ideal) (m ((c.tc : Thread nD τ).loc main_arg1)) (ix1 e)).toInt < 50000)
    (het : ∀ e : Fin 800000, 0 ≤ ((m ((c.tc : Thread nD τ).loc main_arg2)) (ix1 e)).toInt ∧ ((m ((c.tc : Thread nD τ).loc main_arg2)) (ix1 e)).toInt < 8)
    (n : Fin 50000) :
    Gen.W5 (F := Ideal) m ρ c (Proc.devRef .tc main_v63) (ix1 n)
      = Cert.Spec.headAt
          (hid (hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
            (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)))
          (m ((c.tc : Thread nD τ).loc main_arg9)) (m ((c.tc : Thread nD τ).loc main_arg10)) n := by
  rw [HostVals.W5_result m ρ c, Cert.KernelRead.col0_apply, Region1.arrAt_out (Gen.V3 m ρ) c,
    HostVals.V3_w0 m ρ c, HostVals.V3_w1 m ρ c, HostVals.V3_w2 m ρ c, HostVals.V3_w3 m ρ c, HostVals.V3_w4 m ρ c,
    HostVals.V3_w5 m ρ c, HostVals.V3_w6 m ρ c, first_layer m ρ c hdst het]
  show Cert.Spec.convReluHeadAt _ _ _ _ _ _ _ n (0 : Fin 128) = _
  unfold Cert.Spec.convReluHeadAt Cert.Spec.headAt
  rw [Cert.KernelRead.boutPad_apply]
  refine congrArg (· + _) (Finset.sum_congr rfl fun h _ => ?_)
  rw [Cert.KernelRead.woutPad_apply, fused_eq _ _ _ _ _ _ hdst het n h]
  rfl

end Cert.KernelIdeal.ValueP

end
-- ==== Proof.RefTerms.lean ====
/-
  The reference program's computation as named functions of arrays. One relational layer: the root term
  `x · root + b`; for each relation `r` the 0/1 indicator of the edges of relation `r`, the sum over each
  target node of the indicator-weighted gathered source rows, the count of those edges, their quotient by the
  larger of the count and one, and its product with the relation's weight matrix; the eight relation terms added
  to the root term in order; then the maximum with zero. The result is the second layer applied to the first,
  times the head's weight column, plus the head's bias.
-/
import proofs.«409557_j13597866459798_1_alg».proof.ReferenceIdeal

noncomputable section

namespace Cert.ReferenceIdeal.Terms

open Idealize.ShloMosaic Cert.ReferenceIdeal

variable {F : FTy → Type} [FloatOps F] [Facts]
open Facts₀

/-- Row `0` of the edge list: each edge's source node. -/
def srcOf (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- Row `1` of the edge list: each edge's target node. -/
def dstOf (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- The gather's index column: a negative source index is taken from the end of the node axis. -/
def srcCol (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The source node's feature row of every edge. -/
def gathered (feat : (⟨S50000x128, .f32⟩ : BufTy).Contents (Elt F)) (src : (⟨S800000, .i32⟩ : BufTy).Contents (Elt F)) : (⟨S800000x128, .f32⟩ : BufTy).Contents (Elt F) :=
  Host.gather gather_S50000x128_S800000x1_S800000x128_1_0_n_n_0_1_1128 feat (srcCol (F := F) src)

/-- The indicator of relation `r`: one on the edges whose relation word is `r`, zero elsewhere. -/
def relMask (et : (⟨S800000, .i32⟩ : BufTy).Contents (Elt F)) (r : BitVec 32) : (⟨S800000, .f32⟩ : BufTy).Contents (Elt F) :=
  uitofp (F := F) .f32 (cmpi .eq et (broadcastInDim S800000 ![] bcast_S_S800000 (constantI S_ 32 r)))

/-- Relation `r`'s mean of the gathered rows over each target node's edges of that relation. -/
def relMean (xs : (⟨S800000x128, .f32⟩ : BufTy).Contents (Elt F)) (dst et : (⟨S800000, .i32⟩ : BufTy).Contents (Elt F)) (r : BitVec 32) : (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (mulf xs (broadcastInDim S800000x128 ![0, 1] bcast_S800000x1_S800000x128_0_1
        (broadcastInDim S800000x1 ![0] bcast_S800000_S800000x1_0 (relMask (F := F) et r)))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst)
            (relMask (F := F) et r))
          (broadcastInDim S50000 ![] bcast_S_S50000 (constant S_ .f32 0x3F800000#32)))))

/-- Relation `r`'s term: its mean times its weight matrix, the slice of the weights at `off = (r, 0, 0)`. -/
def relTerm (xs : (⟨S800000x128, .f32⟩ : BufTy).Contents (Elt F)) (dst et : (⟨S800000, .i32⟩ : BufTy).Contents (Elt F)) (w : (⟨S8x128x128, .f32⟩ : BufTy).Contents (Elt F))
    (r : BitVec 32) (off : Fin 3 → Nat) (hs : S8x128x128.Slices off S1x128x128) : (⟨S50000x128, .f32⟩ : BufTy).Contents (Elt F) :=
  Host.dotGeneral dot_S50000x128_S128x128_S50000x128_1_0_0_1_n_n none (relMean xs dst et r)
    (shapeCast S128x128 (extractStridedSlice S1x128x128 off w hs) shapeCasts_S1x128x128_S128x128)

/-- One layer over given gathered rows: the root term, the eight relation terms added in order, the maximum with zero. -/
def layerOf (x : (⟨S50000x128, .f32⟩ : BufTy).Contents (Elt F)) (xs : (⟨S800000x128, .f32⟩ : BufTy).Contents (Elt F)) (dst et : (⟨S800000, .i32⟩ : BufTy).Contents (Elt F))
    (w : (⟨S8x128x128, .f32⟩ : BufTy).Contents (Elt F)) (root : (⟨S128x128, .f32⟩ : BufTy).Contents (Elt F)) (b : (⟨S128, .f32⟩ : BufTy).Contents (Elt F)) : (⟨S50000x128, .f32⟩ : BufTy).Contents (Elt F) :=
  maximumf
    (addf (addf (addf (addf (addf (addf (addf (addf (addf (Host.dotGeneral dot_S50000x128_S128x128_S50000x128_1_0_0_1_n_n none x root)
        (broadcastInDim S50000x128 ![0, 1] bcast_S1x128_S50000x128_0_1 (broadcastInDim S1x128 ![1] bcast_S128_S1x128_1 b)))
      (relTerm xs dst et w 0#32 ![0, 0, 0] slices_S8x128x128_S1x128x128_0_0_0))
      (relTerm xs dst et w 1#32 ![1, 0, 0] slices_S8x128x128_S1x128x128_1_0_0))
      (relTerm xs dst et w 2#32 ![2, 0, 0] slices_S8x128x128_S1x128x128_2_0_0))
      (relTerm xs dst et w 3#32 ![3, 0, 0] slices_S8x128x128_S1x128x128_3_0_0))
      (relTerm xs dst et w 4#32 ![4, 0, 0] slices_S8x128x128_S1x128x128_4_0_0))
      (relTerm xs dst et w 5#32 ![5, 0, 0] slices_S8x128x128_S1x128x128_5_0_0))
      (relTerm xs dst et w 6#32 ![6, 0, 0] slices_S8x128x128_S1x128x128_6_0_0))
      (relTerm xs dst et w 7#32 ![7, 0, 0] slices_S8x128x128_S1x128x128_7_0_0))
    (broadcastInDim S50000x128 ![] bcast_S_S50000x128 (constant S_ .f32 0x00000000#32))

/-- One layer: the gathered rows are the layer input's rows at the edges' sources. -/
def layer (x : (⟨S50000x128, .f32⟩ : BufTy).Contents (Elt F)) (ei : (⟨S2x800000, .i32⟩ : BufTy).Contents (Elt F)) (et : (⟨S800000, .i32⟩ : BufTy).Contents (Elt F))
    (w : (⟨S8x128x128, .f32⟩ : BufTy).Contents (Elt F)) (root : (⟨S128x128, .f32⟩ : BufTy).Contents (Elt F)) (b : (⟨S128, .f32⟩ : BufTy).Contents (Elt F)) : (⟨S50000x128, .f32⟩ : BufTy).Contents (Elt F) :=
  layerOf x (gathered x (srcOf (F := F) ei)) (dstOf (F := F) ei) et w root b

/-- The reference's result: two layers, the head's product and bias, as a vector over the nodes. -/
def out (x : (⟨S50000x128, .f32⟩ : BufTy).Contents (Elt F)) (ei : (⟨S2x800000, .i32⟩ : BufTy).Contents (Elt F)) (et : (⟨S800000, .i32⟩ : BufTy).Contents (Elt F))
    (w1 : (⟨S8x128x128, .f32⟩ : BufTy).Contents (Elt F)) (root1 : (⟨S128x128, .f32⟩ : BufTy).Contents (Elt F)) (b1 : (⟨S128, .f32⟩ : BufTy).Contents (Elt F))
    (w2 : (⟨S8x128x128, .f32⟩ : BufTy).Contents (Elt F)) (root2 : (⟨S128x128, .f32⟩ : BufTy).Contents (Elt F)) (b2 : (⟨S128, .f32⟩ : BufTy).Contents (Elt F))
    (wout : (⟨S128x1, .f32⟩ : BufTy).Contents (Elt F)) (bout : (⟨S1, .f32⟩ : BufTy).Contents (Elt F)) : (⟨S50000, .f32⟩ : BufTy).Contents (Elt F) :=
  shapeCast S50000
    (addf (Host.dotGeneral dot_S50000x128_S128x1_S50000x1_1_0_0_1_n_n none
        (layer (layer x ei et w1 root1 b1) ei et w2 root2 b2) wout)
      (broadcastInDim S50000x1 ![0, 1] bcast_S1x1_S50000x1_0_1 (broadcastInDim S1x1 ![1] bcast_S1_S1x1_1 bout)))
    shapeCasts_S50000x1_S50000

end Cert.ReferenceIdeal.Terms

end
-- ==== Proof.RefOut.lean ====
/-
  The reference's run with its result named by the reference's computation: the composed term the run reads
  back is, operation for operation, two relational layers and the head applied to the arguments.
-/
import proofs.«409557_j13597866459798_1_alg».proof.Proof.RefRun
import proofs.«409557_j13597866459798_1_alg».proof.Proof.RefTerms

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 0 in
/-- The run's result term is the reference's computation of the arguments. -/
theorem res_eq (m : (ℓ : Loc nD τ sig) → Buf (Elt F) ℓ) (c : Dev nD) :
    res_main_v368 (F := F) m c = Terms.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold res_main_v368 Terms.out Terms.layer Terms.layerOf Terms.relTerm Terms.relMean Terms.relMask Terms.gathered Terms.srcCol Terms.srcOf Terms.dstOf
  rfl

/-- Every weakly fair execution of the reference ends with its result at the reference's computation of the
    arguments, the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v368) = Terms.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (res_eq m c), (h c).2⟩) (run (F := F) m ρ)

end Cert.ReferenceIdeal.RunP

end
-- ==== Proof.RefRead.lean ====
/-
  The reference's layer, read at one index, is the relational layer of the specification.

  Reading each operation at an index: a relation's indicator is one on the edges of that relation and zero
  elsewhere, so the indicator-weighted sum over a target's edges is the sum over the target's edges of that
  relation, and the sum of the indicators is their number; the scatter of zero-initialised sums is read as a sum
  over the edges whose target word is the node; the quotient, the weight slice and the product with it are read
  entrywise; the eight relation terms added in order to the root term are the root term plus their sum.
-/
import proofs.«409557_j13597866459798_1_alg».proof.Proof.RefTerms
import proofs.«409557_j13597866459798_1_alg».proof.Proof.Spec
import proofs.«409557_j13597866459798_1_alg».proof.Proof.LibScatterAdd
import Idealize.ShloMosaic.PureOps.Ideal.Laws
import Idealize.ShloMosaic.Lib.ValueIdx
import Idealize.ShloMosaic.Lib.Pipeline.Value
import Idealize.ShloMosaic.Lib.IdealHost
import Idealize.ShloMosaic.Lib.ValueLayout

noncomputable section

namespace Cert.RefRead

open Idealize.ShloMosaic Idealize.ShloMosaic.ValueIdx Cert.ReferenceIdeal Cert.Spec
open scoped BigOperators

/-- A host contraction of an `M × K` array with a `K × N` array over the one shared axis, at `(m, n)`: the sum over
    `k` of the products of the entries `(m, k)` and `(k, n)`. -/
theorem dot_plain_apply {M K N : Nat} {φ₁ φ₂ : FTy}
    (d : DotDims (⟨2, ![M, K]⟩ : Shape) (⟨2, ![K, N]⟩ : Shape) (⟨2, ![M, N]⟩ : Shape))
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal (⟨2, ![M, K]⟩ : Shape) φ₁) (rhs : FVec Ideal (⟨2, ![K, N]⟩ : Shape) φ₂) (m : Fin M) (n : Fin N) :
    Host.dotGeneral d none lhs rhs (ix2 m n) = ∑ k : Fin K, lhs (ix2 m k) * rhs (ix2 k n) := by
  simp only [Host.dotGeneral]
  rw [Ideal.dotGeneral_apply]
  obtain ⟨lc, rc, ln, rn, lb, rb, wf⟩ := d
  dsimp only at h1 h2 h3 h4 h5 h6
  subst h1 h2 h3 h4 h5 h6
  rw [← Equiv.sum_comp (contrEquiv1 (⟨[1], [0], [0], [1], [], [], wf⟩ :
    DotDims (⟨2, ![M, K]⟩ : Shape) (⟨2, ![K, N]⟩ : Shape) (⟨2, ![M, N]⟩ : Shape)) K rfl rfl).symm]
  refine Finset.sum_congr rfl fun k _ => ?_
  congr 2
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-! ## Broadcasts and a reshape read at an index -/

section Layout
variable {α : Type}

/-- A vector broadcast to a column reads, at `(e, z)`, the vector at `e`. -/
theorem bcast_vec_col_apply {E : Nat} (h : (⟨1, ![E]⟩ : Shape).BroadcastsInDim (⟨2, ![E, 1]⟩ : Shape) ![0])
    (v : (⟨1, ![E]⟩ : Shape).Idx → α) (e : Fin E) (z : Fin 1) :
    broadcastInDim (⟨2, ![E, 1]⟩ : Shape) ![0] h v (ix2 e z) = v (ix1 e) :=
  broadcastInDim_apply _ h v _ _ (fun a => by
    match a with
    | ⟨0, _⟩ =>
      show e.val = if E = 1 then 0 else e.val
      have := e.isLt
      split <;> omega)

/-- A column broadcast along the rows' entries reads, at `(e, c)`, the column at `(e, 0)`. -/
theorem bcast_col_rows_apply {E C : Nat} (h : (⟨2, ![E, 1]⟩ : Shape).BroadcastsInDim (⟨2, ![E, C]⟩ : Shape) ![0, 1])
    (v : (⟨2, ![E, 1]⟩ : Shape).Idx → α) (e : Fin E) (c : Fin C) :
    broadcastInDim (⟨2, ![E, C]⟩ : Shape) ![0, 1] h v (ix2 e c) = v (ix2 e (0 : Fin 1)) :=
  broadcastInDim_apply _ h v _ _ (fun a => by
    match a with
    | ⟨0, _⟩ =>
      show e.val = if E = 1 then 0 else e.val
      have := e.isLt
      split <;> omega
    | ⟨1, _⟩ =>
      show (0 : Nat) = if (1 : Nat) = 1 then 0 else c.val
      rw [if_pos rfl])

/-- A vector broadcast to one row reads, at `(z, c)`, the vector at `c`. -/
theorem bcast_vec_row_apply {C : Nat} (h : (⟨1, ![C]⟩ : Shape).BroadcastsInDim (⟨2, ![1, C]⟩ : Shape) ![1])
    (v : (⟨1, ![C]⟩ : Shape).Idx → α) (z : Fin 1) (c : Fin C) :
    broadcastInDim (⟨2, ![1, C]⟩ : Shape) ![1] h v (ix2 z c) = v (ix1 c) :=
  broadcastInDim_apply _ h v _ _ (fun a => by
    match a with
    | ⟨0, _⟩ =>
      show c.val = if C = 1 then 0 else c.val
      have := c.isLt
      split <;> omega)

/-- One row broadcast down the rows reads, at `(m, c)`, the row at `(0, c)`. -/
theorem bcast_row_rows_apply {M C : Nat} (h : (⟨2, ![1, C]⟩ : Shape).BroadcastsInDim (⟨2, ![M, C]⟩ : Shape) ![0, 1])
    (v : (⟨2, ![1, C]⟩ : Shape).Idx → α) (m : Fin M) (c : Fin C) :
    broadcastInDim (⟨2, ![M, C]⟩ : Shape) ![0, 1] h v (ix2 m c) = v (ix2 (0 : Fin 1) c) :=
  broadcastInDim_apply _ h v _ _ (fun a => by
    match a with
    | ⟨0, _⟩ =>
      show (0 : Nat) = if (1 : Nat) = 1 then 0 else m.val
      rw [if_pos rfl]
    | ⟨1, _⟩ =>
      show c.val = if C = 1 then 0 else c.val
      have := c.isLt
      split <;> omega)

/-- An `[a, 1]` array cast to `[a]` reads, at `i`, the operand at `(i, 0)`. -/
theorem shapeCast_a1_a_apply {a : Nat} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Layout

variable [Cert.ReferenceIdeal.Facts]

/-- A relation's indicator at edge `e`: one when the edge's relation word is `r`, zero otherwise. -/
theorem relMask_apply (et : (⟨S800000, .i32⟩ : BufTy).Contents (Elt Ideal)) (r : BitVec 32) (e : Fin 800000) :
    Terms.relMask (F := Ideal) et r (ix1 e) = if et (ix1 e) = r then 1 else 0 := by
  have hb : broadcastInDim S800000 ![] Facts₀.bcast_S_S800000 (constantI S_ 32 r) (ix1 e) = r :=
    broadcastInDim_scalar_apply _ _ _
  show (((IntOp.cmpi .eq (et (ix1 e))
    (broadcastInDim S800000 ![] Facts₀.bcast_S_S800000 (constantI S_ 32 r) (ix1 e))).toNat : ℝ) : EReal) = _
  rw [hb]
  by_cases h : et (ix1 e) = r
  · rw [if_pos h, h]; simp [IntOp.cmpi]
  · rw [if_neg h]; simp [IntOp.cmpi, h]

/-- Rows scattered by target into an array that is zero at `(n, c)`, each row weighted by a relation's indicator, at
    `(n, c)`: the sum of the rows' entries at `c` over the edges into `n` of relation `r`. -/
theorem relSum_core (xs : SEdgeRows.Idx → EReal) (dst et : IVec SEdge 32) (r : Fin 8) (n : Fin 50000) (c : Fin 128)
    (zero : S50000x128.Idx → EReal) (idx : IVec S800000x1 32) (upd : S800000x128.Idx → EReal)
    (hz : zero (ix2 n c) = 0) (hidx : ∀ e : Fin 800000, idx (ix2 e (0 : Fin 1)) = dst (ix1 e))
    (hupd : ∀ e : Fin 800000, upd (ix2 e c) = xs (ix2 e c) * (if et (ix1 e) = BitVec.ofNat 32 r.val then 1 else 0)) :
    Ideal.hostScatterAdd scatter_S50000x128_S800000x1_S800000x128_1_0_0_1 zero idx upd (ix2 n c)
      = ∑ e ∈ edgesOf dst et n r, xs (ix2 e c) := by
  rw [Cert.LibScatterAdd.hostScatterAdd_rows_apply _ rfl rfl rfl rfl, hz, zero_add]
  unfold edgesOf
  rw [Finset.sum_filter, Finset.sum_filter]
  refine Finset.sum_congr rfl fun e _ => ?_
  rw [hidx, hupd, mul_ite, mul_one, mul_zero, ite_and]

/-- A relation's indicator scattered by target into a vector that is zero at `n`, at `n`: the number of edges into `n`
    of relation `r`. -/
theorem relCount_core (dst et : IVec SEdge 32) (r : Fin 8) (n : Fin 50000)
    (zero : S50000.Idx → EReal) (idx : IVec S800000x1 32) (upd : S800000.Idx → EReal)
    (hz : zero (ix1 n) = 0) (hidx : ∀ e : Fin 800000, idx (ix2 e (0 : Fin 1)) = dst (ix1 e))
    (hupd : ∀ e : Fin 800000, upd (ix1 e) = if et (ix1 e) = BitVec.ofNat 32 r.val then 1 else 0) :
    Ideal.hostScatterAdd scatter_S50000_S800000x1_S800000_n_0_0_1 zero idx upd (ix1 n)
      = ∑ _e ∈ edgesOf dst et n r, (1 : EReal) := by
  rw [Cert.LibScatterAdd.hostScatterAdd_vec_apply _ rfl rfl rfl rfl, hz, zero_add]
  unfold edgesOf
  rw [Finset.sum_filter, Finset.sum_filter]
  refine Finset.sum_congr rfl fun e _ => ?_
  rw [hidx, hupd, ite_and]

/-- The host's scatter-add at the ideal instance is the ideal scatter-add. -/
private theorem scatterAdd_ideal {s si su : Shape} (d : ScatterDims s si su) {w : Nat} (v : FVec Ideal s .f32) (idx : IVec si w)
    (upd : FVec Ideal su .f32) (i : s.Idx) :
    Host.scatterAdd (F := Ideal) d v idx upd i = Ideal.hostScatterAdd d v idx upd i := rfl

/-- Relation `r`'s mean at `(n, c)`: the sum scatter reads as the sum over the edges into `n` of relation `r`, the
    count scatter as their number. -/
theorem relMean_apply (xs : (⟨S800000x128, .f32⟩ : BufTy).Contents (Elt Ideal)) (dst et : (⟨S800000, .i32⟩ : BufTy).Contents (Elt Ideal))
    (r : Fin 8) (n : Fin 50000) (c : Fin 128) :
    Terms.relMean (F := Ideal) xs dst et (BitVec.ofNat 32 r.val) (ix2 n c) = meanAgg xs dst et n r c := by
  unfold Terms.relMean meanAgg
  rw [hostDivf_apply]
  refine congrArg₂ Ideal.div ?_ ?_
  · rw [scatterAdd_ideal]
    exact relSum_core xs dst et r n c _ _ _
      (by rw [broadcastInDim_scalar_apply, constant_apply, Ideal.ofBits_zero_f32])
      (fun e => bcast_vec_col_apply _ dst e 0)
      (fun e => by
        rw [mulf_apply, bcast_col_rows_apply, bcast_vec_col_apply, relMask_apply])
  · rw [bcast_col_rows_apply, bcast_vec_col_apply, maximumf_apply, scatterAdd_ideal]
    refine congrArg₂ max ?_ ?_
    · exact relCount_core dst et r n _ _ _
        (by rw [broadcastInDim_scalar_apply, constant_apply, Ideal.ofBits_zero_f32])
        (fun e => bcast_vec_col_apply _ dst e 0) (fun e => relMask_apply et _ e)
    · rw [broadcastInDim_scalar_apply, constant_apply, Ideal.ofBits_one_f32]

/-- Relation `r`'s term at `(n, h)`: the mean's row at `n` times column `h` of the relation's weight matrix, the
    slice of the weights at `(r, 0, 0)` with its unit axis dropped. -/
theorem relTerm_apply (xs : (⟨S800000x128, .f32⟩ : BufTy).Contents (Elt Ideal)) (dst et : (⟨S800000, .i32⟩ : BufTy).Contents (Elt Ideal))
    (w : (⟨S8x128x128, .f32⟩ : BufTy).Contents (Elt Ideal)) (r : Fin 8)
    (hs : S8x128x128.Slices ![r.val, 0, 0] S1x128x128) (n : Fin 50000) (h : Fin 128) :
    Terms.relTerm (F := Ideal) xs dst et w (BitVec.ofNat 32 r.val) ![r.val, 0, 0] hs (ix2 n h)
      = ∑ c : Fin 128, meanAgg xs dst et n r c * w (ix3 r c h) := by
  unfold Terms.relTerm
  rw [dot_plain_apply dot_S50000x128_S128x128_S50000x128_1_0_0_1_n_n rfl rfl rfl rfl rfl rfl]
  refine Finset.sum_congr rfl fun c _ => ?_
  rw [relMean_apply, shapeCast_1ab_ab_apply]
  refine congrArg (meanAgg xs dst et n r c * ·) ?_
  exact extractStridedSlice_apply _ w hs _ (ix3 r c h) (fun a => by
    match a with
    | ⟨0, _⟩ => show r.val = r.val + 0; omega
    | ⟨1, _⟩ => show c.val = 0 + c.val; omega
    | ⟨2, _⟩ => show h.val = 0 + h.val; omega)

/-- One layer over given gathered rows, at `(n, h)`. -/
theorem layerOf_apply (x : (⟨S50000x128, .f32⟩ : BufTy).Contents (Elt Ideal)) (xs : (⟨S800000x128, .f32⟩ : BufTy).Contents (Elt Ideal)) (dst et : (⟨S800000, .i32⟩ : BufTy).Contents (Elt Ideal))
    (w : (⟨S8x128x128, .f32⟩ : BufTy).Contents (Elt Ideal)) (root : (⟨S128x128, .f32⟩ : BufTy).Contents (Elt Ideal)) (b : (⟨S128, .f32⟩ : BufTy).Contents (Elt Ideal)) (n : Fin 50000) (h : Fin 128) :
    Terms.layerOf (F := Ideal) x xs dst et w root b (ix2 n h) = layerAt x xs dst et w root b n h := by
  have t0 : Terms.relTerm (F := Ideal) xs dst et w 0#32 ![0, 0, 0] Facts₀.slices_S8x128x128_S1x128x128_0_0_0 (ix2 n h)
      = ∑ c : Fin 128, meanAgg xs dst et n 0 c * w (ix3 (0 : Fin 8) c h) := relTerm_apply xs dst et w 0 _ n h
  have t1 : Terms.relTerm (F := Ideal) xs dst et w 1#32 ![1, 0, 0] Facts₀.slices_S8x128x128_S1x128x128_1_0_0 (ix2 n h)
      = ∑ c : Fin 128, meanAgg xs dst et n 1 c * w (ix3 (1 : Fin 8) c h) := relTerm_apply xs dst et w 1 _ n h
  have t2 : Terms.relTerm (F := Ideal) xs dst et w 2#32 ![2, 0, 0] Facts₀.slices_S8x128x128_S1x128x128_2_0_0 (ix2 n h)
      = ∑ c : Fin 128, meanAgg xs dst et n 2 c * w (ix3 (2 : Fin 8) c h) := relTerm_apply xs dst et w 2 _ n h
  have t3 : Terms.relTerm (F := Ideal) xs dst et w 3#32 ![3, 0, 0] Facts₀.slices_S8x128x128_S1x128x128_3_0_0 (ix2 n h)
      = ∑ c : Fin 128, meanAgg xs dst et n 3 c * w (ix3 (3 : Fin 8) c h) := relTerm_apply xs dst et w 3 _ n h
  have t4 : Terms.relTerm (F := Ideal) xs dst et w 4#32 ![4, 0, 0] Facts₀.slices_S8x128x128_S1x128x128_4_0_0 (ix2 n h)
      = ∑ c : Fin 128, meanAgg xs dst et n 4 c * w (ix3 (4 : Fin 8) c h) := relTerm_apply xs dst et w 4 _ n h
  have t5 : Terms.relTerm (F := Ideal) xs dst et w 5#32 ![5, 0, 0] Facts₀.slices_S8x128x128_S1x128x128_5_0_0 (ix2 n h)
      = ∑ c : Fin 128, meanAgg xs dst et n 5 c * w (ix3 (5 : Fin 8) c h) := relTerm_apply xs dst et w 5 _ n h
  have t6 : Terms.relTerm (F := Ideal) xs dst et w 6#32 ![6, 0, 0] Facts₀.slices_S8x128x128_S1x128x128_6_0_0 (ix2 n h)
      = ∑ c : Fin 128, meanAgg xs dst et n 6 c * w (ix3 (6 : Fin 8) c h) := relTerm_apply xs dst et w 6 _ n h
  have t7 : Terms.relTerm (F := Ideal) xs dst et w 7#32 ![7, 0, 0] Facts₀.slices_S8x128x128_S1x128x128_7_0_0 (ix2 n h)
      = ∑ c : Fin 128, meanAgg xs dst et n 7 c * w (ix3 (7 : Fin 8) c h) := relTerm_apply xs dst et w 7 _ n h
  unfold Terms.layerOf
  simp only [maximumf_apply, addf_apply]
  rw [t0, t1, t2, t3, t4, t5, t6, t7,
    dot_plain_apply dot_S50000x128_S128x128_S50000x128_1_0_0_1_n_n rfl rfl rfl rfl rfl rfl,
    bcast_row_rows_apply, bcast_vec_row_apply, broadcastInDim_scalar_apply, constant_apply, Ideal.ofBits_zero_f32]
  unfold layerAt
  rw [Fin.sum_univ_eight]
  simp only [add_assoc]

/-- The reference's result at node `n`: the head over the second layer of the first. -/
theorem out_apply (x : (⟨S50000x128, .f32⟩ : BufTy).Contents (Elt Ideal)) (ei : (⟨S2x800000, .i32⟩ : BufTy).Contents (Elt Ideal)) (et : (⟨S800000, .i32⟩ : BufTy).Contents (Elt Ideal))
    (w1 : (⟨S8x128x128, .f32⟩ : BufTy).Contents (Elt Ideal)) (root1 : (⟨S128x128, .f32⟩ : BufTy).Contents (Elt Ideal)) (b1 : (⟨S128, .f32⟩ : BufTy).Contents (Elt Ideal))
    (w2 : (⟨S8x128x128, .f32⟩ : BufTy).Contents (Elt Ideal)) (root2 : (⟨S128x128, .f32⟩ : BufTy).Contents (Elt Ideal)) (b2 : (⟨S128, .f32⟩ : BufTy).Contents (Elt Ideal))
    (wout : (⟨S128x1, .f32⟩ : BufTy).Contents (Elt Ideal)) (bout : (⟨S1, .f32⟩ : BufTy).Contents (Elt Ideal)) (n : Fin 50000) :
    Terms.out (F := Ideal) x ei et w1 root1 b1 w2 root2 b2 wout bout (ix1 n)
      = headAt (Terms.layer (F := Ideal) (Terms.layer (F := Ideal) x ei et w1 root1 b1) ei et w2 root2 b2) wout bout n := by
  unfold Terms.out headAt
  rw [shapeCast_a1_a_apply, addf_apply,
    dot_plain_apply dot_S50000x128_S128x1_S50000x1_1_0_0_1_n_n rfl rfl rfl rfl rfl rfl,
    bcast_row_rows_apply, bcast_vec_row_apply]

end Cert.RefRead

end
-- ==== Proof.PreDecode.lean ====
/-
  The integer inputs' ranges, read out of the precondition. The precondition says that a printed predicate of the
  argument arrays is the true word; the predicate is a conjunction whose last two conjuncts are, over all edges,
  "0 ≤ target < 50000" and "0 ≤ relation < 8" (signed compares against broadcast constants, reduced by "and").
  A reduction by "and" that came out true met only true words; a true signed compare is an inequality of the
  words read as integers.
-/
import proofs.«409557_j13597866459798_1_alg».proof.Defs
import proofs.«409557_j13597866459798_1_alg».proof.Proof.KernelTerms
import Idealize.ShloMosaic.Lib.ReduceAll
import Idealize.ShloMosaic.Lib.ValueIdx
import Idealize.ShloMosaic.Lib.StableHlo.Predicate

noncomputable section

namespace Cert.PreDecode

open Idealize.ShloMosaic Idealize.ShloMosaic.ValueIdx Idealize.SL.Sem

/-- The scalar shape has one index. -/
instance subsingleton_scalar_idx : Subsingleton (⟨0, ![]⟩ : Shape).Idx := ⟨fun a b => funext fun d => d.elim0⟩

/-- A word that passed the signed compares `lo ≤ ·` and `· < hi` against broadcast scalars lies in `[lo, hi)`. -/
theorem in_range {s : Shape} (hb : (⟨0, ![]⟩ : Shape).BroadcastsInDim s ![]) (x : IVec s 32) (lo hi : BitVec 32) (i : s.Idx)
    (h : andi (cmpi .sge x (broadcastInDim s ![] hb (constantI ⟨0, ![]⟩ 32 lo)))
          (cmpi .slt x (broadcastInDim s ![] hb (constantI ⟨0, ![]⟩ 32 hi))) i = 1#1) :
    lo.toInt ≤ (x i).toInt ∧ (x i).toInt < hi.toInt := by
  have h0 : 0 < (⟨0, ![]⟩ : Shape).numel := by decide
  obtain ⟨h1, h2⟩ := IntOp.andi_eq_one.1 h
  have g1 := IntOp.cmpi_sge.1 h1
  have g2 := IntOp.cmpi_slt.1 h2
  rw [StableHlo.Predicate.bcast_scalar hb h0] at g1 g2
  exact ⟨g1, g2⟩

variable [Cert.KernelIdeal.Facts] [Cert.Pre_finite_inputs.Facts]

theorem ranges (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ e : Fin 800000,
        0 ≤ (Cert.KernelIdeal.Terms.dstOf (F := Ideal) (m ((c.tc : Thread _ _).loc Cert.KernelIdeal.main_arg1)) (ix1 e)).toInt
        ∧ (Cert.KernelIdeal.Terms.dstOf (F := Ideal) (m ((c.tc : Thread _ _).loc Cert.KernelIdeal.main_arg1)) (ix1 e)).toInt < 50000)
    ∧ (∀ e : Fin 800000,
        0 ≤ ((m ((c.tc : Thread _ _).loc Cert.KernelIdeal.main_arg2)) (ix1 e)).toInt
        ∧ ((m ((c.tc : Thread _ _).loc Cert.KernelIdeal.main_arg2)) (ix1 e)).toInt < 8) := by
  have e0 := congrFun (hpre c) ix0
  obtain ⟨e1, h60⟩ := IntOp.andi_eq_one.1 e0
  obtain ⟨-, h53⟩ := IntOp.andi_eq_one.1 e1
  refine ⟨fun e => ?_, fun e => ?_⟩
  · have := in_range _ _ _ _ (ix1 e) (Host.reduce_andi_all _ _ _ _ _ h53 (ix1 e))
    exact this
  · have := in_range _ _ _ _ (ix1 e) (Host.reduce_andi_all _ _ _ _ _ h60 (ix1 e))
    exact this

end Cert.PreDecode

end
-- ==== Proof.Shared.lean ====
/-
  The two programs' host terms that the comparison shares are the same functions: the gathered source rows and
  each edge's target word are computed by the same operations with the same dimension numbers.
-/
import proofs.«409557_j13597866459798_1_alg».proof.Proof.KernelTerms
import proofs.«409557_j13597866459798_1_alg».proof.Proof.RefTerms
import Idealize.ShloMosaic.PureOps.Ideal

noncomputable section

namespace Cert.Shared

open Idealize.ShloMosaic

variable [Cert.KernelIdeal.Facts] [Cert.ReferenceIdeal.Facts]

theorem gathered_eq (x : (⟨Cert.KernelIdeal.S50000x128, .f32⟩ : BufTy).Contents (Elt Ideal)) (ei : (⟨Cert.KernelIdeal.S2x800000, .i32⟩ : BufTy).Contents (Elt Ideal)) :
    Cert.KernelIdeal.Terms.gathered (F := Ideal) x (Cert.KernelIdeal.Terms.srcOf (F := Ideal) ei)
      = Cert.ReferenceIdeal.Terms.gathered (F := Ideal) x (Cert.ReferenceIdeal.Terms.srcOf (F := Ideal) ei) := rfl

theorem dstOf_eq (ei : (⟨Cert.KernelIdeal.S2x800000, .i32⟩ : BufTy).Contents (Elt Ideal)) :
    Cert.KernelIdeal.Terms.dstOf (F := Ideal) ei = Cert.ReferenceIdeal.Terms.dstOf (F := Ideal) ei := rfl

end Cert.Shared

end
-- ==== Proof.lean ====
/-
  A two-layer relational graph convolution with a linear head: the fused kernels against the per-relation reference,
  over the extended reals.

  One layer at node `n`, feature `h`: the root product `Σ_c x(n,c)·root(c,h)` plus the bias plus, for each of the eight
  relations `r`, `Σ_c mean_r(n,c)·W(r,c,h)`, capped below by zero, where `mean_r(n,c)` is the sum of the source rows
  of the edges of relation `r` into `n` over the larger of their number and one. The reference computes each
  relation's sums by weighting every edge with the 0/1 indicator of the relation and scattering by target; the
  kernel's program scatters once by the key `target·8 + relation`, lays the means out as one row of `8·128`
  entries per node and contracts it with the weights as one `1024 × 128` matrix inside a fused kernel. Under the
  precondition every target is a node index and every relation a label in `[0, 8)`, so the key `n·8 + r` names
  exactly the edges of relation `r` into `n` (no 32-bit wrap-around), and the two groupings of the sum agree by
  commutativity and associativity of addition. The head multiplies the second layer by the weight column (padded
  to 128 lanes in the kernel, whose result's first column is kept) and adds the bias.

  The frames of the two kernel programs are the launch theorem's; the reference's is its run with the result
  dropped; the ideal pass recorded no rewrite, so there is nothing to preserve.
-/
import proofs.«409557_j13597866459798_1_alg».proof.Defs
import proofs.«409557_j13597866459798_1_alg».proof.Proof.Gen.Kernel
import proofs.«409557_j13597866459798_1_alg».proof.Proof.Gen.Kernel.Skeleton
import proofs.«409557_j13597866459798_1_alg».proof.Proof.Gen.Kernel.Launch
import proofs.«409557_j13597866459798_1_alg».proof.Proof.Gen.Kernel.Points
import proofs.«409557_j13597866459798_1_alg».proof.Proof.Gen.Kernel.Frame
import proofs.«409557_j13597866459798_1_alg».proof.Proof.Gen.KernelIdeal
import proofs.«409557_j13597866459798_1_alg».proof.Proof.Gen.KernelIdeal.Skeleton
import proofs.«409557_j13597866459798_1_alg».proof.Proof.Gen.KernelIdeal.Launch
import proofs.«409557_j13597866459798_1_alg».proof.Proof.Gen.KernelIdeal.Points
import proofs.«409557_j13597866459798_1_alg».proof.Proof.Gen.KernelIdeal.Frame
import proofs.«409557_j13597866459798_1_alg».proof.Proof.Gen.ReferenceIdeal
import proofs.«409557_j13597866459798_1_alg».proof.Proof.Gen.Pre_finite_inputs
import Idealize.ShloMosaic.Adequacy
import Idealize.ShloMosaic.Init
import proofs.«409557_j13597866459798_1_alg».proof.Proof.KernelRun
import proofs.«409557_j13597866459798_1_alg».proof.Proof.KernelValue
import proofs.«409557_j13597866459798_1_alg».proof.Proof.RefOut
import proofs.«409557_j13597866459798_1_alg».proof.Proof.RefRead
import proofs.«409557_j13597866459798_1_alg».proof.Proof.PreDecode
import proofs.«409557_j13597866459798_1_alg».proof.Proof.Shared

noncomputable section

namespace Cert.Proof

open Idealize.ShloMosaic Idealize.SL.Sem Idealize.ShloMosaic.ValueIdx

/-- The reference's layer is the layer over the kernel program's host terms: at every index both are the
    relational layer of the same gathered rows and target words. -/
theorem layer_eq_hid [Cert.KernelIdeal.Facts] [Cert.ReferenceIdeal.Facts]
    (X : (⟨Cert.KernelIdeal.S50000x128, .f32⟩ : BufTy).Contents (Elt Ideal)) (ei : (⟨Cert.KernelIdeal.S2x800000, .i32⟩ : BufTy).Contents (Elt Ideal))
    (et : (⟨Cert.KernelIdeal.S800000, .i32⟩ : BufTy).Contents (Elt Ideal)) (w : (⟨Cert.KernelIdeal.S8x128x128, .f32⟩ : BufTy).Contents (Elt Ideal))
    (root : (⟨Cert.KernelIdeal.S128x128, .f32⟩ : BufTy).Contents (Elt Ideal)) (b : (⟨Cert.KernelIdeal.S128, .f32⟩ : BufTy).Contents (Elt Ideal)) :
    Cert.ReferenceIdeal.Terms.layer (F := Ideal) X ei et w root b = Cert.KernelIdeal.ValueP.hid X ei et w root b := by
  funext i
  obtain ⟨n, h, rfl⟩ : ∃ (n : Fin 50000) (h : Fin 128), i = ix2 n h := ⟨i 0, i 1, eq_ix2 i⟩
  unfold Cert.ReferenceIdeal.Terms.layer Cert.KernelIdeal.ValueP.hid
  rw [Cert.RefRead.layerOf_apply, Cert.Shared.gathered_eq, Cert.Shared.dstOf_eq]

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.RunP.run_out (F := Ideal) m ρ)

/-- Run from memories that agree on the arguments, both programs end with the head of the second layer of the
    first at every node. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W5 (F := Ideal) m ρ c (Proc.devRef .tc Cert.KernelIdeal.main_v63), Cert.KernelIdeal.RunP.run_result (F := Ideal) m ρ, ?_⟩
  refine (θ_run (Cert.ReferenceIdeal.defs (F := Ideal)) _ _).mono (fun _ h c => ⟨(h c).1.trans ?_, (h c).2⟩)
    (Cert.ReferenceIdeal.RunP.run_out (F := Ideal) m' ρ')
  obtain ⟨hdst, het⟩ := Cert.PreDecode.ranges m hpre c
  obtain ⟨h0, h1, h2, h3, h4, h5, h6, h7, h8, h9, h10⟩ := hagree c
  rw [h0, h1, h2, h3, h4, h5, h6, h7, h8, h9, h10]
  funext i
  obtain ⟨n, rfl⟩ : ∃ n : Fin 50000, i = ix1 n := ⟨i 0, eq_ix1 i⟩
  show _ = Cert.KernelIdeal.Gen.W5 (F := Ideal) m ρ c (Proc.devRef .tc Cert.KernelIdeal.main_v63) (ix1 n)
  rw [Cert.RefRead.out_apply, Cert.KernelIdeal.ValueP.result_apply m ρ c hdst het n, layer_eq_hid, layer_eq_hid]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
